-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![48, 48, 48]⟩ ⟨3, ![96, 192, 192]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![48, 48, 48]⟩ ⟨3, ![96, 192, 192]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S48x48x48 : Shape := ⟨3, ![48, 48, 48]⟩
abbrev S_ : Shape := ⟨0, ![]⟩

class Facts : Prop where
  bcast_S_S48x48x48 : S_.BroadcastsInDim S48x48x48 (![] : Fin 0 → Fin S48x48x48.rank)
  reducesTo_S48x48x48_S_d0_1_2 : S48x48x48.ReducesTo [0, 1, 2] S_
  h_S_ : 0 < S_.numel

variable [Facts]

def fn {F : FTy → Type} [FloatOps F] (main_arg0 : FVec F S48x48x48 .f32) : IVec S_ 1 :=
  let main_v0 : FVec F S48x48x48 .f32 := Host.absf main_arg0
  let main_cst : FVec F S_ .f32 := constant S_ .f32 0x7F800000#32
  let main_v1 : FVec F S48x48x48 .f32 := broadcastInDim S48x48x48 ![] bcast_S_S48x48x48 main_cst
  let main_v2 : IVec S48x48x48 1 := cmpf .olt main_v0 main_v1
  let main_c : IVec S_ 1 := constantI S_ 1 1#1
  let main_v3 : IVec S_ 1 := (fun x v => Host.reduce IntOp.andi x v reducesTo_S48x48x48_S_d0_1_2 h_S_) main_v2 main_c
  main_v3
-- ==== Pre_finite_inputs_ReferenceIdeal.lean ====
abbrev S96x192x192 : Shape := ⟨3, ![96, 192, 192]⟩
abbrev S_ : Shape := ⟨0, ![]⟩

class Facts : Prop where
  bcast_S_S96x192x192 : S_.BroadcastsInDim S96x192x192 (![] : Fin 0 → Fin S96x192x192.rank)
  reducesTo_S96x192x192_S_d0_1_2 : S96x192x192.ReducesTo [0, 1, 2] S_
  h_S_ : 0 < S_.numel

variable [Facts]

def fn {F : FTy → Type} [FloatOps F] (main_arg0 : FVec F S96x192x192 .f32) : IVec S_ 1 :=
  let main_v0 : FVec F S96x192x192 .f32 := Host.absf main_arg0
  let main_cst : FVec F S_ .f32 := constant S_ .f32 0x7F800000#32
  let main_v1 : FVec F S96x192x192 .f32 := broadcastInDim S96x192x192 ![] bcast_S_S96x192x192 main_cst
  let main_v2 : IVec S96x192x192 1 := cmpf .olt main_v0 main_v1
  let main_c : IVec S_ 1 := constantI S_ 1 1#1
  let main_v3 : IVec S_ 1 := (fun x v => Host.reduce IntOp.andi x v reducesTo_S96x192x192_S_d0_1_2 h_S_) main_v2 main_c
  main_v3
-- ==== Kernel.lean ====
abbrev S48x48x48 : Shape := ⟨3, ![48, 48, 48]⟩
abbrev S2x48x48 : Shape := ⟨3, ![2, 48, 48]⟩
abbrev S6 : Shape := ⟨1, ![6]⟩
abbrev S_ : Shape := ⟨0, ![]⟩
abbrev S48x48x1 : Shape := ⟨3, ![48, 48, 1]⟩
abbrev S48x48 : Shape := ⟨2, ![48, 48]⟩
abbrev S1x48x48 : Shape := ⟨3, ![1, 48, 48]⟩
abbrev S1 : Shape := ⟨1, ![1]⟩
abbrev S48x1x48 : Shape := ⟨3, ![48, 1, 48]⟩
abbrev S47x48x48 : Shape := ⟨3, ![47, 48, 48]⟩
abbrev S48x47x48 : Shape := ⟨3, ![48, 47, 48]⟩
abbrev S48x48x47 : Shape := ⟨3, ![48, 48, 47]⟩

abbrev nBuf : Space → Nat
  | .hbm => 2
  | .vmem => 6
  | .smem => 0
  | _ => 0

abbrev bufTy : (tb : Table) → Fin (tcTables nBuf tb) → BufTy
  | .hbm, ⟨0, _⟩ => ⟨S48x48x48, .f32⟩
  | .hbm, ⟨1, _⟩ => ⟨S48x48x48, .f32⟩
  | .local _ .vmem, ⟨0, _⟩ => ⟨S48x48x48, .f32⟩
  | .local _ .vmem, ⟨1, _⟩ => ⟨S48x48x48, .f32⟩
  | .local _ .vmem, ⟨2, _⟩ => ⟨S2x48x48, .f32⟩
  | .local _ .vmem, ⟨3, _⟩ => ⟨S2x48x48, .f32⟩
  | .local _ .vmem, ⟨4, _⟩ => ⟨S2x48x48, .f32⟩
  | .local _ .vmem, ⟨5, _⟩ => ⟨S2x48x48, .f32⟩
  | _, _ => ⟨S48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_12 : BitVec 32 := 0#32
  let v23 : BitVec 1 := Scalar.cmpi .ne v22 c0_i32_12
  v23

def k0_dev1 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_6 : BitVec 32 := 1#32
  let v16 : BitVec 32 := Scalar.subi v2 c1_i32_6
  let c16_i32_143 : BitVec 32 := 16#32
  let v154 : BitVec 32 := Scalar.muli v16 c16_i32_143
  let v155 : BitVec 32 := Scalar.addi c0_i32_144 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v156 : BitVec 32 := Scalar.muli v5 c4_i32_145
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v158 : BitVec 32 := Scalar.muli v8 c1_i32_146
  let v159 : BitVec 32 := Scalar.addi v157 v158
  v159.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 1 := Scalar.cmpi .slt v2 c1_i32_2
  let v24 : BitVec 32 := Scalar.extui v10
  let c0_i32_13 : BitVec 32 := 0#32
  let v25 : BitVec 1 := Scalar.cmpi .ne v24 c0_i32_13
  v25

def k0_dev2 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v17 : BitVec 32 := Scalar.addi v2 c1_i32_7
  let c16_i32_143 : BitVec 32 := 16#32
  let v154 : BitVec 32 := Scalar.muli v17 c16_i32_143
  let v155 : BitVec 32 := Scalar.addi c0_i32_144 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v156 : BitVec 32 := Scalar.muli v5 c4_i32_145
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v158 : BitVec 32 := Scalar.muli v8 c1_i32_146
  let v159 : BitVec 32 := Scalar.addi v157 v158
  v159.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v26 : BitVec 32 := Scalar.extui v11
  let c0_i32_14 : BitVec 32 := 0#32
  let v27 : BitVec 1 := Scalar.cmpi .ne v26 c0_i32_14
  v27

def k0_dev3 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v154 : BitVec 32 := Scalar.muli v2 c16_i32_143
  let v155 : BitVec 32 := Scalar.addi c0_i32_144 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v18 : BitVec 32 := Scalar.subi v5 c1_i32_8
  let c4_i32_145 : BitVec 32 := 4#32
  let v156 : BitVec 32 := Scalar.muli v18 c4_i32_145
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v158 : BitVec 32 := Scalar.muli v8 c1_i32_146
  let v159 : BitVec 32 := Scalar.addi v157 v158
  v159.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v12 : BitVec 1 := Scalar.cmpi .slt v5 c3_i32
  let v28 : BitVec 32 := Scalar.extui v12
  let c0_i32_15 : BitVec 32 := 0#32
  let v29 : BitVec 1 := Scalar.cmpi .ne v28 c0_i32_15
  v29

def k0_dev4 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v154 : BitVec 32 := Scalar.muli v2 c16_i32_143
  let v155 : BitVec 32 := Scalar.addi c0_i32_144 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v19 : BitVec 32 := Scalar.addi v5 c1_i32_9
  let c4_i32_145 : BitVec 32 := 4#32
  let v156 : BitVec 32 := Scalar.muli v19 c4_i32_145
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v158 : BitVec 32 := Scalar.muli v8 c1_i32_146
  let v159 : BitVec 32 := Scalar.addi v157 v158
  v159.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v30 : BitVec 32 := Scalar.extui v13
  let c0_i32_16 : BitVec 32 := 0#32
  let v31 : BitVec 1 := Scalar.cmpi .ne v30 c0_i32_16
  v31

def k0_dev5 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v154 : BitVec 32 := Scalar.muli v2 c16_i32_143
  let v155 : BitVec 32 := Scalar.addi c0_i32_144 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v156 : BitVec 32 := Scalar.muli v5 c4_i32_145
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.subi v8 c1_i32_10
  let c1_i32_146 : BitVec 32 := 1#32
  let v158 : BitVec 32 := Scalar.muli v20 c1_i32_146
  let v159 : BitVec 32 := Scalar.addi v157 v158
  v159.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v14 : BitVec 1 := Scalar.cmpi .slt v8 c3_i32_5
  let v32 : BitVec 32 := Scalar.extui v14
  let c0_i32_17 : BitVec 32 := 0#32
  let v33 : BitVec 1 := Scalar.cmpi .ne v32 c0_i32_17
  v33

def k0_dev6 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v154 : BitVec 32 := Scalar.muli v2 c16_i32_143
  let v155 : BitVec 32 := Scalar.addi c0_i32_144 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v156 : BitVec 32 := Scalar.muli v5 c4_i32_145
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.addi v8 c1_i32_11
  let c1_i32_146 : BitVec 32 := 1#32
  let v158 : BitVec 32 := Scalar.muli v21 c1_i32_146
  let v159 : BitVec 32 := Scalar.addi v157 v158
  v159.toNat
def k0_cond13 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 1 := Scalar.cmpi .slt v2 c1_i32_2
  let v64 : BitVec 32 := Scalar.extui v10
  let c0_i32_40 : BitVec 32 := 0#32
  let v65 : BitVec 1 := Scalar.cmpi .ne v64 c0_i32_40
  v65

def k0_dev7 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_31 : BitVec 32 := 1#32
  let v58 : BitVec 32 := Scalar.addi v2 c1_i32_31
  let c16_i32_142 : BitVec 32 := 16#32
  let v154 : BitVec 32 := Scalar.muli v58 c16_i32_142
  let v155 : BitVec 32 := Scalar.addi c0_i32_143 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v156 : BitVec 32 := Scalar.muli v5 c4_i32_144
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v158 : BitVec 32 := Scalar.muli v8 c1_i32_145
  let v159 : BitVec 32 := Scalar.addi v157 v158
  v159.toNat
def k0_cond14 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v66 : BitVec 32 := Scalar.extui v9
  let c0_i32_45 : BitVec 32 := 0#32
  let v67 : BitVec 1 := Scalar.cmpi .ne v66 c0_i32_45
  v67

def k0_dev8 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_32 : BitVec 32 := 1#32
  let v59 : BitVec 32 := Scalar.subi v2 c1_i32_32
  let c16_i32_142 : BitVec 32 := 16#32
  let v154 : BitVec 32 := Scalar.muli v59 c16_i32_142
  let v155 : BitVec 32 := Scalar.addi c0_i32_143 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v156 : BitVec 32 := Scalar.muli v5 c4_i32_144
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v158 : BitVec 32 := Scalar.muli v8 c1_i32_145
  let v159 : BitVec 32 := Scalar.addi v157 v158
  v159.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v12 : BitVec 1 := Scalar.cmpi .slt v5 c3_i32
  let v68 : BitVec 32 := Scalar.extui v12
  let c0_i32_50 : BitVec 32 := 0#32
  let v69 : BitVec 1 := Scalar.cmpi .ne v68 c0_i32_50
  v69

def k0_dev9 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v154 : BitVec 32 := Scalar.muli v2 c16_i32_142
  let v155 : BitVec 32 := Scalar.addi c0_i32_143 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v60 : BitVec 32 := Scalar.addi v5 c1_i32_33
  let c4_i32_144 : BitVec 32 := 4#32
  let v156 : BitVec 32 := Scalar.muli v60 c4_i32_144
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v158 : BitVec 32 := Scalar.muli v8 c1_i32_145
  let v159 : BitVec 32 := Scalar.addi v157 v158
  v159.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v70 : BitVec 32 := Scalar.extui v11
  let c0_i32_55 : BitVec 32 := 0#32
  let v71 : BitVec 1 := Scalar.cmpi .ne v70 c0_i32_55
  v71

def k0_dev10 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v154 : BitVec 32 := Scalar.muli v2 c16_i32_142
  let v155 : BitVec 32 := Scalar.addi c0_i32_143 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_34 : BitVec 32 := 1#32
  let v61 : BitVec 32 := Scalar.subi v5 c1_i32_34
  let c4_i32_144 : BitVec 32 := 4#32
  let v156 : BitVec 32 := Scalar.muli v61 c4_i32_144
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v158 : BitVec 32 := Scalar.muli v8 c1_i32_145
  let v159 : BitVec 32 := Scalar.addi v157 v158
  v159.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v14 : BitVec 1 := Scalar.cmpi .slt v8 c3_i32_5
  let v72 : BitVec 32 := Scalar.extui v14
  let c0_i32_60 : BitVec 32 := 0#32
  let v73 : BitVec 1 := Scalar.cmpi .ne v72 c0_i32_60
  v73

def k0_dev11 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v154 : BitVec 32 := Scalar.muli v2 c16_i32_142
  let v155 : BitVec 32 := Scalar.addi c0_i32_143 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v156 : BitVec 32 := Scalar.muli v5 c4_i32_144
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v62 : BitVec 32 := Scalar.addi v8 c1_i32_35
  let c1_i32_145 : BitVec 32 := 1#32
  let v158 : BitVec 32 := Scalar.muli v62 c1_i32_145
  let v159 : BitVec 32 := Scalar.addi v157 v158
  v159.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v74 : BitVec 32 := Scalar.extui v13
  let c0_i32_64 : BitVec 32 := 0#32
  let v75 : BitVec 1 := Scalar.cmpi .ne v74 c0_i32_64
  v75

def k0_dev12 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v154 : BitVec 32 := Scalar.muli v2 c16_i32_142
  let v155 : BitVec 32 := Scalar.addi c0_i32_143 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v156 : BitVec 32 := Scalar.muli v5 c4_i32_144
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v63 : BitVec 32 := Scalar.subi v8 c1_i32_36
  let c1_i32_145 : BitVec 32 := 1#32
  let v158 : BitVec 32 := Scalar.muli v63 c1_i32_145
  let v159 : BitVec 32 := Scalar.addi v157 v158
  v159.toNat
abbrev stage0_0 : Fin 1 → Memref sig .tc .vmem S48x48x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S48x48x48_S48x48x48_0_0_0 : ∀ a, (![0, 0, 0] : Fin 3 → Nat) a + S48x48x48.size a ≤ S48x48x48.size a
  h_S48x48x48 : 0 < S48x48x48.numel
  shapeCasts_S48x48x48_S48x48x48 : S48x48x48.ShapeCasts S48x48x48
  slices_S48x48x48_o0_0_0_S48x48x1 : S48x48x48.Slices ![0, 0, 0] S48x48x1
  shapeCasts_S48x48x1_S48x48 : S48x48x1.ShapeCasts S48x48
  inb_S2x48x48_S1x48x48_0_0_0 : ∀ a, (![0, 0, 0] : Fin 3 → Nat) a + S1x48x48.size a ≤ S2x48x48.size a
  h_S1x48x48 : 0 < S1x48x48.numel
  shapeCasts_S1x48x48_S48x48 : S1x48x48.ShapeCasts S48x48
  shapeCasts_S48x48_S1x48x48 : S48x48.ShapeCasts S1x48x48
  slices_S48x48x48_o0_0_47_S48x48x1 : S48x48x48.Slices ![0, 0, 47] S48x48x1
  inb_S2x48x48_S1x48x48_1_0_0 : ∀ a, (![1, 0, 0] : Fin 3 → Nat) a + S1x48x48.size a ≤ S2x48x48.size a
  inb_S6_S1_0 : ∀ a, (![0] : Fin 1 → Nat) a + S1.size a ≤ S6.size a
  squeezes_S1_S_ : S1.Squeezes S_
  squeezes_S1x48x48_S48x48 : S1x48x48.Squeezes S48x48
  inb_S48x48x48_S1x48x48_47_0_0 : ∀ a, (![47, 0, 0] : Fin 3 → Nat) a + S1x48x48.size a ≤ S48x48x48.size a
  inb_S6_S1_1 : ∀ a, (![1] : Fin 1 → Nat) a + S1.size a ≤ S6.size a
  inb_S48x48x48_S1x48x48_0_0_0 : ∀ a, (![0, 0, 0] : Fin 3 → Nat) a + S1x48x48.size a ≤ S48x48x48.size a
  inb_S6_S1_2 : ∀ a, (![2] : Fin 1 → Nat) a + S1.size a ≤ S6.size a
  inb_S48x48x48_S48x1x48_0_47_0 : ∀ a, (![0, 47, 0] : Fin 3 → Nat) a + S48x1x48.size a ≤ S48x48x48.size a
  squeezes_S48x1x48_S48x48 : S48x1x48.Squeezes S48x48
  inb_S6_S1_3 : ∀ a, (![3] : Fin 1 → Nat) a + S1.size a ≤ S6.size a
  inb_S48x48x48_S48x1x48_0_0_0 : ∀ a, (![0, 0, 0] : Fin 3 → Nat) a + S48x1x48.size a ≤ S48x48x48.size a
  inb_S6_S1_4 : ∀ a, (![4] : Fin 1 → Nat) a + S1.size a ≤ S6.size a
  inb_S6_S1_5 : ∀ a, (![5] : Fin 1 → Nat) a + S1.size a ≤ S6.size a
  slices_S48x48x48_o0_0_0_S47x48x48 : S48x48x48.Slices ![0, 0, 0] S47x48x48
  concatenates_S1x48x48_S47x48x48_S48x48x48_d0 : Shape.Concatenates [S1x48x48, S47x48x48] S48x48x48 0
  slices_S48x48x48_o1_0_0_S47x48x48 : S48x48x48.Slices ![1, 0, 0] S47x48x48
  concatenates_S47x48x48_S1x48x48_S48x48x48_d0 : Shape.Concatenates [S47x48x48, S1x48x48] S48x48x48 0
  slices_S48x48x48_o0_0_0_S48x47x48 : S48x48x48.Slices ![0, 0, 0] S48x47x48
  concatenates_S48x1x48_S48x47x48_S48x48x48_d1 : Shape.Concatenates [S48x1x48, S48x47x48] S48x48x48 1
  slices_S48x48x48_o0_1_0_S48x47x48 : S48x48x48.Slices ![0, 1, 0] S48x47x48
  concatenates_S48x47x48_S48x1x48_S48x48x48_d1 : Shape.Concatenates [S48x47x48, S48x1x48] S48x48x48 1
  slices_S48x48x48_o0_0_0_S48x48x47 : S48x48x48.Slices ![0, 0, 0] S48x48x47
  concatenates_S48x48x1_S48x48x47_S48x48x48_d2 : Shape.Concatenates [S48x48x1, S48x48x47] S48x48x48 2
  slices_S48x48x48_o0_0_1_S48x48x47 : S48x48x48.Slices ![0, 0, 1] S48x48x47
  concatenates_S48x48x47_S48x48x1_S48x48x48_d2 : Shape.Concatenates [S48x48x47, S48x48x1] S48x48x48 2
  h_S48x1x48 : 0 < S48x1x48.numel
  shapeCasts_S48x1x48_S48x48 : S48x1x48.ShapeCasts S48x48
  shapeCasts_S48x48_S48x1x48 : S48x48.ShapeCasts S48x1x48
  inb_S48x48x48_S48x48x1_0_0_0 : ∀ a, (![0, 0, 0] : Fin 3 → Nat) a + S48x48x1.size a ≤ S48x48x48.size a
  h_S48x48x1 : 0 < S48x48x1.numel
  shapeCasts_S48x48_S48x48x1 : S48x48.ShapeCasts S48x48x1
  inb_S48x48x48_S48x48x1_0_0_47 : ∀ a, (![0, 0, 47] : Fin 3 → Nat) a + S48x48x1.size a ≤ S48x48x48.size a
  hcc0_scratch4 : 2 + S6.numel ≤ 14
  hcc0_scratch5 : 8 + S6.numel ≤ 14
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_dev3_lt : ∀ d0 : Dev nD, ∀ (k0_h3 : k0_cond3 d0 = 1#1), (k0_dev3 d0) < nD
  k0_dev4_lt : ∀ d0 : Dev nD, ∀ (k0_h4 : k0_cond4 d0 = 1#1), (k0_dev4 d0) < nD
  k0_dev5_lt : ∀ d0 : Dev nD, ∀ (k0_h5 : k0_cond5 d0 = 1#1), (k0_dev5 d0) < nD
  k0_dev6_lt : ∀ d0 : Dev nD, ∀ (k0_h6 : k0_cond6 d0 = 1#1), (k0_dev6 d0) < nD
  k0_dev7_lt : ∀ d0 : Dev nD, ∀ (k0_h13 : k0_cond13 d0 = 1#1), (k0_dev7 d0) < nD
  k0_dev8_lt : ∀ d0 : Dev nD, ∀ (k0_h14 : k0_cond14 d0 = 1#1), (k0_dev8 d0) < nD
  k0_dev9_lt : ∀ d0 : Dev nD, ∀ (k0_h15 : k0_cond15 d0 = 1#1), (k0_dev9 d0) < nD
  k0_dev10_lt : ∀ d0 : Dev nD, ∀ (k0_h16 : k0_cond16 d0 = 1#1), (k0_dev10 d0) < nD
  k0_dev11_lt : ∀ d0 : Dev nD, ∀ (k0_h17 : k0_cond17 d0 = 1#1), (k0_dev11 d0) < nD
  k0_dev12_lt : ∀ d0 : Dev nD, ∀ (k0_h18 : k0_cond18 d0 = 1#1), (k0_dev12 d0) < nD
  hstage0_0 : ∀ j, (stage0_0 j).IsWhole
  hstage0_1 : ∀ j, (stage0_1 j).IsWhole

variable [Facts₀]

abbrev cc0_scratch4 : DmaSems sig S6 := SemArray.consecutive 2 S6 hcc0_scratch4
abbrev cc0_scratch5 : DmaSems sig S6 := SemArray.consecutive 8 S6 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S96x192x192 : Shape := ⟨3, ![96, 192, 192]⟩
abbrev S_ : Shape := ⟨0, ![]⟩
abbrev S94x190x190 : Shape := ⟨3, ![94, 190, 190]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S96x192x192, .f32⟩
  | .hbm, ⟨1, _⟩ => ⟨S_, .f32⟩
  | .hbm, ⟨2, _⟩ => ⟨S96x192x192, .f32⟩
  | .hbm, ⟨3, _⟩ => ⟨S94x190x190, .f32⟩
  | .hbm, ⟨4, _⟩ => ⟨S94x190x190, .f32⟩
  | .hbm, ⟨5, _⟩ => ⟨S94x190x190, .f32⟩
  | .hbm, ⟨6, _⟩ => ⟨S94x190x190, .f32⟩
  | .hbm, ⟨7, _⟩ => ⟨S94x190x190, .f32⟩
  | .hbm, ⟨8, _⟩ => ⟨S94x190x190, .f32⟩
  | .hbm, ⟨9, _⟩ => ⟨S94x190x190, .f32⟩
  | .hbm, ⟨10, _⟩ => ⟨S94x190x190, .f32⟩
  | .hbm, ⟨11, _⟩ => ⟨S94x190x190, .f32⟩
  | .hbm, ⟨12, _⟩ => ⟨S94x190x190, .f32⟩
  | .hbm, ⟨13, _⟩ => ⟨S94x190x190, .f32⟩
  | .hbm, ⟨14, _⟩ => ⟨S94x190x190, .f32⟩
  | .hbm, ⟨15, _⟩ => ⟨S_, .f32⟩
  | .hbm, ⟨16, _⟩ => ⟨S94x190x190, .f32⟩
  | .hbm, ⟨17, _⟩ => ⟨S94x190x190, .f32⟩
  | .hbm, ⟨18, _⟩ => ⟨S94x190x190, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S96x192x192, .f32⟩
  | _, _ => ⟨S96x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S96x192x192 : S_.BroadcastsInDim S96x192x192 (![] : Fin 0 → Fin S96x192x192.rank)
  slices_S96x192x192_S94x190x190_0_1_1 : S96x192x192.Slices ![0, 1, 1] S94x190x190
  slices_S96x192x192_S94x190x190_2_1_1 : S96x192x192.Slices ![2, 1, 1] S94x190x190
  slices_S96x192x192_S94x190x190_1_0_1 : S96x192x192.Slices ![1, 0, 1] S94x190x190
  slices_S96x192x192_S94x190x190_1_2_1 : S96x192x192.Slices ![1, 2, 1] S94x190x190
  slices_S96x192x192_S94x190x190_1_1_0 : S96x192x192.Slices ![1, 1, 0] S94x190x190
  slices_S96x192x192_S94x190x190_1_1_2 : S96x192x192.Slices ![1, 1, 2] S94x190x190
  slices_S96x192x192_S94x190x190_1_1_1 : S96x192x192.Slices ![1, 1, 1] S94x190x190
  bcast_S_S94x190x190 : S_.BroadcastsInDim S94x190x190 (![] : Fin 0 → Fin S94x190x190.rank)
  bcast_S_S1 : S_.BroadcastsInDim S1 (![] : Fin 0 → Fin S1.rank)
  concatenates_S1_S1_S1_S3_d0 : Shape.Concatenates [S1, S1, S1] S3 0
  scatter_S96x192x192_S3_S94x190x190_012_n_012_0_wf : ScatterDims.WF S96x192x192 S3 S94x190x190 [0, 1, 2] [] [0, 1, 2] 0

variable [Facts₀]

def scatter_S96x192x192_S3_S94x190x190_012_n_012_0 : ScatterDims S96x192x192 S3 S94x190x190 where
  updateWindowDims := [0, 1, 2]
  insertedWindowDims := []
  scatterDimsToOperandDims := [0, 1, 2]
  indexVectorDim := 0
  wf := scatter_S96x192x192_S3_S94x190x190_012_n_012_0_wf

class Facts : Prop extends Facts₀ where

variable [Facts]
-- ==== Proof.Mesh.lean ====
/-
  The 2 × 4 × 4 mesh and its six face directions.

  Device `c` sits at (c / 16, c / 4 % 4, c % 4). A direction `d : Fin 6` is x−, x+, y−, y+, z−, z+ (0 … 5); `has d c` says
  the device has a neighbour that way, `nbr d c` is that neighbour (the device itself where there is none) and
  `opp d` the opposite direction. Going to a neighbour and back is the identity, and the neighbour has the way back.
  The printed conditions and device chains of the kernel are these functions.
-/
import proofs.«900537_g7700000000000538_dist_halo3d_v7x_xyz2x4x4_s48_f32_1_alg».proof.Proof.Gen.KernelIdeal

set_option Elab.async false

namespace Cert.KernelIdeal.Halo

open Idealize.ShloMosaic Cert.KernelIdeal Cert.KernelIdeal.Gen

/-- The device has a neighbour in direction `d`. -/
def has (d : Fin 6) (c : Dev nD) : Bool :=
  match d with
  | 0 => decide (0 < c.val / 16)
  | 1 => decide (c.val / 16 < 1)
  | 2 => decide (0 < c.val / 4 % 4)
  | 3 => decide (c.val / 4 % 4 < 3)
  | 4 => decide (0 < c.val % 4)
  | 5 => decide (c.val % 4 < 3)

/-- The opposite direction. -/
def opp (d : Fin 6) : Fin 6 :=
  match d with
  | 0 => 1 | 1 => 0 | 2 => 3 | 3 => 2 | 4 => 5 | 5 => 4

/-- The neighbour in direction `d`; the device itself where it has none. -/
def nbr (d : Fin 6) (c : Dev nD) : Dev nD :=
  if has d c then
    match d with
    | 0 => ⟨(c.val - 16) % 32, Nat.mod_lt _ (by decide)⟩
    | 1 => ⟨(c.val + 16) % 32, Nat.mod_lt _ (by decide)⟩
    | 2 => ⟨(c.val - 4) % 32, Nat.mod_lt _ (by decide)⟩
    | 3 => ⟨(c.val + 4) % 32, Nat.mod_lt _ (by decide)⟩
    | 4 => ⟨(c.val - 1) % 32, Nat.mod_lt _ (by decide)⟩
    | 5 => ⟨(c.val + 1) % 32, Nat.mod_lt _ (by decide)⟩
  else c

theorem opp_opp (d : Fin 6) : opp (opp d) = d := by revert d; decide
theorem opp_ne (d : Fin 6) : opp d ≠ d := by revert d; decide
theorem has_back : ∀ (d : Fin 6) (c : Dev nD), has d c = true → has (opp d) (nbr d c) = true := by decide +kernel
theorem nbr_back : ∀ (d : Fin 6) (c : Dev nD), has d c = true → nbr (opp d) (nbr d c) = c := by decide +kernel
theorem nbr_ne : ∀ (d : Fin 6) (c : Dev nD), has d c = true → nbr d c ≠ c := by decide +kernel
theorem nbr_self : ∀ (d : Fin 6) (c : Dev nD), has d c = false → nbr d c = c := by decide +kernel
/-- Two different directions lead to different neighbours. -/
theorem nbr_inj_dir : ∀ (d e : Fin 6) (c : Dev nD), has d c = true → has e c = true → nbr d c = nbr e c → d = e := by decide +kernel

/-- The flag bits as the kernel computes them from its device id (x−, x+, y−, y+, z−, z+). -/
def fb (d : Fin 6) (c : Dev nD) : BitVec 1 :=
  match d with
  | 0 => Scalar.cmpi .sgt (Scalar.remsi (Scalar.divsi (Dev.word c) 16#32) 2#32) 0#32
  | 1 => Scalar.cmpi .slt (Scalar.remsi (Scalar.divsi (Dev.word c) 16#32) 2#32) 1#32
  | 2 => Scalar.cmpi .sgt (Scalar.remsi (Scalar.divsi (Dev.word c) 4#32) 4#32) 0#32
  | 3 => Scalar.cmpi .slt (Scalar.remsi (Scalar.divsi (Dev.word c) 4#32) 4#32) 3#32
  | 4 => Scalar.cmpi .sgt (Scalar.remsi (Scalar.divsi (Dev.word c) 1#32) 4#32) 0#32
  | 5 => Scalar.cmpi .slt (Scalar.remsi (Scalar.divsi (Dev.word c) 1#32) 4#32) 3#32

/-- A taken branch on a flag is the direction's neighbour being there; -/
theorem fb_cond : ∀ (d : Fin 6) (c : Dev nD), (Scalar.cmpi .ne (Scalar.extui (fb d c)) (0#32 : BitVec 32) = 1#1) ↔ has d c = true := by decide +kernel
/-- a taken branch on its negation, the neighbour being absent. -/
theorem fb_ncond : ∀ (d : Fin 6) (c : Dev nD), (Scalar.cmpi .ne (Scalar.extui (Scalar.xori (fb d c) 1#1)) (0#32 : BitVec 32) = 1#1) ↔ has d c = false := by decide +kernel

/-- The conditions of the six barrier signals are the six directions, in order; -/
theorem cond1_iff : ∀ c : Dev nD, k0_cond1 c = 1#1 ↔ has 0 c = true := by decide +kernel
theorem cond2_iff : ∀ c : Dev nD, k0_cond2 c = 1#1 ↔ has 1 c = true := by decide +kernel
theorem cond3_iff : ∀ c : Dev nD, k0_cond3 c = 1#1 ↔ has 2 c = true := by decide +kernel
theorem cond4_iff : ∀ c : Dev nD, k0_cond4 c = 1#1 ↔ has 3 c = true := by decide +kernel
theorem cond5_iff : ∀ c : Dev nD, k0_cond5 c = 1#1 ↔ has 4 c = true := by decide +kernel
theorem cond6_iff : ∀ c : Dev nD, k0_cond6 c = 1#1 ↔ has 5 c = true := by decide +kernel
/-- those of the six transfers the directions x+, x−, y+, y−, z+, z−. -/
theorem cond13_iff : ∀ c : Dev nD, k0_cond13 c = 1#1 ↔ has 1 c = true := by decide +kernel
theorem cond14_iff : ∀ c : Dev nD, k0_cond14 c = 1#1 ↔ has 0 c = true := by decide +kernel
theorem cond15_iff : ∀ c : Dev nD, k0_cond15 c = 1#1 ↔ has 3 c = true := by decide +kernel
theorem cond16_iff : ∀ c : Dev nD, k0_cond16 c = 1#1 ↔ has 2 c = true := by decide +kernel
theorem cond17_iff : ∀ c : Dev nD, k0_cond17 c = 1#1 ↔ has 5 c = true := by decide +kernel
theorem cond18_iff : ∀ c : Dev nD, k0_cond18 c = 1#1 ↔ has 4 c = true := by decide +kernel

/-- The device each signal and each transfer addresses is the neighbour in its direction. -/
theorem dev1_eq : ∀ (c : Dev nD) (h : k0_cond1 c = 1#1), (⟨k0_dev1 c, k0_dev1_lt c h⟩ : Dev nD) = nbr 0 c := by decide +kernel
theorem dev2_eq : ∀ (c : Dev nD) (h : k0_cond2 c = 1#1), (⟨k0_dev2 c, k0_dev2_lt c h⟩ : Dev nD) = nbr 1 c := by decide +kernel
theorem dev3_eq : ∀ (c : Dev nD) (h : k0_cond3 c = 1#1), (⟨k0_dev3 c, k0_dev3_lt c h⟩ : Dev nD) = nbr 2 c := by decide +kernel
theorem dev4_eq : ∀ (c : Dev nD) (h : k0_cond4 c = 1#1), (⟨k0_dev4 c, k0_dev4_lt c h⟩ : Dev nD) = nbr 3 c := by decide +kernel
theorem dev5_eq : ∀ (c : Dev nD) (h : k0_cond5 c = 1#1), (⟨k0_dev5 c, k0_dev5_lt c h⟩ : Dev nD) = nbr 4 c := by decide +kernel
theorem dev6_eq : ∀ (c : Dev nD) (h : k0_cond6 c = 1#1), (⟨k0_dev6 c, k0_dev6_lt c h⟩ : Dev nD) = nbr 5 c := by decide +kernel
theorem dev7_eq : ∀ (c : Dev nD) (h : k0_cond13 c = 1#1), (⟨k0_dev7 c, k0_dev7_lt c h⟩ : Dev nD) = nbr 1 c := by decide +kernel
theorem dev8_eq : ∀ (c : Dev nD) (h : k0_cond14 c = 1#1), (⟨k0_dev8 c, k0_dev8_lt c h⟩ : Dev nD) = nbr 0 c := by decide +kernel
theorem dev9_eq : ∀ (c : Dev nD) (h : k0_cond15 c = 1#1), (⟨k0_dev9 c, k0_dev9_lt c h⟩ : Dev nD) = nbr 3 c := by decide +kernel
theorem dev10_eq : ∀ (c : Dev nD) (h : k0_cond16 c = 1#1), (⟨k0_dev10 c, k0_dev10_lt c h⟩ : Dev nD) = nbr 2 c := by decide +kernel
theorem dev11_eq : ∀ (c : Dev nD) (h : k0_cond17 c = 1#1), (⟨k0_dev11 c, k0_dev11_lt c h⟩ : Dev nD) = nbr 5 c := by decide +kernel
theorem dev12_eq : ∀ (c : Dev nD) (h : k0_cond18 c = 1#1), (⟨k0_dev12 c, k0_dev12_lt c h⟩ : Dev nD) = nbr 4 c := by decide +kernel

end Cert.KernelIdeal.Halo
-- ==== Proof.Cells.lean ====
/-
  The buffers, views and semaphore cells of the halo exchange, per device.

  Four scratch buffers of two 48 × 48 slots each: `hx`, `hy`, `hz` receive the six neighbour faces (slot `i`, for
  direction `i`, is half `i % 2` of buffer `i / 2`) and `zs` stages this device's own two z faces. Transfer `i`
  (0 … 5) carries this device's face on the side OPPOSITE to direction `i` into slot `i` of the neighbour on that
  side: faces x+, x−, y+, y− are slices of the block itself, faces z+, z− the two slots of `zs`. Each device has a
  barrier cell, six send cells and six receive cells.
-/
import proofs.«900537_g7700000000000538_dist_halo3d_v7x_xyz2x4x4_s48_f32_1_alg».proof.Proof.Mesh
import proofs.«900537_g7700000000000538_dist_halo3d_v7x_xyz2x4x4_s48_f32_1_alg».proof.Proof.Gen.KernelIdeal.Skeleton
import proofs.«900537_g7700000000000538_dist_halo3d_v7x_xyz2x4x4_s48_f32_1_alg».proof.Proof.Gen.KernelIdeal.Launch
import Idealize.ShloMosaic.Lib.Pipeline.Launch
import Idealize.ShloMosaic.Lib.Pipeline.Kit

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The whole buffers -/

abbrev uM : Memref sig .tc .vmem S48x48x48 .f32 := Memref.whole cc0_stg0_0
abbrev oM : Memref sig .tc .vmem S48x48x48 .f32 := Memref.whole cc0_stg1_0
abbrev hxM : Memref sig .tc .vmem S2x48x48 .f32 := Memref.whole cc0_scratch0
abbrev hyM : Memref sig .tc .vmem S2x48x48 .f32 := Memref.whole cc0_scratch1
abbrev hzM : Memref sig .tc .vmem S2x48x48 .f32 := Memref.whole cc0_scratch2
abbrev zsM : Memref sig .tc .vmem S2x48x48 .f32 := Memref.whole cc0_scratch3

/-- Half `h` of a two-slot buffer, as a 48 × 48 view. -/
abbrev slot0 (b : Memref sig .tc .vmem S2x48x48 .f32) : Memref sig .tc .vmem S48x48 .f32 :=
  (b.slice (Rect.unit (s := S2x48x48) ![0, 0, 0] S1x48x48.size Facts₀.inb_S2x48x48_S1x48x48_0_0_0) (fun _ => rfl)).squeeze S48x48 Facts₀.squeezes_S1x48x48_S48x48
abbrev slot1 (b : Memref sig .tc .vmem S2x48x48 .f32) : Memref sig .tc .vmem S48x48 .f32 :=
  (b.slice (Rect.unit (s := S2x48x48) ![1, 0, 0] S1x48x48.size Facts₀.inb_S2x48x48_S1x48x48_1_0_0) (fun _ => rfl)).squeeze S48x48 Facts₀.squeezes_S1x48x48_S48x48

/-- The landing slot of direction `i`. -/
abbrev dstM : Fin 6 → Memref sig .tc .vmem S48x48 .f32
  | 0 => slot0 hxM | 1 => slot1 hxM | 2 => slot0 hyM | 3 => slot1 hyM | 4 => slot0 hzM | 5 => slot1 hzM

/-- The source of transfer `i`: the faces x+ (row 47), x− (row 0), y+ (column 47), y− (column 0) of the block, and the
    staged z+ and z− faces. -/
abbrev srcM : Fin 6 → Memref sig .tc .vmem S48x48 .f32
  | 0 => (uM.slice (Rect.unit (s := S48x48x48) ![47, 0, 0] S1x48x48.size Facts₀.inb_S48x48x48_S1x48x48_47_0_0) (fun _ => rfl)).squeeze S48x48 Facts₀.squeezes_S1x48x48_S48x48
  | 1 => (uM.slice (Rect.unit (s := S48x48x48) ![0, 0, 0] S1x48x48.size Facts₀.inb_S48x48x48_S1x48x48_0_0_0) (fun _ => rfl)).squeeze S48x48 Facts₀.squeezes_S1x48x48_S48x48
  | 2 => (uM.slice (Rect.unit (s := S48x48x48) ![0, 47, 0] S48x1x48.size Facts₀.inb_S48x48x48_S48x1x48_0_47_0) (fun _ => rfl)).squeeze S48x48 Facts₀.squeezes_S48x1x48_S48x48
  | 3 => (uM.slice (Rect.unit (s := S48x48x48) ![0, 0, 0] S48x1x48.size Facts₀.inb_S48x48x48_S48x1x48_0_0_0) (fun _ => rfl)).squeeze S48x48 Facts₀.squeezes_S48x1x48_S48x48
  | 4 => slot1 zsM
  | 5 => slot0 zsM

/-! ## The semaphores and cells -/

abbrev barS : Sem sig := (SemArray.scalar (sig.barrier 0 rfl) : Sems sig S_).sem

abbrev sendSem : Fin 6 → DmaSem sig
  | 0 => ((cc0_scratch4.slice (Rect.unit (s := S6) ![0] S1.size Facts₀.inb_S6_S1_0)).squeeze S_ Facts₀.squeezes_S1_S_).sem
  | 1 => ((cc0_scratch4.slice (Rect.unit (s := S6) ![1] S1.size Facts₀.inb_S6_S1_1)).squeeze S_ Facts₀.squeezes_S1_S_).sem
  | 2 => ((cc0_scratch4.slice (Rect.unit (s := S6) ![2] S1.size Facts₀.inb_S6_S1_2)).squeeze S_ Facts₀.squeezes_S1_S_).sem
  | 3 => ((cc0_scratch4.slice (Rect.unit (s := S6) ![3] S1.size Facts₀.inb_S6_S1_3)).squeeze S_ Facts₀.squeezes_S1_S_).sem
  | 4 => ((cc0_scratch4.slice (Rect.unit (s := S6) ![4] S1.size Facts₀.inb_S6_S1_4)).squeeze S_ Facts₀.squeezes_S1_S_).sem
  | 5 => ((cc0_scratch4.slice (Rect.unit (s := S6) ![5] S1.size Facts₀.inb_S6_S1_5)).squeeze S_ Facts₀.squeezes_S1_S_).sem

abbrev recvSem : Fin 6 → DmaSem sig
  | 0 => ((cc0_scratch5.slice (Rect.unit (s := S6) ![0] S1.size Facts₀.inb_S6_S1_0)).squeeze S_ Facts₀.squeezes_S1_S_).sem
  | 1 => ((cc0_scratch5.slice (Rect.unit (s := S6) ![1] S1.size Facts₀.inb_S6_S1_1)).squeeze S_ Facts₀.squeezes_S1_S_).sem
  | 2 => ((cc0_scratch5.slice (Rect.unit (s := S6) ![2] S1.size Facts₀.inb_S6_S1_2)).squeeze S_ Facts₀.squeezes_S1_S_).sem
  | 3 => ((cc0_scratch5.slice (Rect.unit (s := S6) ![3] S1.size Facts₀.inb_S6_S1_3)).squeeze S_ Facts₀.squeezes_S1_S_).sem
  | 4 => ((cc0_scratch5.slice (Rect.unit (s := S6) ![4] S1.size Facts₀.inb_S6_S1_4)).squeeze S_ Facts₀.squeezes_S1_S_).sem
  | 5 => ((cc0_scratch5.slice (Rect.unit (s := S6) ![5] S1.size Facts₀.inb_S6_S1_5)).squeeze S_ Facts₀.squeezes_S1_S_).sem

theorem sendSem_val : ∀ i : Fin 6, (sendSem i).val = 2 + i.val := by decide
theorem recvSem_val : ∀ i : Fin 6, (recvSem i).val = 8 + i.val := by decide

abbrev barCell (c : Dev nD) : GSem nD τ sig := ((c : Thread nD τ), .reg barS)
abbrev sendCell (c : Dev nD) (i : Fin 6) : GSem nD τ sig := ((c : Thread nD τ), .dma (sendSem i))
abbrev recvCell (c : Dev nD) (i : Fin 6) : GSem nD τ sig := ((c : Thread nD τ), .dma (recvSem i))

/-- The credit of one 48 × 48 face. -/
abbrev N : ℕ := (dstM 0).view.dmaCredit
theorem N_pos : 0 < N := View.dmaCredit_pos _ (by decide)
theorem dst_credit : ∀ i : Fin 6, (dstM i).view.dmaCredit = N := by decide
theorem src_credit : ∀ i : Fin 6, (srcM i).view.dmaCredit = N := by decide

end Cert.KernelIdeal.Halo

end
-- ==== Proof.Sched.lean ====
/-
  The rounds schedule of the halo exchange: one round per cell.

  A device's barrier cell has one unit duty per neighbour it has, named by the direction the neighbour lies in; the
  neighbour pays it with its entry signal and hands over its own landing slot for the face that will come from this
  device, together with the fact that its receive cell for that slot stands at round 0. Receive cell `i` has one duty
  (when the device has a neighbour in direction `i`): the neighbour's transfer, whose landing hands back slot `i`
  holding the neighbour's face. Send cell `i` has one duty (when the device has a neighbour in the direction opposite
  to `i`): the same transfer read out of its source, handing the source face back to the sender.
-/
import proofs.«900537_g7700000000000538_dist_halo3d_v7x_xyz2x4x4_s48_f32_1_alg».proof.Proof.Cells
import Idealize.ShloMosaic.Lib.ValueIdx

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Fin 6`) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))

/-- What the three landing buffers hold once every face has landed: slot 0 the face from the lower neighbour on the
    axis (its last plane), slot 1 the face from the upper neighbour (its first plane). -/
def hC (k : Fin 3) (c : Dev nD) : (cc0_scratch0 : Ref sig .tc).ty.Contents (Elt F) := fun j =>
  match k with
  | 0 => if (j 0).val = 0 then xstg m (nbr 0 c) (ix3 (47 : Fin 48) (j 1) (j 2)) else xstg m (nbr 1 c) (ix3 (0 : Fin 48) (j 1) (j 2))
  | 1 => if (j 0).val = 0 then xstg m (nbr 2 c) (ix3 (j 1) (47 : Fin 48) (j 2)) else xstg m (nbr 3 c) (ix3 (j 1) (0 : Fin 48) (j 2))
  | 2 => if (j 0).val = 0 then xstg m (nbr 4 c) (ix3 (j 1) (j 2) (47 : Fin 48)) else xstg m (nbr 5 c) (ix3 (j 1) (j 2) (0 : Fin 48))

/-- What the z staging buffer holds: slot 0 the first z plane of the block, slot 1 the last. -/
def zsC (c : Dev nD) : (cc0_scratch3 : Ref sig .tc).ty.Contents (Elt F) := fun j =>
  if (j 0).val = 0 then xstg m c (ix3 (j 1) (j 2) (0 : Fin 48)) else xstg m c (ix3 (j 1) (j 2) (47 : Fin 48))

/-- The buffer a landing slot lies in: `hx` for 0, 1; `hy` for 2, 3; `hz` for 4, 5. -/
def axisOf (i : Fin 6) : Fin 3 := match i with | 0 => 0 | 1 => 0 | 2 => 1 | 3 => 1 | 4 => 2 | 5 => 2

/-- The share of the block each of the four overlapping face sources is lent at; the two z slots are lent whole. -/
def qS (i : Fin 6) : PosShare TreeShare :=
  match i with
  | 0 => fullShare.left.left | 1 => fullShare.left.right | 2 => fullShare.right.left | 3 => fullShare.right.right
  | 4 => fullShare | 5 => fullShare

/-! ## Points-to assertions of slots and sources -/

/-- Landing slot `i` of device `c`, whole, holding `f` there. -/
def slotPts (c : Dev nD) (i : Fin 6) (f : Buf (Elt F) ((dstM i).view.loc (c : Thread nD τ))) : sProp 𝕄 :=
  (dstM i).view.loc (c : Thread nD τ) ↦[(dstM i).view.set]{fullShare} f
/-- Landing slot `i` of device `c`, at any contents. -/
def slotAny (c : Dev nD) (i : Fin 6) : sProp 𝕄 := iprop(∃ f, slotPts (F := F) c i f)
/-- The source of transfer `i` on device `c`, at its share, holding `f` there. -/
def srcPts (c : Dev nD) (i : Fin 6) (f : Buf (Elt F) ((srcM i).view.loc (c : Thread nD τ))) : sProp 𝕄 :=
  (srcM i).view.loc (c : Thread nD τ) ↦[(srcM i).view.set]{qS i} f

/-- What transfer `i` reads on device `c`: the block for the four faces cut from it, the z staging buffer for the two
    staged faces. -/
def srcC (c : Dev nD) : (i : Fin 6) → Buf (Elt F) ((srcM i).view.loc (c : Thread nD τ))
  | 0 => xstg m c | 1 => xstg m c | 2 => xstg m c | 3 => xstg m c | 4 => zsC m c | 5 => zsC m c

/-- What the buffer of landing slot `i` of device `c` holds once the faces have landed. -/
def dstC (c : Dev nD) : (i : Fin 6) → Buf (Elt F) ((dstM i).view.loc (c : Thread nD τ))
  | 0 => hC m 0 c | 1 => hC m 0 c | 2 => hC m 1 c | 3 => hC m 1 c | 4 => hC m 2 c | 5 => hC m 2 c

/-! ## The payloads -/

/-- What the neighbour in direction `d` hands device `c` with its entry signal: its landing slot for the face `c` will
    send it, and that its receive cell of that slot stands at round 0. -/
def barPay (c : Dev nD) (d : Fin 6) : sProp 𝕄 :=
  iprop(slotAny (F := F) (nbr d c) (opp d) ∗ reached ER (recvCell (nbr d c) (opp d)) 0)
/-- A landing hands slot `i` back holding the neighbour's face. -/
def recvPay (c : Dev nD) (i : Fin 6) : sProp 𝕄 := slotPts c i (dstC m c i)
/-- A transfer read out hands its source back. -/
def sendPay (c : Dev nD) (i : Fin 6) : sProp 𝕄 := srcPts c i (srcC m c i)

/-! ## The schedule -/

/-- What a semaphore is in the exchange. -/
inductive Role where
  | bar | send (i : Fin 6) | recv (i : Fin 6) | other
  deriving DecidableEq

def role : SemLoc sig → Role
  | .reg _ => .bar
  | .dma q => if q.val < 2 then .other else if q.val < 8 then .send ⟨(q.val - 2) % 6, Nat.mod_lt _ (by decide)⟩
      else .recv ⟨(q.val - 8) % 6, Nat.mod_lt _ (by decide)⟩

theorem role_bar : role (.reg barS) = .bar := rfl
theorem role_send : ∀ i : Fin 6, role (.dma (sendSem i)) = .send i := by decide
theorem role_recv : ∀ i : Fin 6, role (.dma (recvSem i)) = .recv i := by decide

/-- The directions device `c` has a neighbour in. -/
def dirs (c : Dev nD) : Finset (Fin 6) := Finset.univ.filter fun d => has d c = true

theorem mem_dirs {c : Dev nD} {d : Fin 6} : d ∈ dirs c ↔ has d c = true := by unfold dirs; simp

def haloRd : Rounds.Schedule (GSem nD τ sig) (Fin 6) 𝕄 where
  duties g r := if r = 0 ∧ g.1.2 = .tc then
      (match role g.2 with
       | .bar => dirs g.1.1
       | .send i => if has (opp i) g.1.1 = true then {0} else ∅
       | .recv i => if has i g.1.1 = true then {0} else ∅
       | .other => ∅)
    else ∅
  unitless _ := False
  amount g _ _ := match role g.2 with | .bar => 1 | _ => N
  payload g _ d := match role g.2 with
    | .bar => barPay g.1.1 d
    | .send i => sendPay m g.1.1 i
    | .recv i => recvPay m g.1.1 i
    | .other => iprop(emp)
  amount_pos g _ _ _ := by
    cases role g.2 <;> first | exact Nat.one_pos | exact N_pos

instance haloRd_payload_storable (g : GSem nD τ sig) (r : ℕ) (d : Fin 6) :
    BI.Storable (upEmb : UEmb _ 𝕄) ((haloRd (F := F) m).payload g r d) := by
  show BI.Storable upEmb (match role g.2 with
    | .bar => barPay g.1.1 d
    | .send i => sendPay m g.1.1 i
    | .recv i => recvPay m g.1.1 i
    | .other => iprop(emp))
  unfold barPay sendPay recvPay slotAny slotPts srcPts
  (repeat' split) <;> infer_instance

section Tables
variable (c : Dev nD) (i : Fin 6)

omit [FloatOps F] in
theorem duties_bar : (haloRd (F := F) m).duties (barCell c) 0 = dirs c := by
  dsimp only [haloRd]; rw [if_pos ⟨rfl, rfl⟩]; rfl
omit [FloatOps F] in
theorem duties_send : (haloRd (F := F) m).duties (sendCell c i) 0 = if has (opp i) c = true then {0} else ∅ := by
  dsimp only [haloRd]; rw [if_pos ⟨rfl, rfl⟩, role_send]
omit [FloatOps F] in
theorem duties_recv : (haloRd (F := F) m).duties (recvCell c i) 0 = if has i c = true then {0} else ∅ := by
  dsimp only [haloRd]; rw [if_pos ⟨rfl, rfl⟩, role_recv]
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Fin 6) : (haloRd (F := F) m).amount (barCell c) 0 d = 1 := rfl
omit [FloatOps F] in
theorem amount_send (d : Fin 6) : (haloRd (F := F) m).amount (sendCell c i) 0 d = N := by
  dsimp only [haloRd]; rw [role_send]
omit [FloatOps F] in
theorem amount_recv (d : Fin 6) : (haloRd (F := F) m).amount (recvCell c i) 0 d = N := by
  dsimp only [haloRd]; rw [role_recv]

omit [FloatOps F] in
theorem payload_bar (d : Fin 6) : (haloRd (F := F) m).payload (barCell c) 0 d = barPay c d := rfl
omit [FloatOps F] in
theorem payload_send (d : Fin 6) : (haloRd (F := F) m).payload (sendCell c i) 0 d = sendPay m c i := by
  dsimp only [haloRd]; rw [role_send]
omit [FloatOps F] in
theorem payload_recv (d : Fin 6) : (haloRd (F := F) m).payload (recvCell c i) 0 d = recvPay m c i := by
  dsimp only [haloRd]; rw [role_recv]

omit [FloatOps F] in
theorem expect_bar : (haloRd (F := F) m).expect (barCell c) 0 = (dirs c).card := by
  unfold Schedule.expect Schedule.amountOf
  rw [duties_bar, Finset.sum_congr rfl fun d _ => amount_bar m c d, Finset.sum_const, smul_eq_mul, Nat.mul_one]
omit [FloatOps F] in
theorem expect_send (h : has (opp i) c = true) : (haloRd (F := F) m).expect (sendCell c i) 0 = N := by
  unfold Schedule.expect Schedule.amountOf; rw [duties_send, if_pos h, Finset.sum_singleton, amount_send]
omit [FloatOps F] in
theorem expect_recv (h : has i c = true) : (haloRd (F := F) m).expect (recvCell c i) 0 = N := by
  unfold Schedule.expect Schedule.amountOf; rw [duties_recv, if_pos h, Finset.sum_singleton, amount_recv]

end Tables

end Cert.KernelIdeal.Halo

end
-- ==== Proof.Asserts.lean ====
/-
  The ghost state of the halo exchange and what each device owes.

  Every cell's invariant and round-0 mark are shared facts (`records`). Device `c` holds, for each direction `d`, the
  tokens of the duties it pays in that direction — its entry signal on the neighbour's barrier cell and the landing of
  its transfer on the neighbour's receive cell — which, where it has no neighbour, are tokens of its own cells that
  nobody uses (`peer` is that pairing, an involution on device–direction pairs); and the tokens of its own six send
  cells. What it owes at launch is one unit to each neighbour's barrier cell and one face's credit to each neighbour's
  receive cell, peeled in program order: the six signals first, then the six transfers.
-/
import proofs.«900537_g7700000000000538_dist_halo3d_v7x_xyz2x4x4_s48_f32_1_alg».proof.Proof.Sched
import Idealize.ShloMosaic.Lib.Tactic

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The thirteen cells of a device, indexed -/

abbrev csem : Fin 13 → SemLoc sig
  | 0 => .reg barS
  | 1 => .dma (sendSem 0) | 2 => .dma (sendSem 1) | 3 => .dma (sendSem 2) | 4 => .dma (sendSem 3) | 5 => .dma (sendSem 4) | 6 => .dma (sendSem 5)
  | 7 => .dma (recvSem 0) | 8 => .dma (recvSem 1) | 9 => .dma (recvSem 2) | 10 => .dma (recvSem 3) | 11 => .dma (recvSem 4) | 12 => .dma (recvSem 5)
abbrev kcell (ck : Dev nD × Fin 13) : GSem nD τ sig := ((ck.1 : Thread nD τ), csem ck.2)

def sIdx (i : Fin 6) : Fin 13 := ⟨1 + i.val, by omega⟩
def rIdx (i : Fin 6) : Fin 13 := ⟨7 + i.val, by omega⟩

theorem kcell_bar (c : Dev nD) : kcell (c, 0) = barCell c := rfl
theorem kcell_send (c : Dev nD) (i : Fin 6) : kcell (c, sIdx i) = sendCell c i := by fin_cases i <;> rfl
theorem kcell_recv (c : Dev nD) (i : Fin 6) : kcell (c, rIdx i) = recvCell c i := by fin_cases i <;> rfl

/-! ## The shared facts -/

/-- Every cell's invariant, under the names `K`, and that every cell has reached round 0. -/
def records (K : Dev nD × Fin 13 → ℕ) : sProp 𝕄 :=
  iprop((bigSep Finset.univ fun ck : Dev nD × Fin 13 => cellInv ER (haloRd m) (K ck) (kcell ck))
    ∗ bigSep Finset.univ fun ck : Dev nD × Fin 13 => reached ER (kcell ck) 0)

instance records_persistent (K : Dev nD × Fin 13 → ℕ) : BI.Persistent (records m K) := by unfold records; infer_instance

omit [FloatOps F] in
theorem inv_at' (K : Dev nD × Fin 13 → ℕ) (ck : Dev nD × Fin 13) :
    (bigSep Finset.univ fun ck : Dev nD × Fin 13 => (cellInv ER (haloRd m) (K ck) (kcell ck) : sProp 𝕄)) ⊢ cellInv ER (haloRd m) (K ck) (kcell ck) :=
  bigSep_elim (Finset.mem_univ ck)
omit [FloatOps F] in
theorem reached_at' (ck : Dev nD × Fin 13) :
    (bigSep Finset.univ fun ck : Dev nD × Fin 13 => (reached ER (kcell ck) 0 : sProp 𝕄)) ⊢ reached ER (kcell ck) 0 :=
  bigSep_elim (Finset.mem_univ ck)
omit [FloatOps F] in
theorem inv_at (K : Dev nD × Fin 13 → ℕ) (ck : Dev nD × Fin 13) : records m K ⊢ cellInv ER (haloRd m) (K ck) (kcell ck) := by
  unfold records; iintro ⟨HI, -⟩; iapply (inv_at' m K ck); iexact HI
omit [FloatOps F] in
theorem reached_at (K : Dev nD × Fin 13 → ℕ) (ck : Dev nD × Fin 13) : records m K ⊢ reached ER (kcell ck) 0 := by
  unfold records; iintro ⟨-, HR⟩; iapply (reached_at' (F := F) ck); iexact HR

/-! ## Whom a device pays in each direction -/

/-- The (device, duty name) pair device `c` pays in direction `d`: the neighbour and the opposite direction, or the
    device's own unused pair where it has no neighbour. An involution. -/
def peer (d : Fin 6) (c : Dev nD) : Dev nD × Fin 6 := if has d c = true then (nbr d c, opp d) else (c, d)

theorem peer_has {d : Fin 6} {c : Dev nD} (h : has d c = true) : peer d c = (nbr d c, opp d) := if_pos h
theorem peer_peer : ∀ (d : Fin 6) (c : Dev nD), peer (peer d c).2 (peer d c).1 = (c, d) := by decide +kernel

/-- The tokens of the duties device `c` pays in direction `d`: its entry signal on the neighbour's barrier cell, the
    landing of its transfer on the neighbour's receive cell. -/
def tokB (c : Dev nD) (d : Fin 6) : sProp 𝕄 := dutyTok ER (barCell (peer d c).1) 0 (peer d c).2
def tokR (c : Dev nD) (d : Fin 6) : sProp 𝕄 := dutyTok ER (recvCell (peer d c).1 (peer d c).2) 0 0
/-- The token of its own send cell `i`. -/
def tokS (c : Dev nD) (i : Fin 6) : sProp 𝕄 := dutyTok ER (sendCell c i) 0 0

/-! ## What a device owes, in program order -/

/-- The unit owed to the barrier cell of the neighbour in direction `d`; -/
def sigT (d : Fin 6) (c : Dev nD) : CellTallies nD τ sig Unit := if has d c = true then tallyAt (barCell (nbr d c)) () 1 else 0
/-- the face's credit owed by transfer `i` to the receive cell `i` of the neighbour opposite to `i`. -/
def sndT (i : Fin 6) (c : Dev nD) : CellTallies nD τ sig Unit :=
  if has (opp i) c = true then tallyAt (recvCell (nbr (opp i) c) i) () N else 0

/-- Owed before transfer `k` (after transfers `0 … k − 1`). -/
def Os (c : Dev nD) : ℕ → CellTallies nD τ sig Unit
  | 0 => ((((((0 : CellTallies nD τ sig Unit) + sndT 5 c) + sndT 4 c) + sndT 3 c) + sndT 2 c) + sndT 1 c) + sndT 0 c
  | 1 => (((((0 : CellTallies nD τ sig Unit) + sndT 5 c) + sndT 4 c) + sndT 3 c) + sndT 2 c) + sndT 1 c
  | 2 => ((((0 : CellTallies nD τ sig Unit) + sndT 5 c) + sndT 4 c) + sndT 3 c) + sndT 2 c
  | 3 => (((0 : CellTallies nD τ sig Unit) + sndT 5 c) + sndT 4 c) + sndT 3 c
  | 4 => ((0 : CellTallies nD τ sig Unit) + sndT 5 c) + sndT 4 c
  | 5 => (0 : CellTallies nD τ sig Unit) + sndT 5 c
  | _ => 0
/-- Owed before signal `k` (after signals `0 … k − 1`). -/
def Og (c : Dev nD) : ℕ → CellTallies nD τ sig Unit
  | 0 => (((((Os c 0 + sigT 5 c) + sigT 4 c) + sigT 3 c) + sigT 2 c) + sigT 1 c) + sigT 0 c
  | 1 => ((((Os c 0 + sigT 5 c) + sigT 4 c) + sigT 3 c) + sigT 2 c) + sigT 1 c
  | 2 => (((Os c 0 + sigT 5 c) + sigT 4 c) + sigT 3 c) + sigT 2 c
  | 3 => ((Os c 0 + sigT 5 c) + sigT 4 c) + sigT 3 c
  | 4 => (Os c 0 + sigT 5 c) + sigT 4 c
  | 5 => Os c 0 + sigT 5 c
  | _ => Os c 0

/-- What device `c` owes at launch. -/
def O₀ (c : Dev nD) : CellTallies nD τ sig Unit := Og c 0

/-! ## The pieces of a device's state the body's steps move -/

/-- What the device still owes, under whatever waits it has recorded. -/
def owesE (c : Dev nD) (O : CellTallies nD τ sig Unit) : sProp 𝕄 := iprop(∃ W : Waits sig Unit, owes (c : Thread nD τ) O W)

/-- The result's staging buffer, whole, holding `o`; the input's, holding the device's block. -/
def oPts (c : Dev nD) (o : (cc0_stg1_0 : Ref sig .tc).ty.Contents (Elt F)) : sProp 𝕄 :=
  (((c : Thread nD τ).loc cc0_stg1_0) ↦{fullShare} o : sProp 𝕄)
def uPts (c : Dev nD) : sProp 𝕄 := (((c : Thread nD τ).loc cc0_stg0_0) ↦{fullShare} xstg m c : sProp 𝕄)

/-- How many of the directions below `d` have a neighbour: the barrier units consumed before the wait of direction `d`. -/
def cnt (d : ℕ) (c : Dev nD) : ℕ := ((dirs c).filter fun e => e.val < d).card

/-- The barrier cell before the wait of direction `d`: the owner has consumed `cnt d c` units of round 0, holds the
    payloads of some set `S` of landed duties with every duty outside `S` still owing a unit, and the credit for the
    units not yet consumed. -/
def barSt (d : ℕ) (c : Dev nD) : sProp 𝕄 :=
  iprop(∃ S : Finset (Fin 6), ⌜S ⊆ dirs c ∧ cnt d c + (dirs c \ S).card ≤ (dirs c).card⌝
    ∗ atPos ER (barCell c) 0 S (cnt d c) ∗ bigSep S (fun e => barPay (F := F) c e)
    ∗ cred (tallyAt (barCell c) () ((dirs c).card - cnt d c)))

/-- The type of the kernel's statements. -/
abbrev PROG (F : FTy → Type) := Prog (TpuEff nD τ sig (Elt F) Λ₀ .tc) PUnit

/-- A conditional piece of state. -/
abbrev cif (b : Bool) (P Q : sProp 𝕄) : sProp 𝕄 := if b = true then P else Q

/-! ## Levels: barrier cells at 1, receive cells at 2, everything else at 0 -/

def L (g : GSem nD τ sig) : Finset Unit := if g.1.2 = .tc then {()} else ∅
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Halo

end
-- ==== Proof.Out.lean ====
/-
  The result block of one device as a pure term of the blocks: the stages of the kernel's stores.

  The block's own stencil with zero padding (`out0`); then, for each direction with a neighbour, the face that landed
  from it added onto the block's boundary plane on that side, in the order x−, x+, y−, y+, z−, z+; then, for each
  direction WITHOUT a neighbour, that boundary plane overwritten by zeros, in the same order. Stage `k + 1` is stage
  `k` with one plane rewritten (or stage `k` itself), spelt exactly as a load of the plane, a load of the landing slot
  and a store of the plane produce it.
-/
import proofs.«900537_g7700000000000538_dist_halo3d_v7x_xyz2x4x4_s48_f32_1_alg».proof.Proof.Sched

noncomputable section

namespace Cert.KernelIdeal.Halo

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The rectangles the body loads and stores through -/

abbrev rW : Rect S48x48x48 := Rect.unit (s := S48x48x48) ![0, 0, 0] S48x48x48.size Facts₀.inb_S48x48x48_S48x48x48_0_0_0
abbrev rX0 : Rect S48x48x48 := Rect.unit (s := S48x48x48) ![0, 0, 0] S1x48x48.size Facts₀.inb_S48x48x48_S1x48x48_0_0_0
abbrev rX1 : Rect S48x48x48 := Rect.unit (s := S48x48x48) ![47, 0, 0] S1x48x48.size Facts₀.inb_S48x48x48_S1x48x48_47_0_0
abbrev rY0 : Rect S48x48x48 := Rect.unit (s := S48x48x48) ![0, 0, 0] S48x1x48.size Facts₀.inb_S48x48x48_S48x1x48_0_0_0
abbrev rY1 : Rect S48x48x48 := Rect.unit (s := S48x48x48) ![0, 47, 0] S48x1x48.size Facts₀.inb_S48x48x48_S48x1x48_0_47_0
abbrev rZ0 : Rect S48x48x48 := Rect.unit (s := S48x48x48) ![0, 0, 0] S48x48x1.size Facts₀.inb_S48x48x48_S48x48x1_0_0_0
abbrev rZ1 : Rect S48x48x48 := Rect.unit (s := S48x48x48) ![0, 0, 47] S48x48x1.size Facts₀.inb_S48x48x48_S48x48x1_0_0_47
/-- The two slots of a two-slot buffer. -/
abbrev rS0 : Rect S2x48x48 := Rect.unit (s := S2x48x48) ![0, 0, 0] S1x48x48.size Facts₀.inb_S2x48x48_S1x48x48_0_0_0
abbrev rS1 : Rect S2x48x48 := Rect.unit (s := S2x48x48) ![1, 0, 0] S1x48x48.size Facts₀.inb_S2x48x48_S1x48x48_1_0_0

/-! ## The loaded block and the z staging buffer after its two stores -/

/-- The block as the body's first load reads it. -/
def ldU (c : Dev nD) : Vec F S48x48x48 .f32 := uM.view.readAt (Elt F) rW.toLoadRect (xstg m c)
/-- The block as the body's arithmetic uses it. -/
def blk (c : Dev nD) : FVec F S48x48x48 .f32 := k0_pay2 (ldU m c)

/-- The z staging buffer after the two stores of the block's first and last z planes over contents `f`. -/
def zsAfter (c : Dev nD) (f : (cc0_scratch3 : Ref sig .tc).ty.Contents (Elt F)) : (cc0_scratch3 : Ref sig .tc).ty.Contents (Elt F) :=
  ((zsM.access rS1 : View sig .tc _ _ _).write (Elt F)
    (((zsM.access rS0 : View sig .tc _ _ _).write (Elt F) f (k0_pay3 (ldU m c)) Finset.univ)) (k0_pay4 (ldU m c)) Finset.univ)

/-! ## The stages of the result block -/

/-- One boundary plane of the block rewritten: the plane through `r` stored as `w`. -/
abbrev putO (r : Rect S48x48x48) (o : (cc0_stg1_0 : Ref sig .tc).ty.Contents (Elt F)) (w : r.shape.Idx → Elt F .f32) :
    (cc0_stg1_0 : Ref sig .tc).ty.Contents (Elt F) :=
  ((oM.access r : View sig .tc _ _ _).write (Elt F) o w Finset.univ)

/-- The block's own stencil, zero beyond its six boundary planes. -/
def out0 (c : Dev nD) : (cc0_stg1_0 : Ref sig .tc).ty.Contents (Elt F) :=
  k0_pay9 (blk m c) (k0_pay5 (F := F)) (k0_pay6 (F := F)) (k0_pay7 (F := F)) (k0_pay8 (blk m c))

/-- The planes of the block and the landing slots as the body's loads read them. -/
abbrev getO (r : Rect S48x48x48) (o : (cc0_stg1_0 : Ref sig .tc).ty.Contents (Elt F)) : r.toLoadRect.shape.Idx → Elt F .f32 :=
  oM.view.readAt (Elt F) r.toLoadRect o
abbrev getH (b : Memref sig .tc .vmem S2x48x48 .f32) (r : Rect S2x48x48) (h : BufTy.Contents (Elt F) b.view.ty) :
    r.toLoadRect.shape.Idx → Elt F .f32 :=
  b.view.readAt (Elt F) r.toLoadRect h

/-- After the additions of the landed faces, direction by direction. -/
def out1 (c : Dev nD) : (cc0_stg1_0 : Ref sig .tc).ty.Contents (Elt F) :=
  if has 0 c = true then putO rX0 (out0 m c) (k0_pay10 (getO rX0 (out0 m c)) (getH hxM rS0 (hC m 0 c))) else out0 m c
def out2 (c : Dev nD) : (cc0_stg1_0 : Ref sig .tc).ty.Contents (Elt F) :=
  if has 1 c = true then putO rX1 (out1 m c) (k0_pay11 (getO rX1 (out1 m c)) (getH hxM rS1 (hC m 0 c))) else out1 m c
def out3 (c : Dev nD) : (cc0_stg1_0 : Ref sig .tc).ty.Contents (Elt F) :=
  if has 2 c = true then putO rY0 (out2 m c) (k0_pay12 (getO rY0 (out2 m c)) (getH hyM rS0 (hC m 1 c))) else out2 m c
def out4 (c : Dev nD) : (cc0_stg1_0 : Ref sig .tc).ty.Contents (Elt F) :=
  if has 3 c = true then putO rY1 (out3 m c) (k0_pay13 (getO rY1 (out3 m c)) (getH hyM rS1 (hC m 1 c))) else out3 m c
def out5 (c : Dev nD) : (cc0_stg1_0 : Ref sig .tc).ty.Contents (Elt F) :=
  if has 4 c = true then putO rZ0 (out4 m c) (k0_pay14 (getO rZ0 (out4 m c)) (getH hzM rS0 (hC m 2 c))) else out4 m c
def out6 (c : Dev nD) : (cc0_stg1_0 : Ref sig .tc).ty.Contents (Elt F) :=
  if has 5 c = true then putO rZ1 (out5 m c) (k0_pay15 (getO rZ1 (out5 m c)) (getH hzM rS1 (hC m 2 c))) else out5 m c

/-- After the planes on the grid's outer frame are zeroed, direction by direction. -/
def out7 (c : Dev nD) : (cc0_stg1_0 : Ref sig .tc).ty.Contents (Elt F) :=
  if has 0 c = false then putO rX0 (out6 m c) (k0_pay16 (F := F)) else out6 m c
def out8 (c : Dev nD) : (cc0_stg1_0 : Ref sig .tc).ty.Contents (Elt F) :=
  if has 1 c = false then putO rX1 (out7 m c) (k0_pay17 (F := F)) else out7 m c
def out9 (c : Dev nD) : (cc0_stg1_0 : Ref sig .tc).ty.Contents (Elt F) :=
  if has 2 c = false then putO rY0 (out8 m c) (k0_pay18 (F := F)) else out8 m c
def out10 (c : Dev nD) : (cc0_stg1_0 : Ref sig .tc).ty.Contents (Elt F) :=
  if has 3 c = false then putO rY1 (out9 m c) (k0_pay19 (F := F)) else out9 m c
def out11 (c : Dev nD) : (cc0_stg1_0 : Ref sig .tc).ty.Contents (Elt F) :=
  if has 4 c = false then putO rZ0 (out10 m c) (k0_pay20 (F := F)) else out10 m c
/-- The block the kernel leaves. -/
def outFinal (c : Dev nD) : (cc0_stg1_0 : Ref sig .tc).ty.Contents (Elt F) :=
  if has 5 c = false then putO rZ1 (out11 m c) (k0_pay1 (F := F)) else out11 m c

end Cert.KernelIdeal.Halo

end
-- ==== Proof.Body0.lean ====
import proofs.«900537_g7700000000000538_dist_halo3d_v7x_xyz2x4x4_s48_f32_1_alg».proof.Proof.Asserts
import proofs.«900537_g7700000000000538_dist_halo3d_v7x_xyz2x4x4_s48_f32_1_alg».proof.Proof.Out

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device's body starts from and ends with -/

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The exchange's ghost state on device `c`: the shared facts, its positions at round 0 of its thirteen cells, the tokens
    of the duties it pays in each direction and of its own send cells. -/
def ghost (K : Dev nD × Fin 13 → ℕ) (c : Dev nD) : sProp 𝕄 :=
  iprop(records m K ∗ atPos ER (barCell c) 0 ∅ 0
    ∗ (bigSep Finset.univ fun i : Fin 6 => atPos ER (sendCell c i) 0 ∅ 0)
    ∗ (bigSep Finset.univ fun i : Fin 6 => atPos ER (recvCell c i) 0 ∅ 0)
    ∗ (bigSep Finset.univ fun d : Fin 6 => iprop(tokB (F := F) c d ∗ tokR (F := F) c d))
    ∗ (bigSep Finset.univ fun i : Fin 6 => tokS (F := F) c i))

/-- With it, the credit of its barrier cell (one unit per neighbour), of each receive cell that has a duty, and the levels. -/
def start (c : Dev nD) : sProp 𝕄 :=
  iprop((∃ K, ghost m K c) ∗ cred (tallyAt (barCell c) () (dirs c).card)
    ∗ (bigSep Finset.univ fun i : Fin 6 => cif (has i c) (cred (tallyAt (recvCell c i) () N)) iprop(emp))
    ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scr (F := F) c)
/-- After the body: the twelve DMA cells closed at zero and the scratch buffers back. -/
def Φ₁ (c : Dev nD) : sProp 𝕄 :=
  iprop((bigSep Finset.univ fun i : Fin 6 => semVal (sendCell c i) 0) ∗ (bigSep Finset.univ fun i : Fin 6 => semVal (recvCell c i) 0)
    ∗ scr (F := F) c)

/-- The pipeline's proof data: the input window keeps the block, the result window ends at the kernel's block. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outFinal m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A staging buffer, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ (F := F) c ∗ (dats m 0 c).owesAt () t0_0.succ ∗ stg c cc0_stg0_0 (xstg m c) ∗ stg c cc0_stg1_0 (outFinal m c))

/-- The kernel's own (scoped) semaphores, as the launch indexes them: the six send cells, then the six receive cells. -/
abbrev osem : Fin 12 → SemLoc sig := fun k => csem ⟨k.val + 1, by omega⟩

/-- The kernel function at a device's own buffers. -/
abbrev bodyProg : PROG F :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5

end Cert.KernelIdeal.Halo

end
-- ==== Proof.Parts0.lean ====
import proofs.«900537_g7700000000000538_dist_halo3d_v7x_xyz2x4x4_s48_f32_1_alg».proof.Proof.Asserts
import proofs.«900537_g7700000000000538_dist_halo3d_v7x_xyz2x4x4_s48_f32_1_alg».proof.Proof.Out

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The per-direction pieces of a device's state, phase by phase -/

/-- Direction `d` before its entry signal: the signal's token and the landing slot; -/
def dirA (c : Dev nD) (d : Fin 6) : sProp 𝕄 := iprop(tokB (F := F) c d ∗ slotAny (F := F) c d)
/-- after it: both gone where there is a neighbour. -/
def dirB (c : Dev nD) (d : Fin 6) : sProp 𝕄 := cif (has d c) iprop(emp) (dirA (F := F) c d)

/-- Transfer `i` before it is started: its two tokens and its source; -/
def sndA (c : Dev nD) (i : Fin 6) : sProp 𝕄 := iprop(tokS (F := F) c i ∗ tokR (F := F) c (opp i) ∗ srcPts c i (srcC m c i))
/-- after: the send cell's credit where it was started. -/
def sndB (c : Dev nD) (i : Fin 6) : sProp 𝕄 := cif (has (opp i) c) (cred (tallyAt (sendCell c i) () N)) (sndA m c i)
/-- After its send wait: the send cell past its round with the source back, or untouched; and what was never lent. -/
def sndC (c : Dev nD) (i : Fin 6) : sProp 𝕄 :=
  iprop(cif (has (opp i) c) iprop(atPos ER (sendCell c i) 1 ∅ 0 ∗ srcPts c i (srcC m c i)) (atPos ER (sendCell c i) 0 ∅ 0)
    ∗ cif (has (opp i) c) iprop(emp) (sndA m c i))

/-- Receive cell `i` before its wait: the owner's position and the cell's credit where it has a duty; -/
def rcvA (c : Dev nD) (i : Fin 6) : sProp 𝕄 :=
  iprop(atPos ER (recvCell c i) 0 ∅ 0 ∗ cif (has i c) (cred (tallyAt (recvCell c i) () N)) iprop(emp))
/-- after: past its round with slot `i` holding the neighbour's face, or untouched. -/
def rcvB (c : Dev nD) (i : Fin 6) : sProp 𝕄 :=
  cif (has i c) iprop(atPos ER (recvCell c i) 1 ∅ 0 ∗ slotPts c i (dstC m c i)) (atPos ER (recvCell c i) 0 ∅ 0)

/-- The neighbours' barrier payloads, direction by direction. -/
def bP (c : Dev nD) (d : Fin 6) : sProp 𝕄 := cif (has d c) (barPay (F := F) c d) iprop(emp)

/-- The barrier semaphore as the body names it. -/
abbrev barArr : Sems sig S_ := SemArray.scalar (sig.barrier 0 rfl)

/-- The body's parts at a device's own buffers. -/
abbrev part1 := k0_part1 (F := F) uM (Memref.isWhole_whole _) oM (Memref.isWhole_whole _) hxM (Memref.isWhole_whole _) hyM (Memref.isWhole_whole _) hzM (Memref.isWhole_whole _) zsM (Memref.isWhole_whole _) cc0_scratch4 cc0_scratch5
abbrev part2 := k0_part2 (F := F) uM (Memref.isWhole_whole _) oM (Memref.isWhole_whole _) hxM (Memref.isWhole_whole _) hyM (Memref.isWhole_whole _) hzM (Memref.isWhole_whole _) zsM (Memref.isWhole_whole _) cc0_scratch4 cc0_scratch5
abbrev part3 := k0_part3 (F := F) uM (Memref.isWhole_whole _) oM (Memref.isWhole_whole _) hxM (Memref.isWhole_whole _) hyM (Memref.isWhole_whole _) hzM (Memref.isWhole_whole _) zsM (Memref.isWhole_whole _) cc0_scratch4 cc0_scratch5
abbrev part4 := k0_part4 (F := F) uM (Memref.isWhole_whole _) oM (Memref.isWhole_whole _) hxM (Memref.isWhole_whole _) hyM (Memref.isWhole_whole _) hzM (Memref.isWhole_whole _) zsM (Memref.isWhole_whole _) cc0_scratch4 cc0_scratch5
abbrev part5 := k0_part5 (F := F) uM (Memref.isWhole_whole _) oM (Memref.isWhole_whole _) hxM (Memref.isWhole_whole _) hyM (Memref.isWhole_whole _) hzM (Memref.isWhole_whole _) zsM (Memref.isWhole_whole _) cc0_scratch4 cc0_scratch5

end Cert.KernelIdeal.Halo

end
-- ==== Proof.StepSignal.lean ====
/-
  The entry signal of one direction, as one step that covers both branches of its conditional.

  Where device `c` has a neighbour in direction `d`, the signal pays the unit duty named `opp d` of the
  neighbour's barrier cell: the duty's payload is the signaller's own landing slot `d` together with the fact that
  its receive cell `d` stands at round 0, and the unit comes off what the device owes. Where it has no neighbour the
  statement is empty, nothing is owed in that direction, and the token and the slot stay with the device.
-/
import proofs.«900537_g7700000000000538_dist_halo3d_v7x_xyz2x4x4_s48_f32_1_alg».proof.Proof.Asserts

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The entry signal of direction `d`, taken or skipped: where the device has a neighbour that way it pays the unit it owes
    that neighbour's barrier cell, handing over its own landing slot `d` and its receive cell's round-0 mark. -/
theorem step_signal (c : Dev nD) (d : Fin 6) {b : Prop} [Decidable b] (hb : b ↔ has d c = true)
    (dev : b → Dev nD) (hdev : ∀ h, dev h = nbr d c) (A : b → PROG F) (B : ¬b → PROG F)
    (hA : ∀ h, A h = .op (.semSignal (Dev.tc (dev h) : Thread nD τ) barS 1) fun _ => .ret ⟨⟩) (hB : ∀ h, B h = .ret ⟨⟩)
    (O : CellTallies nD τ sig Unit) (Q : PUnit → sProp 𝕄) :
    iprop(records m K ∗ owesE c (O + sigT d c) ∗ tokB (F := F) c d ∗ slotAny (F := F) c d
        ∗ ((owesE c O ∗ cif (has d c) iprop(emp) iprop(tokB (F := F) c d ∗ slotAny (F := F) c d)) -∗ Q ⟨⟩))
      ⊢ wp frame (wpE (defs₀ (F := F)) 𝒱₀ (c : Thread nD τ) none) Set.univ (dite b A B) Q := by
  by_cases hh : has d c = true
  · -- the neighbour is there: the signal is issued
    have hbt : b := hb.mpr hh
    rw [dif_pos hbt, hA hbt, hdev hbt]
    unfold owesE tokB sigT
    have hc : ∀ P R : sProp 𝕄, cif (has d c) P R = P := fun P R => if_pos hh
    rw [if_pos hh, peer_has hh, hc]
    iintro ⟨#Hrec, ⟨%W, HO⟩, Htok, Hslot, Hk⟩
    ihave #HI := (inv_at m K (nbr d c, 0)) $$ Hrec
    ihave #HrB := (reached_at m K (nbr d c, 0)) $$ Hrec
    ihave #HrV := (reached_at m K (c, rIdx d)) $$ Hrec
    rw [kcell_recv]
    iapply (Rounds.wp_signal 𝒱₀ ER (haloRd m) (c : Thread nD τ) none (dst := (nbr d c : Thread nD τ)) (κ := K (nbr d c, 0))
        (d := opp d) (by rw [duties_bar, mem_dirs]; exact has_back d c hh) (amount_bar m (nbr d c) (opp d)) () O rfl)
      $$ [HO Htok Hslot]
    · isplitr; · iexact HI
      isplitl [HO]; · iexact HO
      isplitl [Htok]; · iexact Htok
      isplitl [Hslot]
      · rw [payload_bar]; unfold barPay; rw [nbr_back d c hh, opp_opp]
        isplitl [Hslot]; · iexact Hslot
        iexact HrV
      · iexact HrB
    iintro HO
    rw [wp_ret]
    imodintro
    iapply Hk
    isplitl [HO]; · iexists W; iexact HO
    iempintro
  · -- no neighbour: the statement is empty and nothing is owed
    have hbf : ¬b := fun h => hh (hb.mp h)
    rw [dif_neg hbf, hB hbf, wp_ret]
    unfold sigT
    have hc : ∀ P R : sProp 𝕄, cif (has d c) P R = R := fun P R => if_neg hh
    rw [if_neg hh, add_zero, hc]
    iintro ⟨-, HO, Htok, Hslot, Hk⟩
    imodintro
    iapply Hk
    isplitl [HO]; · iexact HO
    isplitl [Htok]; · iexact Htok
    iexact Hslot

end Cert.KernelIdeal.Halo

end
-- ==== Proof.Part1.lean ====
/-
  Part 1 of the body: the device reads its id, computes its mesh coordinates and its six neighbour flags, and
  issues the entry signals of directions 0 … 3.

  The program text repeats the rest of the program in both branches of each conditional; the weakest precondition of
  such a conditional is that of the conditional statement alone with the rest's as postcondition
  (`p1_wp_dite_rest`). Each signal then is one application of the signal step, which peels the last summand off what
  the device owes; the returned flags are the mesh's flag bits and the returned semaphore is the barrier semaphore.
-/
import proofs.«900537_g7700000000000538_dist_halo3d_v7x_xyz2x4x4_s48_f32_1_alg».proof.Proof.StepSignal
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.Parts0

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)
/-- A conditional statement followed by the rest of the program, as the program text has it (the rest repeated in both
    branches): its weakest precondition is that of the conditional statement alone, with the rest's as postcondition. -/
theorem p1_wp_dite_rest {Ef : Type → Type} {M : Type} [URA M] {Mask : Type}
    (Fr : Mask → sProp M) (wE : Mask → ∀ ⦃β : Type⦄, Ef β → sWPT M β) (E : Mask) {α : Type}
    {b : Prop} [Decidable b] (e : b → Ef PUnit) (rest : Prog Ef α) (Q : α → sProp M) :
    wp Fr wE E (dite b (fun h => Prog.op (e h) fun _ => rest) (fun _ => rest)) Q
      = wp Fr wE E (dite b (fun h => Prog.op (e h) fun _ => Prog.ret PUnit.unit) (fun _ => Prog.ret PUnit.unit))
          (fun _ => wp Fr wE E rest Q) := by
  by_cases h : b
  · rw [dif_pos h, dif_pos h, wp_op, wp_op]
    simp only [wp_ret, fupd_wp_eq]
  · rw [dif_neg h, dif_neg h, wp_ret, fupd_wp_eq]

/-- Part 1 of the body (its device id and flags, the entry signals of directions 0 … 3): the four signals pay what the device
    owes those neighbours' barrier cells. -/
theorem part1_spec (c : Dev nD) (Kt : (Σ' (d0 : Dev nD) (v2 : BitVec 32) (v5 : BitVec 32) (v8 : BitVec 32) (v9 : BitVec 1) (v10 : BitVec 1) (v11 : BitVec 1) (v12 : BitVec 1) (v13 : BitVec 1) (v14 : BitVec 1) (v15 : Sems sig S_) (v20 : BitVec 32), BitVec 32) → sProp 𝕄) :
    iprop(records m K ∗ owesE c (Og c 0) ∗ dirA (F := F) c 0 ∗ dirA (F := F) c 1 ∗ dirA (F := F) c 2 ∗ dirA (F := F) c 3
        ∗ (∀ v2 v5 v8 v20 v21, (owesE c (Og c 4) ∗ dirB (F := F) c 0 ∗ dirB (F := F) c 1 ∗ dirB (F := F) c 2 ∗ dirB (F := F) c 3)
            -∗ Kt ⟨c, v2, v5, v8, fb 0 c, fb 1 c, fb 2 c, fb 3 c, fb 4 c, fb 5 c, barArr, v20, v21⟩))
      ⊢ wp frame (wpE (defs₀ (F := F)) 𝒱₀ (c : Thread nD τ) none) Set.univ (part1 (F := F)) Kt := by
  unfold part1
  rw [k0_part1_eq_skeleton]; unfold k0_part1_skel
  simp only [Prog.lift, semSignalWord, Prog.bind_op, Prog.bind_ret, Prog.pure_eq_ret, wp_bind, wp_deviceId]
  unfold dirB dirA
  -- what is owed at entry, with the four signals' units as its last summands
  rw [show Og c 0 = (((Og c 4 + sigT 3 c) + sigT 2 c) + sigT 1 c) + sigT 0 c from rfl]
  iintro ⟨#HR, HO, ⟨Ht0, Hs0⟩, ⟨Ht1, Hs1⟩, ⟨Ht2, Hs2⟩, ⟨Ht3, Hs3⟩, Hk⟩
  -- the signal of direction 0
  rw [p1_wp_dite_rest]
  iapply (step_signal m K c 0 (cond1_iff c) (fun h => ⟨k0_dev1 c, k0_dev1_lt c h⟩) (dev1_eq c) _ _ (fun h => rfl) (fun h => rfl)
    (((Og c 4 + sigT 3 c) + sigT 2 c) + sigT 1 c) _)
  isplitr; · iexact HR
  isplitl [HO]; · iexact HO
  isplitl [Ht0]; · iexact Ht0
  isplitl [Hs0]; · iexact Hs0
  iintro ⟨HO, Hd0⟩
  -- the signal of direction 1
  rw [p1_wp_dite_rest]
  iapply (step_signal m K c 1 (cond2_iff c) (fun h => ⟨k0_dev2 c, k0_dev2_lt c h⟩) (dev2_eq c) _ _ (fun h => rfl) (fun h => rfl)
    ((Og c 4 + sigT 3 c) + sigT 2 c) _)
  isplitr; · iexact HR
  isplitl [HO]; · iexact HO
  isplitl [Ht1]; · iexact Ht1
  isplitl [Hs1]; · iexact Hs1
  iintro ⟨HO, Hd1⟩
  -- the signal of direction 2
  rw [p1_wp_dite_rest]
  iapply (step_signal m K c 2 (cond3_iff c) (fun h => ⟨k0_dev3 c, k0_dev3_lt c h⟩) (dev3_eq c) _ _ (fun h => rfl) (fun h => rfl)
    (Og c 4 + sigT 3 c) _)
  isplitr; · iexact HR
  isplitl [HO]; · iexact HO
  isplitl [Ht2]; · iexact Ht2
  isplitl [Hs2]; · iexact Hs2
  iintro ⟨HO, Hd2⟩
  -- the signal of direction 3
  rw [p1_wp_dite_rest]
  iapply (step_signal m K c 3 (cond4_iff c) (fun h => ⟨k0_dev4 c, k0_dev4_lt c h⟩) (dev4_eq c) _ _ (fun h => rfl) (fun h => rfl)
    (Og c 4) _)
  isplitr; · iexact HR
  isplitl [HO]; · iexact HO
  isplitl [Ht3]; · iexact Ht3
  isplitl [Hs3]; · iexact Hs3
  iintro ⟨HO, Hd3⟩
  -- the part's values: the device, its coordinates and flags, the barrier semaphore
  rw [wp_ret,
    show Scalar.cmpi .sgt (Scalar.remsi (Scalar.divsi (Dev.word c) 16#32) 2#32) 0#32 = fb 0 c from rfl,
    show Scalar.cmpi .slt (Scalar.remsi (Scalar.divsi (Dev.word c) 16#32) 2#32) 1#32 = fb 1 c from rfl,
    show Scalar.cmpi .sgt (Scalar.remsi (Scalar.divsi (Dev.word c) 4#32) 4#32) 0#32 = fb 2 c from rfl,
    show Scalar.cmpi .slt (Scalar.remsi (Scalar.divsi (Dev.word c) 4#32) 4#32) 3#32 = fb 3 c from rfl,
    show Scalar.cmpi .sgt (Scalar.remsi (Scalar.divsi (Dev.word c) 1#32) 4#32) 0#32 = fb 4 c from rfl,
    show Scalar.cmpi .slt (Scalar.remsi (Scalar.divsi (Dev.word c) 1#32) 4#32) 3#32 = fb 5 c from rfl]
  imodintro
  iapply Hk
  isplitl [HO]; · iexact HO
  isplitl [Hd0]; · iexact Hd0
  isplitl [Hd1]; · iexact Hd1
  isplitl [Hd2]; · iexact Hd2
  iexact Hd3

end Cert.KernelIdeal.Halo

end
-- ==== Proof.StepBwait.lean ====
/-
  The barrier wait of one direction, and the barrier cell's bookkeeping.

  Before the wait of direction `d` the owner of a barrier cell has consumed one unit of round 0 for each direction below
  `d` in which it has a neighbour, holds the payloads of the duties it has taken, and holds the credit for the units not
  yet consumed. A wait for one unit moves this state from `d` to `d + 1`: it spends one unit of the credit, and the
  duties it takes join those held. What the device still owes at that point are face credits to receive cells, which sit
  a level above every barrier cell. Where the device has no neighbour in direction `d` nothing moves, and the two states
  coincide. At the two ends: before the first wait nothing is consumed or taken; after the last every neighbour's
  payload is held.
-/
import proofs.«900537_g7700000000000538_dist_halo3d_v7x_xyz2x4x4_s48_f32_1_alg».proof.Proof.Asserts

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## Counting the barrier units -/

theorem cnt_zero (c : Dev nD) : cnt 0 c = 0 := by
  unfold cnt; rw [Finset.card_eq_zero, Finset.filter_eq_empty_iff]; intro e _; exact Nat.not_lt_zero _

theorem cnt_six (c : Dev nD) : cnt 6 c = (dirs c).card := by
  unfold cnt; rw [Finset.filter_true_of_mem]; intro e _; exact e.isLt

theorem cnt_succ_has : ∀ (d : Fin 6) (c : Dev nD), has d c = true → cnt (d.val + 1) c = cnt d.val c + 1 := by decide +kernel
theorem cnt_succ_not : ∀ (d : Fin 6) (c : Dev nD), ¬ has d c = true → cnt (d.val + 1) c = cnt d.val c := by decide +kernel
theorem cnt_lt_card : ∀ (d : Fin 6) (c : Dev nD), has d c = true → cnt d.val c < (dirs c).card := by decide +kernel

/-! ## What is still owed sits above the barrier cell -/

omit [FloatOps F] in
/-- A positive entry of a transfer's debt is the receive cell of a TensorCore thread. -/
theorem sndT_pos {i : Fin 6} {c : Dev nD} {g : GSem nD τ sig} {u : Unit} (h : 0 < sndT i c g u) :
    g = recvCell (nbr (opp i) c) i := by
  unfold sndT at h
  by_cases hh : has (opp i) c = true
  · rw [if_pos hh, tallyAt_apply] at h
    by_cases hg : g = recvCell (nbr (opp i) c) i ∧ u = ()
    · exact hg.1
    · rw [if_neg hg] at h; exact absurd h (Nat.lt_irrefl 0)
  · rw [if_neg hh] at h; exact absurd h (Nat.lt_irrefl 0)

omit [FloatOps F] in
/-- So is every positive entry of what the six transfers owe together. -/
theorem Os_pos {c : Dev nD} {g : GSem nD τ sig} {u : Unit} (h : 0 < Os c 0 g u) :
    ∃ (i : Fin 6) (c' : Dev nD), g = recvCell c' i := by
  unfold Os at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact absurd h (Nat.lt_irrefl 0)
            · exact ⟨5, _, sndT_pos h⟩
          · exact ⟨4, _, sndT_pos h⟩
        · exact ⟨3, _, sndT_pos h⟩
      · exact ⟨2, _, sndT_pos h⟩
    · exact ⟨1, _, sndT_pos h⟩
  · exact ⟨0, _, sndT_pos h⟩

omit [FloatOps F] in
/-- At a barrier wait a device owes face credits to receive cells only: level 2, above its barrier cell at level 1. -/
theorem mayOwe_bar (c : Dev nD) :
    (levAts L lv : sProp 𝕄) ⊢ MayOwe (c : Thread nD τ) {(SemLoc.reg barS, ())} (Os c 0) :=
  MayOwe.of_cut (L := L) (lev := lv) 1
    (fun p hp => by rw [Finset.mem_singleton.mp hp, L_tc]; exact Finset.mem_singleton_self _)
    (fun g u hg => by obtain ⟨i, c', rfl⟩ := Os_pos hg; rw [L_tc]; exact Finset.mem_singleton_self _)
    (fun p hp => by rw [Finset.mem_singleton.mp hp]; dsimp only [lv]; rw [role_bar])
    (fun g u hg => by obtain ⟨i, c', rfl⟩ := Os_pos hg; dsimp only [lv]; rw [role_recv]; exact Nat.one_lt_two)

/-! ## The barrier cell's bookkeeping at both ends -/

/-- Before the first barrier wait nothing is consumed or taken; -/
theorem barSt_zero (c : Dev nD) :
    iprop(atPos ER (barCell c) 0 ∅ 0 ∗ cred (tallyAt (barCell c) () (dirs c).card)) ⊢ barSt (F := F) 0 c := by
  unfold barSt
  rw [cnt_zero, Nat.sub_zero]
  iintro ⟨Hat, Hc⟩
  iexists (∅ : Finset (Fin 6))
  isplitr
  · ipureintro
    exact ⟨Finset.empty_subset _, by rw [Finset.sdiff_empty, Nat.zero_add]⟩
  isplitl [Hat]; · iexact Hat
  isplitr
  · rw [bigSep_empty]; iempintro
  iexact Hc

/-- after the last the owner holds every neighbour's payload (and its position, which is never closed). -/
theorem barSt_six (c : Dev nD) :
    barSt (F := F) 6 c ⊢ iprop(bigSep (dirs c) (fun e => barPay (F := F) c e) ∗ atPos ER (barCell c) 0 (dirs c) (dirs c).card) := by
  unfold barSt
  rw [cnt_six]
  iintro ⟨%S, %hS, Hat, Hpay, -⟩
  have hS' : S = dirs c := by
    refine Finset.Subset.antisymm hS.1 ?_
    have h0 : (dirs c \ S).card = 0 := by have := hS.2; omega
    exact Finset.sdiff_eq_empty_iff_subset.mp (Finset.card_eq_zero.mp h0)
  subst hS'
  isplitl [Hpay]; · iexact Hpay
  iexact Hat

/-- The payloads of the neighbours, direction by direction. -/
theorem barPays_split (c : Dev nD) :
    bigSep (dirs c) (fun e => barPay (F := F) c e)
      ⊢ iprop(cif (has 0 c) (barPay (F := F) c 0) iprop(emp) ∗ cif (has 1 c) (barPay (F := F) c 1) iprop(emp) ∗ cif (has 2 c) (barPay (F := F) c 2) iprop(emp)
          ∗ cif (has 3 c) (barPay (F := F) c 3) iprop(emp) ∗ cif (has 4 c) (barPay (F := F) c 4) iprop(emp) ∗ cif (has 5 c) (barPay (F := F) c 5) iprop(emp)) := by
  unfold dirs
  rw [bigSep_filter, bigSep_univ_eq_bigSepL [0, 1, 2, 3, 4, 5] (by decide) (by decide)]
  exact Entails.of_eq rfl

/-! ## One barrier wait -/

/-- The payloads held before a wait and those the wait returns are together the payloads of the larger set. -/
theorem bigSep_join {S S' : Finset (Fin 6)} (h : S ⊆ S') (Φ : Fin 6 → sProp 𝕄) :
    iprop(bigSep S Φ ∗ bigSep (S' \ S) Φ) ⊢ bigSep S' Φ :=
  Entails.of_eq (bigSep_sdiff_split h).symm

/-- One unit of the barrier cell's remaining credit, split off while a neighbour's unit is still to be consumed. -/
theorem cred_bar_split (c : Dev nD) (d : Fin 6) (hd : has d c = true) :
    (cred (tallyAt (barCell c) () ((dirs c).card - cnt d.val c)) : sProp 𝕄)
      ⊢ iprop(cred (tallyAt (barCell c) () 1) ∗ cred (tallyAt (barCell c) () ((dirs c).card - (cnt d.val c + 1)))) := by
  have hlt := cnt_lt_card d c hd
  rw [show (dirs c).card - cnt d.val c = 1 + ((dirs c).card - (cnt d.val c + 1)) by omega, ← tallyAt_add]
  exact (cred_add _ _).1

/-- The barrier wait of direction `d`, taken or skipped: one more unit of the barrier cell's round consumed where the
    device has a neighbour that way, while it still owes `O` (face credits to receive cells only, which sit above the
    barrier cells). -/
theorem step_bwait (c : Dev nD) (d : Fin 6) {b : Prop} [Decidable b] (hb : b ↔ has d c = true) (A : b → PROG F) (B : ¬b → PROG F)
    (hA : ∀ h, A h = .op (.semWait barS 1) fun _ => .ret ⟨⟩) (hB : ∀ h, B h = .ret ⟨⟩)
    (Q : PUnit → sProp 𝕄) :
    iprop(records m K ∗ levAts L lv ∗ owesE c (Os c 0) ∗ barSt (F := F) d.val c
        ∗ ((owesE c (Os c 0) ∗ barSt (F := F) (d.val + 1) c) -∗ Q ⟨⟩))
      ⊢ wp frame (wpE (defs₀ (F := F)) 𝒱₀ (c : Thread nD τ) none) Set.univ (dite b A B) Q := by
  by_cases h : b
  · have hd : has d c = true := hb.mp h
    rw [dif_pos h, hA h]
    iintro ⟨#Hrec, #Hlev, HO, Hbar, Hk⟩
    ihave HO := (Entails.of_eq (show owesE (F := F) c (Os c 0) = iprop(∃ W : Waits sig Unit, owes (c : Thread nD τ) (Os c 0) W) from rfl)) $$ HO
    icases HO with ⟨%W, HO⟩
    ihave Hbar := (Entails.of_eq (show barSt (F := F) d.val c = iprop(∃ S : Finset (Fin 6), ⌜S ⊆ dirs c ∧ cnt d.val c + (dirs c \ S).card ≤ (dirs c).card⌝
      ∗ atPos ER (barCell c) 0 S (cnt d.val c) ∗ bigSep S (fun e => barPay (F := F) c e)
      ∗ cred (tallyAt (barCell c) () ((dirs c).card - cnt d.val c))) from rfl)) $$ Hbar
    icases Hbar with ⟨%S, %hS, Hat, Hpay, Hc⟩
    ihave Hc := (cred_bar_split c d hd) $$ Hc
    icases Hc with ⟨Hc1, Hc⟩
    iapply (Rounds.wp_wait 𝒱₀ ER (haloRd m) (c : Thread nD τ) none (κ := K (c, 0))
        (wpE_semWait_eq 𝒱₀ (c : Thread nD τ) none Set.univ) (Set.mem_univ _) (cr := Finsupp.single () 1)
        (O := Os c 0) (W := W) {(SemLoc.reg barS, ())} (R := 0) (m := cnt d.val c) (T := S)
        (Util.total_single () 1) (image_single_subset (SemLoc.reg barS) () 1)) $$ [Hc1 HO Hat]
    · isplitr; · iapply (inv_at m K (c, 0)); iexact Hrec
      isplitl [Hc1]; · iexact Hc1
      isplitl [HO]; · iexact HO
      isplitr; · iapply (mayOwe_bar c); iexact Hlev
      iexact Hat
    iintro %S' ⟨%hS', HO, Hat, Hnew⟩
    rw [wp_ret]; imodintro
    iapply Hk
    have hS1 : S' ⊆ dirs c := by have h1 := hS'.2.1; rwa [duties_bar] at h1
    have hS2 : cnt d.val c + 1 + (dirs c \ S').card ≤ (dirs c).card := by
      have h2 := hS'.2.2; rwa [duties_bar, expect_bar] at h2
    isplitl [HO]
    · unfold owesE; iexists (W ∪ {(SemLoc.reg barS, ())}); iexact HO
    unfold barSt
    rw [cnt_succ_has d c hd]
    iexists S'
    isplitr; · ipureintro; exact ⟨hS1, hS2⟩
    isplitl [Hat]; · iexact Hat
    isplitl [Hpay Hnew]
    · iapply (bigSep_join hS'.1 (fun e => barPay (F := F) c e))
      isplitl [Hpay]; · iexact Hpay
      iexact Hnew
    iexact Hc
  · have hd : ¬ has d c = true := fun hh => h (hb.mpr hh)
    rw [dif_neg h, hB h, wp_ret]
    iintro ⟨-, -, HO, Hbar, Hk⟩
    imodintro
    iapply Hk
    isplitl [HO]; · iexact HO
    unfold barSt
    rw [cnt_succ_not d c hd]
    iexact Hbar

end Cert.KernelIdeal.Halo

end
-- ==== Proof.CopyZs.lean ====
/-
  The whole-block accesses and the z staging buffer.

  A load or a store through the unit-stride rectangle of a buffer's own sizes at zero offsets reads or replaces the
  buffer's contents. The z staging buffer takes two stores, each through the rectangle of one of its two slots: the
  block's z plane 0 into slot 0 and its z plane 47 into slot 1, each cut from the loaded block by a unit-extent slice
  and two re-indexings that keep row-major order. The two rectangles tile the buffer, so whatever it held before, it
  then holds exactly those two planes.
-/
import proofs.«900537_g7700000000000538_dist_halo3d_v7x_xyz2x4x4_s48_f32_1_alg».proof.Proof.Out
import Idealize.ShloMosaic.Lib.Pipeline.Value

noncomputable section

namespace Cert.KernelIdeal.Halo

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ)

/-- The zero offsets of a three-axis access, as the constant function. -/
theorem off3_zero : (![0, 0, 0] : Fin 3 → ℕ) = fun _ => 0 := by
  funext a
  match a with
  | ⟨0, _⟩ => rfl
  | ⟨1, _⟩ => rfl
  | ⟨2, _⟩ => rfl

/-! ## The whole-block load and the whole-block store -/

/-- The block read whole is the block. -/
theorem ldU_eq (c : Dev nD) : ldU (F := F) m c = xstg m c :=
  Memref.readAt_unit_zero (Elt F) cc0_stg0_0 off3_zero Facts₀.inb_S48x48x48_S48x48x48_0_0_0 (xstg m c)

/-- The result block stored whole is what was stored. -/
theorem putO_whole (o : (cc0_stg1_0 : Ref sig .tc).ty.Contents (Elt F)) (w : rW.shape.Idx → Elt F .f32) :
    putO (F := F) rW o w = w :=
  Memref.write_access_unit_zero_univ (Elt F) cc0_stg1_0 off3_zero Facts₀.inb_S48x48x48_S48x48x48_0_0_0 o w

/-! ## The two staged planes -/

/-- The first staged payload at `(0, a, b)` is the loaded block at `(a, b, 0)`; -/
theorem pay3_apply (v : Vec F S48x48x48 .f32) (a b : Fin 48) :
    k0_pay3 v (ix3 (0 : Fin 1) a b) = v (ix3 a b (0 : Fin 48)) := by
  unfold k0_pay3 k0_pay2
  refine (shapeCast_apply _ _ (ix3 (0 : Fin 1) a b) (ix2 a b) ?_).trans ?_
  · rw [Shape.rowMajor_val_three, Shape.rowMajor_val_two]
    show a.val * 48 + b.val = (0 * 48 + a.val) * 48 + b.val
    omega
  refine (shapeCast_apply _ _ (ix2 a b) (ix3 a b (0 : Fin 1)) ?_).trans ?_
  · rw [Shape.rowMajor_val_three, Shape.rowMajor_val_two]
    show (a.val * 48 + b.val) * 1 + 0 = a.val * 48 + b.val
    omega
  refine (extractStridedSlice_apply _ _ _ (ix3 a b (0 : Fin 1)) (ix3 a b (0 : Fin 48)) fun d => ?_).trans ?_
  · match d with
    | ⟨0, _⟩ => show a.val = 0 + a.val; omega
    | ⟨1, _⟩ => show b.val = 0 + b.val; omega
    | ⟨2, _⟩ => show 0 = 0 + 0; omega
  exact congrFun (shapeCast_self v _) _

/-- the second, the loaded block at `(a, b, 47)`. -/
theorem pay4_apply (v : Vec F S48x48x48 .f32) (a b : Fin 48) :
    k0_pay4 v (ix3 (0 : Fin 1) a b) = v (ix3 a b (47 : Fin 48)) := by
  unfold k0_pay4 k0_pay2
  refine (shapeCast_apply _ _ (ix3 (0 : Fin 1) a b) (ix2 a b) ?_).trans ?_
  · rw [Shape.rowMajor_val_three, Shape.rowMajor_val_two]
    show a.val * 48 + b.val = (0 * 48 + a.val) * 48 + b.val
    omega
  refine (shapeCast_apply _ _ (ix2 a b) (ix3 a b (0 : Fin 1)) ?_).trans ?_
  · rw [Shape.rowMajor_val_three, Shape.rowMajor_val_two]
    show (a.val * 48 + b.val) * 1 + 0 = a.val * 48 + b.val
    omega
  refine (extractStridedSlice_apply _ _ _ (ix3 a b (0 : Fin 1)) (ix3 a b (47 : Fin 48)) fun d => ?_).trans ?_
  · match d with
    | ⟨0, _⟩ => show a.val = 0 + a.val; omega
    | ⟨1, _⟩ => show b.val = 0 + b.val; omega
    | ⟨2, _⟩ => show 47 = 47 + 0; omega
  exact congrFun (shapeCast_self v _) _

/-! ## A store of one slot of a two-slot buffer, element by element -/

/-- Index `(0, x, y)` of the rectangle of slot `p` sits in the buffer at `(p, x, y)`. -/
theorem acc_emb0 (x y : Fin 48) : (zsM.access rS0 : View sig .tc _ _ _).emb (ix3 (0 : Fin 1) x y) = ix3 (0 : Fin 2) x y := by
  funext a
  apply Fin.ext
  show ((rS0.emb (ix3 (0 : Fin 1) x y)) a : ℕ) = _
  rw [Rect.emb_apply]
  match a with
  | ⟨0, _⟩ => show 0 + 1 * 0 = 0; omega
  | ⟨1, _⟩ => show 0 + 1 * x.val = x.val; omega
  | ⟨2, _⟩ => show 0 + 1 * y.val = y.val; omega
theorem acc_emb1 (x y : Fin 48) : (zsM.access rS1 : View sig .tc _ _ _).emb (ix3 (0 : Fin 1) x y) = ix3 (1 : Fin 2) x y := by
  funext a
  apply Fin.ext
  show ((rS1.emb (ix3 (0 : Fin 1) x y)) a : ℕ) = _
  rw [Rect.emb_apply]
  match a with
  | ⟨0, _⟩ => show 1 + 1 * 0 = 1; omega
  | ⟨1, _⟩ => show 0 + 1 * x.val = x.val; omega
  | ⟨2, _⟩ => show 0 + 1 * y.val = y.val; omega

/-- A store through a view at the element under index `x` leaves the payload's value at `x`. -/
theorem write_univ_of_emb {sig' : RefSig} {κ : Kind} {sp : Space} {s : Shape} {e : EltTy} {Val : EltTy → Type}
    (v : View sig' κ sp s e) (f : v.ty.Contents Val) (w : s.Idx → Val e) (x : s.Idx) {i : v.ty.Idx} (h : v.emb x = i) :
    v.write Val f w Finset.univ i = _root_.cast (congrArg Val v.elt_eq.symm) (w x) := by
  subst h; exact View.write_emb_of_mem _ _ (Finset.mem_univ x)

/-- The second slot's rectangle holds no element of the first slot. -/
theorem slot0_not_mem_rS1 (a b : Fin 48) :
    (ix3 (0 : Fin 2) a b : (cc0_scratch3 : Ref sig .tc).ty.Idx) ∉ (zsM.access rS1 : View sig .tc _ _ _).setOn Finset.univ := by
  rw [View.setOn_univ, View.set_slice_whole, Rect.mem_set_unit]
  intro h
  exact Nat.not_succ_le_zero 0 (h 0).1

/-! ## The z staging buffer after its two stores -/

/-- Whatever it held, after the stores of the block's first and last z planes the staging buffer holds those two planes. -/
theorem zs_eq (c : Dev nD) (f : (cc0_scratch3 : Ref sig .tc).ty.Contents (Elt F)) : zsAfter (F := F) m c f = zsC m c := by
  funext j
  obtain ⟨p, a, b, rfl⟩ : ∃ p a b, j = ix3 p a b := ⟨j 0, j 1, j 2, eq_ix3 (n0 := 2) (n1 := 48) (n2 := 48) j⟩
  unfold zsAfter
  rw [ldU_eq]
  match p with
  | ⟨0, _⟩ =>
    refine (View.write_of_not_mem _ _ _ (slot0_not_mem_rS1 a b)).trans ?_
    refine (write_univ_of_emb _ _ _ (ix3 (0 : Fin 1) a b) (acc_emb0 a b)).trans ?_
    show k0_pay3 (xstg m c) (ix3 (0 : Fin 1) a b) = zsC m c (ix3 (0 : Fin 2) a b)
    rw [pay3_apply]
    unfold zsC
    exact (if_pos rfl).symm
  | ⟨1, _⟩ =>
    refine (write_univ_of_emb _ _ _ (ix3 (0 : Fin 1) a b) (acc_emb1 a b)).trans ?_
    show k0_pay4 (xstg m c) (ix3 (0 : Fin 1) a b) = zsC m c (ix3 (1 : Fin 2) a b)
    rw [pay4_apply]
    unfold zsC
    exact (if_neg Nat.one_ne_zero).symm

end Cert.KernelIdeal.Halo

end
-- ==== Proof.Part2.lean ====
/-
  Part 2 of the body at a symbolic device: the entry signals of directions 4 and 5, the block loaded, its first and
  last z planes staged, and the six barrier waits.

  Each conditional statement is followed by the rest of the program; the weakest precondition of the two together is
  that of the statement alone with the rest's as its postcondition, so the statements are taken one at a time, each
  by the lemma that covers both of its branches. The two signals pay the units owed to the neighbours' barrier cells
  in directions 4 and 5. The staging buffer takes the block's z plane 0 into its first slot and z plane 47 into its
  second, whatever it held. The barrier cell's bookkeeping starts with nothing consumed, moves one direction per
  wait, and ends with every neighbour's payload in hand, split direction by direction.
-/
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.Parts0
import proofs.«900537_g7700000000000538_dist_halo3d_v7x_xyz2x4x4_s48_f32_1_alg».proof.Proof.StepSignal
import proofs.«900537_g7700000000000538_dist_halo3d_v7x_xyz2x4x4_s48_f32_1_alg».proof.Proof.StepBwait
import proofs.«900537_g7700000000000538_dist_halo3d_v7x_xyz2x4x4_s48_f32_1_alg».proof.Proof.CopyZs

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- A conditional statement followed by the rest of the program: the statement alone, then the rest. -/
theorem p2_wp_jp {M : Type _} [URA M] {Ef : Type → Type} {α : Type} {Mask : Type} (Fr : Mask → sProp M)
    (wE : Mask → ∀ ⦃β : Type⦄, Ef β → sWPT M β) (E : Mask)
    {b : Prop} [Decidable b] (A : b → Prog Ef PUnit) (R : Prog Ef α) (Q : α → sProp M) :
    wp Fr wE E (if h : b then (A h >>= fun _ => R) else R) Q
      = wp Fr wE E (dite b A (fun _ => .ret ⟨⟩)) (fun _ => wp Fr wE E R Q) := by
  by_cases h : b
  · rw [dif_pos h, dif_pos h, wp_bind]
  · rw [dif_neg h, dif_neg h, wp_ret, fupd_wp_eq]

set_option maxHeartbeats 1600000 in
/-- Part 2 (the entry signals of directions 4, 5; the block loaded; its two z planes staged; the six barrier waits): the device
    comes out owing only its transfers' credits, holding every neighbour's barrier payload. -/
theorem part2_spec (c : Dev nD) (v2 v5 v20 v21 : BitVec 32) (Kt : (Σ' (v35 : FVec F S48x48x48 .f32) (v58 : BitVec 32) (v59 : BitVec 32) (v60 : BitVec 32), BitVec 32) → sProp 𝕄) :
    iprop(records m K ∗ levAts L lv ∗ owesE c (Og c 4) ∗ dirA (F := F) c 4 ∗ dirA (F := F) c 5 ∗ uPts m c
        ∗ (∃ f : Buf (Elt F) ((c : Thread nD τ).loc cc0_scratch3), ((c : Thread nD τ).loc cc0_scratch3) ↦{fullShare} f)
        ∗ atPos ER (barCell c) 0 ∅ 0 ∗ cred (tallyAt (barCell c) () (dirs c).card)
        ∗ (∀ v58 v59 v60 v61, (owesE c (Os c 0) ∗ dirB (F := F) c 4 ∗ dirB (F := F) c 5 ∗ uPts m c
              ∗ (((c : Thread nD τ).loc cc0_scratch3) ↦{fullShare} zsC m c)
              ∗ atPos ER (barCell c) 0 (dirs c) (dirs c).card
              ∗ bP (F := F) c 0 ∗ bP (F := F) c 1 ∗ bP (F := F) c 2 ∗ bP (F := F) c 3 ∗ bP (F := F) c 4 ∗ bP (F := F) c 5)
            -∗ Kt ⟨blk m c, v58, v59, v60, v61⟩))
      ⊢ wp frame (wpE (defs₀ (F := F)) 𝒱₀ (c : Thread nD τ) none) Set.univ (part2 (F := F) c v2 v5 (fb 0 c) (fb 1 c) (fb 2 c) (fb 3 c) (fb 4 c) (fb 5 c) barArr v20 v21) Kt := by
  unfold part2
  rw [k0_part2_eq_skeleton]; unfold k0_part2_skel
  unfold bP dirB dirA uPts blk ldU
  iintro ⟨#HR, #Hlev, HO, ⟨Htok4, Hslot4⟩, ⟨Htok5, Hslot5⟩, Hu, ⟨%f, Hzs⟩, Hat, Hcr, Hk⟩
  -- the entry signal of direction 4
  rw [p2_wp_jp]
  iapply (step_signal m K c 4 (cond5_iff c) (fun h => ⟨k0_dev5 c, k0_dev5_lt c h⟩) (dev5_eq c) _ _ (fun h => rfl) (fun h => rfl) (Os c 0 + sigT 5 c) _)
  isplitr; · iexact HR
  isplitl [HO]; · iexact HO
  isplitl [Htok4]; · iexact Htok4
  isplitl [Hslot4]; · iexact Hslot4
  iintro ⟨HO, HdB4⟩
  -- the entry signal of direction 5
  rw [p2_wp_jp]
  iapply (step_signal m K c 5 (cond6_iff c) (fun h => ⟨k0_dev6 c, k0_dev6_lt c h⟩) (dev6_eq c) _ _ (fun h => rfl) (fun h => rfl) (Os c 0) _)
  isplitr; · iexact HR
  isplitl [HO]; · iexact HO
  isplitl [Htok5]; · iexact Htok5
  isplitl [Hslot5]; · iexact Hslot5
  iintro ⟨HO, HdB5⟩
  -- the block loaded whole
  rw [Prog.bind_lift]
  iapply (wp_load 𝒱₀ (c : Thread nD τ) none Set.univ (m := uM) (Finset.subset_univ _)) $$ Hu; iintro Hu
  -- its first z plane staged
  rw [Prog.bind_lift]
  iapply (wp_load 𝒱₀ (c : Thread nD τ) none Set.univ (m := zsM) (Finset.subset_univ _)) $$ Hzs; iintro Hzs
  rw [Prog.bind_lift]
  iapply (wp_store 𝒱₀ (c : Thread nD τ) none Set.univ (m := zsM) (r := rS0) (Mk := Finset.univ) (Finset.subset_univ _)) $$ Hzs; iintro Hzs
  -- its last z plane staged
  rw [Prog.bind_lift]
  iapply (wp_load 𝒱₀ (c : Thread nD τ) none Set.univ (m := zsM) (Finset.subset_univ _)) $$ Hzs; iintro Hzs
  rw [Prog.bind_lift]
  iapply (wp_store 𝒱₀ (c : Thread nD τ) none Set.univ (m := zsM) (r := rS1) (Mk := Finset.univ) (Finset.subset_univ _)) $$ Hzs; iintro Hzs
  -- the barrier cell's bookkeeping starts
  ihave Hbar := (barSt_zero (F := F) c) $$ [Hat Hcr]
  · isplitl [Hat]; · iexact Hat
    iexact Hcr
  -- the barrier wait of direction 0
  rw [p2_wp_jp]
  iapply (step_bwait m K c 0 (fb_cond 0 c) _ _ (fun h => rfl) (fun h => rfl) _)
  isplitr; · iexact HR
  isplitr; · iexact Hlev
  isplitl [HO]; · iexact HO
  isplitl [Hbar]; · iexact Hbar
  iintro ⟨HO, Hbar⟩
  -- the barrier wait of direction 1
  rw [p2_wp_jp]
  iapply (step_bwait m K c 1 (fb_cond 1 c) _ _ (fun h => rfl) (fun h => rfl) _)
  isplitr; · iexact HR
  isplitr; · iexact Hlev
  isplitl [HO]; · iexact HO
  isplitl [Hbar]; · iexact Hbar
  iintro ⟨HO, Hbar⟩
  -- the barrier wait of direction 2
  rw [p2_wp_jp]
  iapply (step_bwait m K c 2 (fb_cond 2 c) _ _ (fun h => rfl) (fun h => rfl) _)
  isplitr; · iexact HR
  isplitr; · iexact Hlev
  isplitl [HO]; · iexact HO
  isplitl [Hbar]; · iexact Hbar
  iintro ⟨HO, Hbar⟩
  -- the barrier wait of direction 3
  rw [p2_wp_jp]
  iapply (step_bwait m K c 3 (fb_cond 3 c) _ _ (fun h => rfl) (fun h => rfl) _)
  isplitr; · iexact HR
  isplitr; · iexact Hlev
  isplitl [HO]; · iexact HO
  isplitl [Hbar]; · iexact Hbar
  iintro ⟨HO, Hbar⟩
  -- the barrier wait of direction 4
  rw [p2_wp_jp]
  iapply (step_bwait m K c 4 (fb_cond 4 c) _ _ (fun h => rfl) (fun h => rfl) _)
  isplitr; · iexact HR
  isplitr; · iexact Hlev
  isplitl [HO]; · iexact HO
  isplitl [Hbar]; · iexact Hbar
  iintro ⟨HO, Hbar⟩
  -- the barrier wait of direction 5
  rw [p2_wp_jp]
  iapply (step_bwait m K c 5 (fb_cond 5 c) _ _ (fun h => rfl) (fun h => rfl) _)
  isplitr; · iexact HR
  isplitr; · iexact Hlev
  isplitl [HO]; · iexact HO
  isplitl [Hbar]; · iexact Hbar
  iintro ⟨HO, Hbar⟩
  -- the part's values
  rw [wp_pure]; imodintro
  iapply Hk
  -- the barrier cell's bookkeeping ends: every neighbour's payload, direction by direction
  ihave Hsix := ((Entails.of_eq (show barSt (F := F) ((5 : Fin 6).val + 1) c = barSt 6 c from rfl)).trans (barSt_six (F := F) c)) $$ Hbar
  icases Hsix with ⟨Hpays, Hat⟩
  ihave Hp := (barPays_split (F := F) c) $$ Hpays
  icases Hp with ⟨Hp0, Hp1, Hp2, Hp3, Hp4, Hp5⟩
  isplitl [HO]; · iexact HO
  isplitl [HdB4]; · iexact HdB4
  isplitl [HdB5]; · iexact HdB5
  isplitl [Hu]; · iexact Hu
  isplitl [Hzs]
  · -- the staging buffer holds the block's first and last z planes
    rw [← zs_eq m c f]; iexact Hzs
  isplitl [Hat]; · iexact Hat
  isplitl [Hp0]; · iexact Hp0
  isplitl [Hp1]; · iexact Hp1
  isplitl [Hp2]; · iexact Hp2
  isplitl [Hp3]; · iexact Hp3
  isplitl [Hp4]; · iexact Hp4
  iexact Hp5

end Cert.KernelIdeal.Halo

end
-- ==== Proof.StepSend.lean ====
/-
  The conditional remote copy of the halo exchange, at a symbolic device.

  Transfer `i` leaves device `c` exactly when `c` has a neighbour on the side opposite to `i`. Where it does, the
  transfer pays two duties at once: the only duty of `c`'s own send cell `i`, whose payload is the source face handed
  back, and the only duty of the neighbour's receive cell `i`, whose payload is the neighbour's landing slot `i`
  holding the face. The slot and the fact that the receive cell stands at round 0 reached `c` with the neighbour's
  entry signal; the credit of one face is taken off what `c` owes and the same credit on the send cell comes back.
  Where there is no such neighbour nothing runs and nothing was owed. Both cases are one statement.
-/
import proofs.«900537_g7700000000000538_dist_halo3d_v7x_xyz2x4x4_s48_f32_1_alg».proof.Proof.Asserts
import proofs.«900537_g7700000000000538_dist_halo3d_v7x_xyz2x4x4_s48_f32_1_alg».proof.Proof.Out

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The transfer rule at the exchange's cells, addressed to a device `n` that is the neighbour on the side opposite to `i`. -/
theorem step_send_at (c : Dev nD) (i : Fin 6) (hh : has (opp i) c = true)
    (hland : ∀ fd, slotPts (F := F) (nbr (opp i) c) i ((dstM i).view.write (Elt F) fd ((srcM i).view.read (Elt F) (srcC m c i)) Finset.univ)
      = slotPts (nbr (opp i) c) i (dstC m (nbr (opp i) c) i))
    (fn : Buf (Elt F) ((dstM i).view.loc (nbr (opp i) c : Thread nD τ))) (O : CellTallies nD τ sig Unit) (W : Waits sig Unit)
    {α : Type} {Q : α → sProp 𝕄} {k : PUnit → Prog (TpuEff nD τ sig (Elt F) Λ₀ .tc) α}
    (n : Dev nD) (hn : n = nbr (opp i) c) :
    ∀ hsc hsrc hdst hsem,
    iprop(cellInv ER (haloRd m) (K (c, sIdx i)) (sendCell c i) ∗ cellInv ER (haloRd m) (K (nbr (opp i) c, rIdx i)) (recvCell (nbr (opp i) c) i)
        ∗ srcPts c i (srcC m c i) ∗ slotPts (nbr (opp i) c) i fn
        ∗ owes (c : Thread nD τ) (O + tallyAt (recvCell (nbr (opp i) c) i) () N) W
        ∗ dutyTok ER (sendCell c i) 0 0 ∗ reached ER (sendCell c i) 0
        ∗ dutyTok ER (recvCell (nbr (opp i) c) i) 0 0 ∗ reached ER (recvCell (nbr (opp i) c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i) (.remote (Dev.tc n : Thread nD τ) (dstM i) (.dma (sendSem i)) hsc) (.dma (recvSem i)) hsrc hdst hsem) k) Q) := by
  subst hn
  intro hsc hsrc hdst hsem
  have hbk : has i (nbr (opp i) c) = true := by
    have := has_back (opp i) c hh; rwa [opp_opp] at this
  unfold srcPts slotPts
  exact Rounds.wp_send_pointsTo 𝒱₀ ER (haloRd m) (c : Thread nD τ) none (c' := (nbr (opp i) c : Thread nD τ))
    (src := srcM i) (dst := dstM i) (sS := .dma (sendSem i)) (sem := .dma (recvSem i)) (q := qS i) (fs := srcC m c i) (fd := fn)
    (κ₁ := K (c, sIdx i)) (κ₂ := K (nbr (opp i) c, rIdx i)) (r₁ := 0) (r₂ := 0) (d₁ := 0) (d₂ := 0)
    (by rw [duties_send, if_pos hh]; exact Finset.mem_singleton_self _)
    (by rw [duties_recv, if_pos hbk]; exact Finset.mem_singleton_self _)
    () () N (dst_credit i) (amount_send m c i 0) (amount_recv m (nbr (opp i) c) i 0) O rfl (W := W)
    (by rw [payload_send]; exact BI.Entails.refl _)
    (by rw [payload_recv]; unfold recvPay; exact Entails.of_eq (hland fn))

/-- Transfer `i`, started or skipped: where the device has a neighbour on the side opposite to `i` it lends the source face to
    its send cell and the neighbour's slot `i` (received with the barrier payload) to the neighbour's receive cell, which will
    hand it back holding the face (`hland`: where that neighbour exists, what the transfer writes there is the clean contents), and pays the face's
    credit it owes that receive cell; it gets the send cell's credit. -/
theorem step_send (c : Dev nD) (i : Fin 6) {b : Prop} [Decidable b] (hb : b ↔ has (opp i) c = true)
    (dev : b → Dev nD) (hdev : ∀ h, dev h = nbr (opp i) c) (A : b → PROG F) (B : ¬b → PROG F)
    (hA : ∀ h, ∃ hsc hsrc hdst hsem, A h = .op (.enqueueDma (srcM i) (.remote (Dev.tc (dev h) : Thread nD τ) (dstM i) (.dma (sendSem i)) hsc) (.dma (recvSem i)) hsrc hdst hsem) fun _ => .ret ⟨⟩)
    (hB : ∀ h, B h = .ret ⟨⟩)
    (hland : has (opp i) c = true → ∀ fd, slotPts (F := F) (nbr (opp i) c) i ((dstM i).view.write (Elt F) fd ((srcM i).view.read (Elt F) (srcC m c i)) Finset.univ)
      = slotPts (nbr (opp i) c) i (dstC m (nbr (opp i) c) i))
    (O : CellTallies nD τ sig Unit) (Q : PUnit → sProp 𝕄) :
    iprop(records m K ∗ owesE c (O + sndT i c) ∗ tokS (F := F) c i ∗ tokR (F := F) c (opp i) ∗ srcPts c i (srcC m c i)
        ∗ cif (has (opp i) c) (barPay (F := F) c (opp i)) iprop(emp)
        ∗ ((owesE c O ∗ cif (has (opp i) c) (cred (tallyAt (sendCell c i) () N))
              iprop(tokS (F := F) c i ∗ tokR (F := F) c (opp i) ∗ srcPts c i (srcC m c i))) -∗ Q ⟨⟩))
      ⊢ wp frame (wpE (defs₀ (F := F)) 𝒱₀ (c : Thread nD τ) none) Set.univ (dite b A B) Q := by
  by_cases h : b
  · -- the neighbour is there: the transfer is started
    have hh : has (opp i) c = true := hb.1 h
    obtain ⟨hsc, hsrc, hdst, hsem, hAe⟩ := hA h
    rw [dif_pos h, hAe]
    have I1 : records m K ⊢ cellInv ER (haloRd m) (K (c, sIdx i)) (sendCell c i) := by
      have := inv_at m K (c, sIdx i); rwa [kcell_send] at this
    have I2 : records m K ⊢ cellInv ER (haloRd m) (K (nbr (opp i) c, rIdx i)) (recvCell (nbr (opp i) c) i) := by
      have := inv_at m K (nbr (opp i) c, rIdx i); rwa [kcell_recv] at this
    have R1 : records m K ⊢ reached ER (sendCell c i) 0 := by
      have := reached_at m K (c, sIdx i); rwa [kcell_send] at this
    have eR : tokR (F := F) c (opp i) = dutyTok ER (recvCell (nbr (opp i) c) i) 0 0 := by
      unfold tokR; rw [peer_has hh]; dsimp only; rw [opp_opp]
    have eB : barPay (F := F) c (opp i) = iprop(slotAny (F := F) (nbr (opp i) c) i ∗ reached ER (recvCell (nbr (opp i) c) i) 0) := by
      unfold barPay; rw [opp_opp]
    have eS : sndT i c = tallyAt (recvCell (nbr (opp i) c) i) () N := if_pos hh
    unfold owesE cif
    rw [if_pos hh, if_pos hh, eR, eB, eS]
    unfold tokS slotAny
    iintro ⟨#Hrec, ⟨%W, HO⟩, HtS, HtR, Hsrc, ⟨⟨%fn, Hslot⟩, #Hr2⟩, Hk⟩
    iapply (step_send_at m K c i hh (hland hh) fn O W (dev h) (hdev h) hsc hsrc hdst hsem) $$ [HO HtS HtR Hsrc Hslot]
    · isplitr; · (iapply I1; iexact Hrec)
      isplitr; · (iapply I2; iexact Hrec)
      isplitl [Hsrc]; · iexact Hsrc
      isplitl [Hslot]; · iexact Hslot
      isplitl [HO]; · iexact HO
      isplitl [HtS]; · iexact HtS
      isplitr; · (iapply R1; iexact Hrec)
      isplitl [HtR]; · iexact HtR
      iexact Hr2
    iintro ⟨Hc, HO⟩
    rw [wp_ret]; imodintro
    iapply Hk
    isplitl [HO]
    · iexists W; iexact HO
    iexact Hc
  · -- no neighbour: nothing is started and nothing was owed
    have hh : ¬ has (opp i) c = true := fun hx => h (hb.2 hx)
    rw [dif_neg h, hB h, wp_ret]
    have eS : sndT i c = 0 := if_neg hh
    unfold cif
    rw [eS, add_zero, if_neg hh, if_neg hh]
    iintro ⟨-, HO, HtS, HtR, Hsrc, -, Hk⟩
    imodintro
    iapply Hk
    isplitl [HO]; · iexact HO
    isplitl [HtS]; · iexact HtS
    isplitl [HtR]; · iexact HtR
    iexact Hsrc

end Cert.KernelIdeal.Halo

end
-- ==== Proof.CopyViews.lean ====
/-
  Index equations of the exchange's views.

  A face of a three-axis buffer is one plane of it with the unit axis dropped: a unit-stride rectangle of extent one on
  an axis, then a squeeze to two axes. Its index `(x, y)` sits in the buffer at `(p, x, y)` for plane `p` of the first
  axis and at `(x, p, y)` for plane `p` of the second; reading through the face is reading the buffer there. The two
  slots of a two-slot buffer and the four faces cut from the block are such planes. Writing through one view all of what
  another reads is settled, under the first view, by comparing the two reads index by index.
-/
import proofs.«900537_g7700000000000538_dist_halo3d_v7x_xyz2x4x4_s48_f32_1_alg».proof.Proof.Out
import Idealize.ShloMosaic.Lib.Pipeline.Value
import Idealize.ShloMosaic.Lib.ValueLayout

noncomputable section

namespace Cert.KernelIdeal.Halo

open Cert.KernelIdeal Cert.KernelIdeal.Gen
open Idealize.ShloMosaic Idealize.ShloMosaic.TcCoe Idealize.ShloMosaic.ValueIdx

variable {F : FTy → Type} [FloatOps F]

/-! ## A squeeze's index map with the unit axis in the middle -/

/-- An index `(x, y)` matched with shape `[a, 1, b]` is `(x, 0, y)`. -/
theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-! ## Where the indices of a squeezed plane sit in its buffer -/

section Emb
variable {sp : Space}

/-- Plane `p` along the first axis of a three-axis buffer, squeezed to two axes: index `(x, y)` sits at `(p, x, y)`. -/
theorem emb_plane0 {n0 n1 n2 : ℕ} (M : Memref sig .tc sp ⟨3, ![n0, n1, n2]⟩ .f32) (p : Fin n0)
    (inb : ∀ a, (![p.val, 0, 0] : Fin 3 → ℕ) a + (⟨3, ![1, n1, n2]⟩ : Shape).size a ≤ (⟨3, ![n0, n1, n2]⟩ : Shape).size a)
    (hq : (⟨3, ![1, n1, n2]⟩ : Shape).Squeezes ⟨2, ![n1, n2]⟩) (x : Fin n1) (y : Fin n2) :
    ((M.slice (Rect.unit (s := ⟨3, ![n0, n1, n2]⟩) ![p.val, 0, 0] (⟨3, ![1, n1, n2]⟩ : Shape).size inb) (fun _ => rfl)).squeeze
        ⟨2, ![n1, n2]⟩ hq).view.emb (ix2 x y) = M.view.emb (ix3 p x y) := by
  show M.view.emb ((Rect.unit (s := ⟨3, ![n0, n1, n2]⟩) ![p.val, 0, 0] (⟨3, ![1, n1, n2]⟩ : Shape).size inb).emb
    (Shape.reshapeEquiv _ (ix2 x y))) = _
  rw [reshapeEquiv_ix2_1ab]
  congr 1
  funext a
  apply Fin.ext
  rw [Rect.emb_apply]
  match a with
  | ⟨0, _⟩ => show p.val + 1 * 0 = p.val; omega
  | ⟨1, _⟩ => show 0 + 1 * x.val = x.val; omega
  | ⟨2, _⟩ => show 0 + 1 * y.val = y.val; omega

/-- Plane `p` along the second axis, squeezed: index `(x, y)` sits at `(x, p, y)`. -/
theorem emb_plane1 {n0 n1 n2 : ℕ} (M : Memref sig .tc sp ⟨3, ![n0, n1, n2]⟩ .f32) (p : Fin n1)
    (inb : ∀ a, (![0, p.val, 0] : Fin 3 → ℕ) a + (⟨3, ![n0, 1, n2]⟩ : Shape).size a ≤ (⟨3, ![n0, n1, n2]⟩ : Shape).size a)
    (hq : (⟨3, ![n0, 1, n2]⟩ : Shape).Squeezes ⟨2, ![n0, n2]⟩) (x : Fin n0) (y : Fin n2) :
    ((M.slice (Rect.unit (s := ⟨3, ![n0, n1, n2]⟩) ![0, p.val, 0] (⟨3, ![n0, 1, n2]⟩ : Shape).size inb) (fun _ => rfl)).squeeze
        ⟨2, ![n0, n2]⟩ hq).view.emb (ix2 x y) = M.view.emb (ix3 x p y) := by
  show M.view.emb ((Rect.unit (s := ⟨3, ![n0, n1, n2]⟩) ![0, p.val, 0] (⟨3, ![n0, 1, n2]⟩ : Shape).size inb).emb
    (Shape.reshapeEquiv _ (ix2 x y))) = _
  rw [reshapeEquiv_ix2_a1b]
  congr 1
  funext a
  apply Fin.ext
  rw [Rect.emb_apply]
  match a with
  | ⟨0, _⟩ => show 0 + 1 * x.val = x.val; omega
  | ⟨1, _⟩ => show p.val + 1 * 0 = p.val; omega
  | ⟨2, _⟩ => show 0 + 1 * y.val = y.val; omega

end Emb

/-! ## Reading, and writing what another view reads -/

section Read
variable {sp : Space}

/-- Plane `p` along the first axis, squeezed, read at `(x, y)` is the buffer read at `(p, x, y)`. -/
theorem read_plane0 {n0 n1 n2 : ℕ} (M : Memref sig .tc sp ⟨3, ![n0, n1, n2]⟩ .f32) (p : Fin n0)
    (inb : ∀ a, (![p.val, 0, 0] : Fin 3 → ℕ) a + (⟨3, ![1, n1, n2]⟩ : Shape).size a ≤ (⟨3, ![n0, n1, n2]⟩ : Shape).size a)
    (hq : (⟨3, ![1, n1, n2]⟩ : Shape).Squeezes ⟨2, ![n1, n2]⟩) (f : M.view.ty.Contents (Elt F)) (x : Fin n1) (y : Fin n2) :
    ((M.slice (Rect.unit (s := ⟨3, ![n0, n1, n2]⟩) ![p.val, 0, 0] (⟨3, ![1, n1, n2]⟩ : Shape).size inb) (fun _ => rfl)).squeeze
        ⟨2, ![n1, n2]⟩ hq).view.read (Elt F) f (ix2 x y) = M.view.read (Elt F) f (ix3 p x y) := by
  rw [View.read_apply, View.read_apply]
  exact congrArg (fun i => _root_.cast _ (f i)) (emb_plane0 M p inb hq x y)

/-- Plane `p` along the second axis, squeezed, read at `(x, y)` is the buffer read at `(x, p, y)`. -/
theorem read_plane1 {n0 n1 n2 : ℕ} (M : Memref sig .tc sp ⟨3, ![n0, n1, n2]⟩ .f32) (p : Fin n1)
    (inb : ∀ a, (![0, p.val, 0] : Fin 3 → ℕ) a + (⟨3, ![n0, 1, n2]⟩ : Shape).size a ≤ (⟨3, ![n0, n1, n2]⟩ : Shape).size a)
    (hq : (⟨3, ![n0, 1, n2]⟩ : Shape).Squeezes ⟨2, ![n0, n2]⟩) (f : M.view.ty.Contents (Elt F)) (x : Fin n0) (y : Fin n2) :
    ((M.slice (Rect.unit (s := ⟨3, ![n0, n1, n2]⟩) ![0, p.val, 0] (⟨3, ![n0, 1, n2]⟩ : Shape).size inb) (fun _ => rfl)).squeeze
        ⟨2, ![n0, n2]⟩ hq).view.read (Elt F) f (ix2 x y) = M.view.read (Elt F) f (ix3 x p y) := by
  rw [View.read_apply, View.read_apply]
  exact congrArg (fun i => _root_.cast _ (f i)) (emb_plane1 M p inb hq x y)

end Read

/-- What a view holds after all of what a second view reads off `S` is written through it agrees, under the view, with
    any contents `D` that the view reads as the second reads `S`. -/
theorem write_read_eq_on {sig' : RefSig} {κ κ' : Kind} {sp sp' : Space} {s : Shape} {e : EltTy} {Val : EltTy → Type}
    (v : View sig' κ sp s e) (v' : View sig' κ' sp' s e) (fd D : v.ty.Contents Val) (S : v'.ty.Contents Val)
    (h : ∀ x, v'.read Val S x = v.read Val D x) :
    ∀ j ∈ v.set, v.write Val fd (v'.read Val S) Finset.univ j = D j := by
  intro j hj
  obtain ⟨x, rfl⟩ := View.exists_emb_of_mem_set v hj
  rw [View.write_emb_of_mem _ _ (Finset.mem_univ x), h x, View.read_apply, cast_cast, cast_eq]

/-! ## The views of the exchange -/

/-- The two slots of a two-slot buffer: slot `p` read at `(x, y)` is the buffer read at `(p, x, y)`. -/
theorem read_slot0 (b : Memref sig .tc .vmem S2x48x48 .f32) (f : b.view.ty.Contents (Elt F)) (x y : Fin 48) :
    (slot0 b).view.read (Elt F) f (ix2 x y) = b.view.read (Elt F) f (ix3 (0 : Fin 2) x y) :=
  read_plane0 b (0 : Fin 2) Facts₀.inb_S2x48x48_S1x48x48_0_0_0 Facts₀.squeezes_S1x48x48_S48x48 f x y
theorem read_slot1 (b : Memref sig .tc .vmem S2x48x48 .f32) (f : b.view.ty.Contents (Elt F)) (x y : Fin 48) :
    (slot1 b).view.read (Elt F) f (ix2 x y) = b.view.read (Elt F) f (ix3 (1 : Fin 2) x y) :=
  read_plane0 b (1 : Fin 2) Facts₀.inb_S2x48x48_S1x48x48_1_0_0 Facts₀.squeezes_S1x48x48_S48x48 f x y

/-- The four faces cut from the block: its last and first planes along the first axis, its last and first along the second. -/
theorem read_src0 (f : uM.view.ty.Contents (Elt F)) (x y : Fin 48) :
    (srcM 0).view.read (Elt F) f (ix2 x y) = f (ix3 (47 : Fin 48) x y) :=
  read_plane0 uM (47 : Fin 48) Facts₀.inb_S48x48x48_S1x48x48_47_0_0 Facts₀.squeezes_S1x48x48_S48x48 f x y
theorem read_src1 (f : uM.view.ty.Contents (Elt F)) (x y : Fin 48) :
    (srcM 1).view.read (Elt F) f (ix2 x y) = f (ix3 (0 : Fin 48) x y) :=
  read_plane0 uM (0 : Fin 48) Facts₀.inb_S48x48x48_S1x48x48_0_0_0 Facts₀.squeezes_S1x48x48_S48x48 f x y
theorem read_src2 (f : uM.view.ty.Contents (Elt F)) (x y : Fin 48) :
    (srcM 2).view.read (Elt F) f (ix2 x y) = f (ix3 x (47 : Fin 48) y) :=
  read_plane1 uM (47 : Fin 48) Facts₀.inb_S48x48x48_S48x1x48_0_47_0 Facts₀.squeezes_S48x1x48_S48x48 f x y
theorem read_src3 (f : uM.view.ty.Contents (Elt F)) (x y : Fin 48) :
    (srcM 3).view.read (Elt F) f (ix2 x y) = f (ix3 x (0 : Fin 48) y) :=
  read_plane1 uM (0 : Fin 48) Facts₀.inb_S48x48x48_S48x1x48_0_0_0 Facts₀.squeezes_S48x1x48_S48x48 f x y

end Cert.KernelIdeal.Halo

end
-- ==== Proof.CopyLand.lean ====
/-
  What a landed face leaves in its slot.

  Transfer `i` reads its source on the neighbour `s` of device `c` in direction `i` — the plane of `s`'s block that faces
  `c`, cut from the block itself for the x and y directions and staged in the z buffer for the z directions — and
  writes all of slot `i` of `c`. Under the slot, what it leaves is what the landing buffer holds once every face has
  landed: at `(x, y)` both are the block of `s` at the facing plane's `(x, y)`.
-/
import proofs.«900537_g7700000000000538_dist_halo3d_v7x_xyz2x4x4_s48_f32_1_alg».proof.Proof.CopyViews
import Idealize.ShloMosaic.Rules.PointsTo

noncomputable section

namespace Cert.KernelIdeal.Halo

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ)

theorem land0 (s c : Dev nD) (hs : nbr 0 c = s) (fd : Buf (Elt F) ((dstM 0).view.loc (c : Thread nD τ))) :
    slotPts (F := F) c 0 ((dstM 0).view.write (Elt F) fd ((srcM 0).view.read (Elt F) (srcC m s 0)) Finset.univ)
      = slotPts c 0 (dstC m c 0) := by
  subst hs
  refine pointsTo_congr (write_read_eq_on (dstM 0).view (srcM 0).view fd (dstC m c 0) (srcC m (nbr 0 c) 0) fun x => ?_)
  obtain ⟨a, b, rfl⟩ : ∃ a b, x = ix2 a b := ⟨x 0, x 1, eq_ix2 x⟩
  refine (read_src0 _ a b).trans ?_
  refine Eq.trans ?_ (read_slot0 hxM _ a b).symm
  show xstg m (nbr 0 c) (ix3 47 a b) = hC m 0 c (ix3 0 a b)
  unfold hC
  exact (if_pos rfl).symm

theorem land1 (s c : Dev nD) (hs : nbr 1 c = s) (fd : Buf (Elt F) ((dstM 1).view.loc (c : Thread nD τ))) :
    slotPts (F := F) c 1 ((dstM 1).view.write (Elt F) fd ((srcM 1).view.read (Elt F) (srcC m s 1)) Finset.univ)
      = slotPts c 1 (dstC m c 1) := by
  subst hs
  refine pointsTo_congr (write_read_eq_on (dstM 1).view (srcM 1).view fd (dstC m c 1) (srcC m (nbr 1 c) 1) fun x => ?_)
  obtain ⟨a, b, rfl⟩ : ∃ a b, x = ix2 a b := ⟨x 0, x 1, eq_ix2 x⟩
  refine (read_src1 _ a b).trans ?_
  refine Eq.trans ?_ (read_slot1 hxM _ a b).symm
  show xstg m (nbr 1 c) (ix3 0 a b) = hC m 0 c (ix3 1 a b)
  unfold hC
  exact (if_neg Nat.one_ne_zero).symm

theorem land2 (s c : Dev nD) (hs : nbr 2 c = s) (fd : Buf (Elt F) ((dstM 2).view.loc (c : Thread nD τ))) :
    slotPts (F := F) c 2 ((dstM 2).view.write (Elt F) fd ((srcM 2).view.read (Elt F) (srcC m s 2)) Finset.univ)
      = slotPts c 2 (dstC m c 2) := by
  subst hs
  refine pointsTo_congr (write_read_eq_on (dstM 2).view (srcM 2).view fd (dstC m c 2) (srcC m (nbr 2 c) 2) fun x => ?_)
  obtain ⟨a, b, rfl⟩ : ∃ a b, x = ix2 a b := ⟨x 0, x 1, eq_ix2 x⟩
  refine (read_src2 _ a b).trans ?_
  refine Eq.trans ?_ (read_slot0 hyM _ a b).symm
  show xstg m (nbr 2 c) (ix3 a 47 b) = hC m 1 c (ix3 0 a b)
  unfold hC
  exact (if_pos rfl).symm

theorem land3 (s c : Dev nD) (hs : nbr 3 c = s) (fd : Buf (Elt F) ((dstM 3).view.loc (c : Thread nD τ))) :
    slotPts (F := F) c 3 ((dstM 3).view.write (Elt F) fd ((srcM 3).view.read (Elt F) (srcC m s 3)) Finset.univ)
      = slotPts c 3 (dstC m c 3) := by
  subst hs
  refine pointsTo_congr (write_read_eq_on (dstM 3).view (srcM 3).view fd (dstC m c 3) (srcC m (nbr 3 c) 3) fun x => ?_)
  obtain ⟨a, b, rfl⟩ : ∃ a b, x = ix2 a b := ⟨x 0, x 1, eq_ix2 x⟩
  refine (read_src3 _ a b).trans ?_
  refine Eq.trans ?_ (read_slot1 hyM _ a b).symm
  show xstg m (nbr 3 c) (ix3 a 0 b) = hC m 1 c (ix3 1 a b)
  unfold hC
  exact (if_neg Nat.one_ne_zero).symm

theorem land4 (s c : Dev nD) (hs : nbr 4 c = s) (fd : Buf (Elt F) ((dstM 4).view.loc (c : Thread nD τ))) :
    slotPts (F := F) c 4 ((dstM 4).view.write (Elt F) fd ((srcM 4).view.read (Elt F) (srcC m s 4)) Finset.univ)
      = slotPts c 4 (dstC m c 4) := by
  subst hs
  refine pointsTo_congr (write_read_eq_on (dstM 4).view (srcM 4).view fd (dstC m c 4) (srcC m (nbr 4 c) 4) fun x => ?_)
  obtain ⟨a, b, rfl⟩ : ∃ a b, x = ix2 a b := ⟨x 0, x 1, eq_ix2 x⟩
  refine (read_slot1 zsM _ a b).trans ?_
  refine Eq.trans ?_ (read_slot0 hzM _ a b).symm
  show zsC m (nbr 4 c) (ix3 1 a b) = hC m 2 c (ix3 0 a b)
  unfold hC zsC
  exact (if_neg Nat.one_ne_zero).trans (if_pos rfl).symm

theorem land5 (s c : Dev nD) (hs : nbr 5 c = s) (fd : Buf (Elt F) ((dstM 5).view.loc (c : Thread nD τ))) :
    slotPts (F := F) c 5 ((dstM 5).view.write (Elt F) fd ((srcM 5).view.read (Elt F) (srcC m s 5)) Finset.univ)
      = slotPts c 5 (dstC m c 5) := by
  subst hs
  refine pointsTo_congr (write_read_eq_on (dstM 5).view (srcM 5).view fd (dstC m c 5) (srcC m (nbr 5 c) 5) fun x => ?_)
  obtain ⟨a, b, rfl⟩ : ∃ a b, x = ix2 a b := ⟨x 0, x 1, eq_ix2 x⟩
  refine (read_slot0 zsM _ a b).trans ?_
  refine Eq.trans ?_ (read_slot1 hzM _ a b).symm
  show zsC m (nbr 5 c) (ix3 0 a b) = hC m 2 c (ix3 1 a b)
  unfold hC zsC
  exact (if_pos rfl).trans (if_neg Nat.one_ne_zero).symm

/-- Transfer `i` out of the source contents of `c`'s neighbour in direction `i` leaves slot `i` of `c` holding that
    neighbour's face. -/
theorem land_eq (i : Fin 6) (s c : Dev nD) (hs : nbr i c = s) (fd : Buf (Elt F) ((dstM i).view.loc (c : Thread nD τ))) :
    slotPts (F := F) c i ((dstM i).view.write (Elt F) fd ((srcM i).view.read (Elt F) (srcC m s i)) Finset.univ)
      = slotPts c i (dstC m c i) :=
  match i, hs, fd with
  | 0, hs, fd => land0 m s c hs fd
  | 1, hs, fd => land1 m s c hs fd
  | 2, hs, fd => land2 m s c hs fd
  | 3, hs, fd => land3 m s c hs fd
  | 4, hs, fd => land4 m s c hs fd
  | 5, hs, fd => land5 m s c hs fd

end Cert.KernelIdeal.Halo

end
-- ==== Proof.StepSend2.lean ====
/-
  The conditional remote copy with its landing fact supplied.

  Where device `c` has a neighbour `n` on the side opposite to `i`, `c` is in turn `n`'s neighbour in direction `i`,
  so what transfer `i` out of `c`'s source writes into slot `i` of `n` is what that slot holds once every face has
  landed. With that the step needs no hypothesis about the landing.
-/
import proofs.«900537_g7700000000000538_dist_halo3d_v7x_xyz2x4x4_s48_f32_1_alg».proof.Proof.StepSend
import proofs.«900537_g7700000000000538_dist_halo3d_v7x_xyz2x4x4_s48_f32_1_alg».proof.Proof.CopyLand

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- Transfer `i`, started or skipped, the landing contents being the neighbour's clean slot by the geometry of the mesh. -/
theorem step_send' (c : Dev nD) (i : Fin 6) {b : Prop} [Decidable b] (hb : b ↔ has (opp i) c = true)
    (dev : b → Dev nD) (hdev : ∀ h, dev h = nbr (opp i) c) (A : b → PROG F) (B : ¬b → PROG F)
    (hA : ∀ h, ∃ hsc hsrc hdst hsem, A h = .op (.enqueueDma (srcM i) (.remote (Dev.tc (dev h) : Thread nD τ) (dstM i) (.dma (sendSem i)) hsc) (.dma (recvSem i)) hsrc hdst hsem) fun _ => .ret ⟨⟩)
    (hB : ∀ h, B h = .ret ⟨⟩)
    (O : CellTallies nD τ sig Unit) (Q : PUnit → sProp 𝕄) :
    iprop(records m K ∗ owesE c (O + sndT i c) ∗ tokS (F := F) c i ∗ tokR (F := F) c (opp i) ∗ srcPts c i (srcC m c i)
        ∗ cif (has (opp i) c) (barPay (F := F) c (opp i)) iprop(emp)
        ∗ ((owesE c O ∗ cif (has (opp i) c) (cred (tallyAt (sendCell c i) () N))
              iprop(tokS (F := F) c i ∗ tokR (F := F) c (opp i) ∗ srcPts c i (srcC m c i))) -∗ Q ⟨⟩))
      ⊢ wp frame (wpE (defs₀ (F := F)) 𝒱₀ (c : Thread nD τ) none) Set.univ (dite b A B) Q :=
  step_send m K c i hb dev hdev A B hA hB
    (fun hh fd => land_eq m i c (nbr (opp i) c) (by have := nbr_back (opp i) c hh; rwa [opp_opp] at this) fd) O Q

end Cert.KernelIdeal.Halo

end
-- ==== Proof.Part3.lean ====
/-
  Part 3 of the body: the six transfers.

  Transfer `i` stands in the program as a conditional statement on "the device has a neighbour on the side opposite
  to `i`", followed by the rest of the part. Each is one application of the transfer step: it takes the transfer's
  two tokens with its source and the barrier payload of that neighbour, takes the face's credit off what the device
  owes, and leaves the send cell's credit, or everything as it was where there is no such neighbour. After the six
  nothing is owed, and the part returns its four values, which are computed from the block alone.
-/
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.Parts0
import proofs.«900537_g7700000000000538_dist_halo3d_v7x_xyz2x4x4_s48_f32_1_alg».proof.Proof.StepSend2

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- A conditional statement followed by the rest of the program: the rest, which stands after the operation of the taken
    branch and alone in the other, is run after the conditional statement as a whole. -/
theorem p3_if_jp (c : Dev nD) {α : Type} {b : Prop} [Decidable b] (e : b → TpuEff nD τ sig (Elt F) Λ₀ .tc PUnit)
    (R : Prog (TpuEff nD τ sig (Elt F) Λ₀ .tc) α) (Q : α → sProp 𝕄) :
    wp frame (wpE (defs₀ (F := F)) 𝒱₀ (c : Thread nD τ) none) Set.univ (dite b (fun h => Prog.op (e h) fun _ => R) (fun _ => R)) Q
      = wp frame (wpE (defs₀ (F := F)) 𝒱₀ (c : Thread nD τ) none) Set.univ
          (dite b (fun h => Prog.op (e h) fun _ => Prog.ret PUnit.unit) (fun _ => Prog.ret PUnit.unit))
          (fun _ => wp frame (wpE (defs₀ (F := F)) 𝒱₀ (c : Thread nD τ) none) Set.univ R Q) := by
  have hp : dite b (fun h => Prog.op (e h) fun _ => R) (fun _ => R)
      = (dite b (fun h => Prog.op (e h) fun _ => Prog.ret PUnit.unit) (fun _ => Prog.ret PUnit.unit)) >>= fun _ => R := by
    by_cases h : b
    · rw [dif_pos h, dif_pos h]; rfl
    · rw [dif_neg h, dif_neg h]; rfl
  rw [hp, wp_bind]

/-- Transfer `i` on the grouped pieces of the device's state: it takes the transfer's two tokens with its source and the
    barrier payload of the direction opposite to `i`, and leaves the send cell's credit where the transfer was started,
    the tokens and the source as they were where it was not; what is owed loses the face's credit of that transfer. -/
theorem p3_xfer (c : Dev nD) (i : Fin 6) {b : Prop} [Decidable b] (hb : b ↔ has (opp i) c = true)
    (dev : b → Dev nD) (hdev : ∀ h, dev h = nbr (opp i) c) (A : b → PROG F) (B : ¬b → PROG F)
    (hA : ∀ h, ∃ hsc hsrc hdst hsem, A h = .op (.enqueueDma (srcM i) (.remote (Dev.tc (dev h) : Thread nD τ) (dstM i) (.dma (sendSem i)) hsc) (.dma (recvSem i)) hsrc hdst hsem) fun _ => .ret ⟨⟩)
    (hB : ∀ h, B h = .ret ⟨⟩)
    (O : CellTallies nD τ sig Unit) (Q : PUnit → sProp 𝕄) :
    iprop(records m K ∗ owesE c (O + sndT i c) ∗ sndA m c i ∗ bP (F := F) c (opp i)
        ∗ ((owesE c O ∗ sndB m c i) -∗ Q ⟨⟩))
      ⊢ wp frame (wpE (defs₀ (F := F)) 𝒱₀ (c : Thread nD τ) none) Set.univ (dite b A B) Q := by
  unfold sndB sndA bP
  iintro ⟨#HR, HO, ⟨HtS, HtR, Hs⟩, Hb, Hk⟩
  iapply (step_send' m K c i hb dev hdev A B hA hB O Q)
  isplitr; · iexact HR
  isplitl [HO]; · iexact HO
  isplitl [HtS]; · iexact HtS
  isplitl [HtR]; · iexact HtR
  isplitl [Hs]; · iexact Hs
  isplitl [Hb]; · iexact Hb
  iexact Hk
set_option maxHeartbeats 1600000 in
/-- Part 3 (the six transfers): each started transfer pays the credit owed to the neighbour's receive cell and leaves the send
    cell's credit; nothing is owed afterwards. -/
theorem part3_spec (c : Dev nD) (v2 v5 v8 v58 v59 v60 v61 : BitVec 32) (Kt : (Σ' (v76 : FVec F S1x48x48 .f32) (v77 : FVec F S48x1x48 .f32) (v78 : FVec F S48x48x1 .f32), FVec F S48x48x48 .f32) → sProp 𝕄) :
    iprop(records m K ∗ owesE c (Os c 0)
        ∗ sndA m c 0 ∗ sndA m c 1 ∗ sndA m c 2 ∗ sndA m c 3 ∗ sndA m c 4 ∗ sndA m c 5
        ∗ bP (F := F) c 0 ∗ bP (F := F) c 1 ∗ bP (F := F) c 2 ∗ bP (F := F) c 3 ∗ bP (F := F) c 4 ∗ bP (F := F) c 5
        ∗ ((owesE c 0 ∗ sndB m c 0 ∗ sndB m c 1 ∗ sndB m c 2 ∗ sndB m c 3 ∗ sndB m c 4 ∗ sndB m c 5)
            -∗ Kt ⟨k0_pay5 (F := F), k0_pay6 (F := F), k0_pay7 (F := F), k0_pay8 (blk m c)⟩))
      ⊢ wp frame (wpE (defs₀ (F := F)) 𝒱₀ (c : Thread nD τ) none) Set.univ (part3 (F := F) c v2 v5 v8 (fb 0 c) (fb 1 c) (fb 2 c) (fb 3 c) (fb 4 c) (fb 5 c) (blk m c) v58 v59 v60 v61) Kt := by
  unfold part3
  rw [k0_part3_eq_skeleton]; unfold k0_part3_skel
  simp only [Prog.lift, Prog.bind_op, Prog.bind_ret, Prog.pure_eq_ret]
  iintro ⟨#HR, HO, HA0, HA1, HA2, HA3, HA4, HA5, Hb0, Hb1, Hb2, Hb3, Hb4, Hb5, Hk⟩
  -- transfer 0
  rw [p3_if_jp c]
  iapply (p3_xfer m K c 0 (cond13_iff c) (fun h => ⟨k0_dev7 c, k0_dev7_lt c h⟩) (dev7_eq c) _ _ (fun h => ⟨_, _, _, _, rfl⟩) (fun h => rfl) (Os c 1) _)
  isplitr; · iexact HR
  isplitl [HO]; · iexact HO
  isplitl [HA0]; · iexact HA0
  isplitl [Hb1]; · iexact Hb1
  iintro ⟨HO, HB0⟩
  -- transfer 1
  rw [p3_if_jp c]
  iapply (p3_xfer m K c 1 (cond14_iff c) (fun h => ⟨k0_dev8 c, k0_dev8_lt c h⟩) (dev8_eq c) _ _ (fun h => ⟨_, _, _, _, rfl⟩) (fun h => rfl) (Os c 2) _)
  isplitr; · iexact HR
  isplitl [HO]; · iexact HO
  isplitl [HA1]; · iexact HA1
  isplitl [Hb0]; · iexact Hb0
  iintro ⟨HO, HB1⟩
  -- transfer 2
  rw [p3_if_jp c]
  iapply (p3_xfer m K c 2 (cond15_iff c) (fun h => ⟨k0_dev9 c, k0_dev9_lt c h⟩) (dev9_eq c) _ _ (fun h => ⟨_, _, _, _, rfl⟩) (fun h => rfl) (Os c 3) _)
  isplitr; · iexact HR
  isplitl [HO]; · iexact HO
  isplitl [HA2]; · iexact HA2
  isplitl [Hb3]; · iexact Hb3
  iintro ⟨HO, HB2⟩
  -- transfer 3
  rw [p3_if_jp c]
  iapply (p3_xfer m K c 3 (cond16_iff c) (fun h => ⟨k0_dev10 c, k0_dev10_lt c h⟩) (dev10_eq c) _ _ (fun h => ⟨_, _, _, _, rfl⟩) (fun h => rfl) (Os c 4) _)
  isplitr; · iexact HR
  isplitl [HO]; · iexact HO
  isplitl [HA3]; · iexact HA3
  isplitl [Hb2]; · iexact Hb2
  iintro ⟨HO, HB3⟩
  -- transfer 4
  rw [p3_if_jp c]
  iapply (p3_xfer m K c 4 (cond17_iff c) (fun h => ⟨k0_dev11 c, k0_dev11_lt c h⟩) (dev11_eq c) _ _ (fun h => ⟨_, _, _, _, rfl⟩) (fun h => rfl) (Os c 5) _)
  isplitr; · iexact HR
  isplitl [HO]; · iexact HO
  isplitl [HA4]; · iexact HA4
  isplitl [Hb5]; · iexact Hb5
  iintro ⟨HO, HB4⟩
  -- transfer 5
  rw [p3_if_jp c]
  iapply (p3_xfer m K c 5 (cond18_iff c) (fun h => ⟨k0_dev12 c, k0_dev12_lt c h⟩) (dev12_eq c) _ _ (fun h => ⟨_, _, _, _, rfl⟩) (fun h => rfl) 0 _)
  isplitr; · iexact HR
  isplitl [HO]; · iexact HO
  isplitl [HA5]; · iexact HA5
  isplitl [Hb4]; · iexact Hb4
  iintro ⟨HO, HB5⟩
  -- the part's values
  rw [wp_ret]; imodintro
  iapply Hk
  isplitl [HO]; · iexact HO
  isplitl [HB0]; · iexact HB0
  isplitl [HB1]; · iexact HB1
  isplitl [HB2]; · iexact HB2
  isplitl [HB3]; · iexact HB3
  isplitl [HB4]; · iexact HB4
  iexact HB5

end Cert.KernelIdeal.Halo

end
-- ==== Proof.StepWaits.lean ====
/-
  The conditional waits on the twelve transfer cells of a device, and the closing of those cells.

  Receive cell `i` of device `c` has one duty exactly when `c` has a neighbour in direction `i`; send cell `i` has one
  duty exactly when `c` has a neighbour on the side opposite to `i`. Where the duty is there, the wait for the face's
  credit consumes the whole of round 0: the owner comes back at round 1 holding the duty's payload (the landing slot with
  the neighbour's face; the source face). Where it is not, the statement is skipped and nothing moves. Either way the
  owner then stands at a round from which no round has a duty, so the cell closes and its counter, at zero, is the
  core's again.
-/
import proofs.«900537_g7700000000000538_dist_halo3d_v7x_xyz2x4x4_s48_f32_1_alg».proof.Proof.Asserts
import proofs.«900537_g7700000000000538_dist_halo3d_v7x_xyz2x4x4_s48_f32_1_alg».proof.Proof.Out

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## What a whole round of a transfer cell hands its owner -/

/-- The one duty of a receive cell hands back the landing slot holding the neighbour's face; -/
theorem rest_recv (c : Dev nD) (i : Fin 6) (h : has i c = true) :
    bigSep ((haloRd (F := F) m).duties (recvCell c i) 0 \ ∅) (fun d => (haloRd (F := F) m).payload (recvCell c i) 0 d)
      = slotPts c i (dstC m c i) := by
  rw [Finset.sdiff_empty, duties_recv, if_pos h, bigSep_singleton, payload_recv]; rfl

/-- the one duty of a send cell, the source face. -/
theorem rest_send (c : Dev nD) (i : Fin 6) (h : has (opp i) c = true) :
    bigSep ((haloRd (F := F) m).duties (sendCell c i) 0 \ ∅) (fun d => (haloRd (F := F) m).payload (sendCell c i) 0 d)
      = srcPts c i (srcC m c i) := by
  rw [Finset.sdiff_empty, duties_send, if_pos h, bigSep_singleton, payload_send]; rfl

/-- A receive cell of a device with no neighbour that way has no duty in any round; -/
theorem no_duty_recv (c : Dev nD) (i : Fin 6) (h : ¬ has i c = true) :
    ∀ r, 0 ≤ r → (haloRd (F := F) m).duties (recvCell c i) r = ∅ := fun r _ => by
  rcases r with _ | r
  · rw [duties_recv, if_neg h]
  · exact duties_later m _ _ (by omega)

/-- a send cell of a device with no neighbour on the opposite side, likewise. -/
theorem no_duty_send (c : Dev nD) (i : Fin 6) (h : ¬ has (opp i) c = true) :
    ∀ r, 0 ≤ r → (haloRd (F := F) m).duties (sendCell c i) r = ∅ := fun r _ => by
  rcases r with _ | r
  · rw [duties_send, if_neg h]
  · exact duties_later m _ _ (by omega)

/-! ## The waits -/

/-- The receive wait of slot `i`, taken or skipped: where the device has a neighbour in direction `i` the whole round of
    its receive cell is consumed and slot `i` comes back holding the neighbour's face. -/
theorem step_rwait (c : Dev nD) (i : Fin 6) {b : Prop} [Decidable b] (hb : b ↔ has i c = true) (A : b → PROG F) (B : ¬b → PROG F)
    (hA : ∀ h, ∃ hs hd, A h = .op (.waitDma2 (recvSem i) (dstM i) (dstM i) hs hd) fun _ => .ret ⟨⟩) (hB : ∀ h, B h = .ret ⟨⟩)
    (Q : PUnit → sProp 𝕄) :
    iprop(records m K ∗ owesE c 0 ∗ atPos ER (recvCell c i) 0 ∅ 0 ∗ cif (has i c) (cred (tallyAt (recvCell c i) () N)) iprop(emp)
        ∗ ((owesE c 0 ∗ cif (has i c) iprop(atPos ER (recvCell c i) 1 ∅ 0 ∗ slotPts c i (dstC m c i)) (atPos ER (recvCell c i) 0 ∅ 0)) -∗ Q ⟨⟩))
      ⊢ wp frame (wpE (defs₀ (F := F)) 𝒱₀ (c : Thread nD τ) none) Set.univ (dite b A B) Q := by
  by_cases h : b
  · have hh : has i c = true := hb.mp h
    obtain ⟨hs, hd, hAe⟩ := hA h
    rw [dif_pos h, hAe]; unfold cif; rw [if_pos hh, if_pos hh]
    unfold owesE
    iintro ⟨#Hrec, ⟨%W, HO⟩, Hat, Hc, Hk⟩
    ihave HI := (inv_at m K (c, rIdx i)) $$ Hrec
    rw [kcell_recv]
    iapply (Rounds.wp_wait_rest_token 𝒱₀ ER (haloRd m) (c : Thread nD τ) none (κ := K (c, rIdx i)) (k' := N)
        (fun Kt => (wpE_waitDma2_eq 𝒱₀ (c : Thread nD τ) none Set.univ Kt).trans (by rw [dst_credit i]))
        (Set.mem_univ _) () (O := 0) (W := W) (R := 0) (m := 0) (T := ∅)
        (by rw [Nat.zero_add, expect_recv m c i hh])) $$ [HI Hc HO Hat]
    · isplitl [HI]; · iexact HI
      isplitl [Hc]; · iexact Hc
      isplitl [HO]; · iexact HO
      isplitr; · rw [MayWait_zero]; iempintro
      iexact Hat
    iintro ⟨HO, Hat, -, Hpay⟩
    ihave Hs := (Entails.of_eq (rest_recv m c i hh)) $$ Hpay
    rw [wp_ret]; imodintro
    iapply Hk
    isplitl [HO]; · iexists _; iexact HO
    isplitl [Hat]; · iexact Hat
    iexact Hs
  · have hh : ¬ has i c = true := fun e => h (hb.mpr e)
    rw [dif_neg h, hB h]; unfold cif; rw [if_neg hh, if_neg hh, wp_ret]
    iintro ⟨-, HO, Hat, -, Hk⟩
    imodintro
    iapply Hk
    isplitl [HO]; · iexact HO
    iexact Hat

/-- The send wait of transfer `i`, taken or skipped: where the transfer was started the whole round of the send cell is
    consumed and the source face comes back. -/
theorem step_swait (c : Dev nD) (i : Fin 6) {b : Prop} [Decidable b] (hb : b ↔ has (opp i) c = true) (A : b → PROG F) (B : ¬b → PROG F)
    (hA : ∀ h, ∃ hs hd, A h = .op (.waitDma2 (sendSem i) (dstM i) (srcM i) hs hd) fun _ => .ret ⟨⟩) (hB : ∀ h, B h = .ret ⟨⟩)
    (Q : PUnit → sProp 𝕄) :
    iprop(records m K ∗ owesE c 0 ∗ atPos ER (sendCell c i) 0 ∅ 0 ∗ cif (has (opp i) c) (cred (tallyAt (sendCell c i) () N)) iprop(emp)
        ∗ ((owesE c 0 ∗ cif (has (opp i) c) iprop(atPos ER (sendCell c i) 1 ∅ 0 ∗ srcPts c i (srcC m c i)) (atPos ER (sendCell c i) 0 ∅ 0)) -∗ Q ⟨⟩))
      ⊢ wp frame (wpE (defs₀ (F := F)) 𝒱₀ (c : Thread nD τ) none) Set.univ (dite b A B) Q := by
  by_cases h : b
  · have hh : has (opp i) c = true := hb.mp h
    obtain ⟨hs, hd, hAe⟩ := hA h
    rw [dif_pos h, hAe]; unfold cif; rw [if_pos hh, if_pos hh]
    unfold owesE
    iintro ⟨#Hrec, ⟨%W, HO⟩, Hat, Hc, Hk⟩
    ihave HI := (inv_at m K (c, sIdx i)) $$ Hrec
    rw [kcell_send]
    iapply (Rounds.wp_wait_rest_token 𝒱₀ ER (haloRd m) (c : Thread nD τ) none (κ := K (c, sIdx i)) (k' := N)
        (fun Kt => (wpE_waitDma2_eq 𝒱₀ (c : Thread nD τ) none Set.univ Kt).trans (by rw [src_credit i]))
        (Set.mem_univ _) () (O := 0) (W := W) (R := 0) (m := 0) (T := ∅)
        (by rw [Nat.zero_add, expect_send m c i hh])) $$ [HI Hc HO Hat]
    · isplitl [HI]; · iexact HI
      isplitl [Hc]; · iexact Hc
      isplitl [HO]; · iexact HO
      isplitr; · rw [MayWait_zero]; iempintro
      iexact Hat
    iintro ⟨HO, Hat, -, Hpay⟩
    ihave Hs := (Entails.of_eq (rest_send m c i hh)) $$ Hpay
    rw [wp_ret]; imodintro
    iapply Hk
    isplitl [HO]; · iexists _; iexact HO
    isplitl [Hat]; · iexact Hat
    iexact Hs
  · have hh : ¬ has (opp i) c = true := fun e => h (hb.mpr e)
    rw [dif_neg h, hB h]; unfold cif; rw [if_neg hh, if_neg hh, wp_ret]
    iintro ⟨-, HO, Hat, -, Hk⟩
    imodintro
    iapply Hk
    isplitl [HO]; · iexact HO
    iexact Hat

/-! ## Closing the cells -/

/-- A send or receive cell closes once its owner stands past its only round (or at round 0 of a cell with no duty):
    its counter, at zero, is the core's again. -/
theorem close_recv (c : Dev nD) (i : Fin 6) :
    iprop(records m K ∗ cif (has i c) (atPos ER (recvCell c i) 1 ∅ 0) (atPos ER (recvCell c i) 0 ∅ 0)) ⊢ |={Set.univ}=> (semVal (recvCell c i) 0 : sProp 𝕄) := by
  by_cases hh : has i c = true
  · unfold cif; rw [if_pos hh]
    iintro ⟨#Hrec, Hat⟩
    ihave HI := (inv_at m K (c, rIdx i)) $$ Hrec
    rw [kcell_recv]
    iapply (Rounds.cell_close ER (haloRd m) (Set.mem_univ (K (c, rIdx i))) (fun h => h) (R := 1) (duties_later m (recvCell c i)))
    isplitl [HI]; · iexact HI
    iexact Hat
  · unfold cif; rw [if_neg hh]
    iintro ⟨#Hrec, Hat⟩
    ihave HI := (inv_at m K (c, rIdx i)) $$ Hrec
    rw [kcell_recv]
    iapply (Rounds.cell_close ER (haloRd m) (Set.mem_univ (K (c, rIdx i))) (fun h => h) (R := 0) (no_duty_recv m c i hh))
    isplitl [HI]; · iexact HI
    iexact Hat

theorem close_send (c : Dev nD) (i : Fin 6) :
    iprop(records m K ∗ cif (has (opp i) c) (atPos ER (sendCell c i) 1 ∅ 0) (atPos ER (sendCell c i) 0 ∅ 0)) ⊢ |={Set.univ}=> (semVal (sendCell c i) 0 : sProp 𝕄) := by
  by_cases hh : has (opp i) c = true
  · unfold cif; rw [if_pos hh]
    iintro ⟨#Hrec, Hat⟩
    ihave HI := (inv_at m K (c, sIdx i)) $$ Hrec
    rw [kcell_send]
    iapply (Rounds.cell_close ER (haloRd m) (Set.mem_univ (K (c, sIdx i))) (fun h => h) (R := 1) (duties_later m (sendCell c i)))
    isplitl [HI]; · iexact HI
    iexact Hat
  · unfold cif; rw [if_neg hh]
    iintro ⟨#Hrec, Hat⟩
    ihave HI := (inv_at m K (c, sIdx i)) $$ Hrec
    rw [kcell_send]
    iapply (Rounds.cell_close ER (haloRd m) (Set.mem_univ (K (c, sIdx i))) (fun h => h) (R := 0) (no_duty_send m c i hh))
    isplitl [HI]; · iexact HI
    iexact Hat

end Cert.KernelIdeal.Halo

end
-- ==== Proof.Part4.lean ====
/-
  Part 4 of the body: the block's own stencil is stored whole into the result's staging buffer, and the device waits on
  its receive cells of slots 0 … 4.

  The store goes through the unit-stride rectangle of the buffer's own sizes at zero offsets, so whatever the buffer
  held it then holds exactly the stored value, which is the first stage of the result. Each receive wait is one
  conditional statement: where the device has a neighbour in the slot's direction the cell's only round is consumed and
  the slot comes back holding that neighbour's face; where it has none nothing moves.
-/
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.Parts0
import proofs.«900537_g7700000000000538_dist_halo3d_v7x_xyz2x4x4_s48_f32_1_alg».proof.Proof.CopyZs
import proofs.«900537_g7700000000000538_dist_halo3d_v7x_xyz2x4x4_s48_f32_1_alg».proof.Proof.StepWaits

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- A conditional statement of one operation, with the rest of the block substituted into both of its branches, is the
    conditional statement bound to the rest. -/
theorem p4_dite_jp {α β : Type} {b : Prop} [Decidable b] (w : b → TpuEff nD τ sig (Elt F) Λ₀ .tc β)
    (J : Prog (TpuEff nD τ sig (Elt F) Λ₀ .tc) α) :
    dite b (fun h => Prog.op (w h) fun _ => J) (fun _ => J)
      = (dite b (fun h => Prog.op (w h) fun _ => (Prog.ret ⟨⟩ : PROG F)) (fun _ => Prog.ret ⟨⟩)) >>= fun _ => J := by
  by_cases h : b
  · rw [dif_pos h, dif_pos h]; rfl
  · rw [dif_neg h, dif_neg h]; rfl

/-- Part 4 (the block's own stencil stored; the receive waits of slots 0 … 4). -/
theorem part4_spec (c : Dev nD) (v2 v5 v8 : BitVec 32) (Kt : BitVec 32 → sProp 𝕄) :
    iprop(records m K ∗ owesE c 0 ∗ (∃ o, oPts (F := F) c o)
        ∗ rcvA (F := F) c 0 ∗ rcvA (F := F) c 1 ∗ rcvA (F := F) c 2 ∗ rcvA (F := F) c 3 ∗ rcvA (F := F) c 4
        ∗ ((owesE c 0 ∗ oPts (F := F) c (out0 m c) ∗ rcvB m c 0 ∗ rcvB m c 1 ∗ rcvB m c 2 ∗ rcvB m c 3 ∗ rcvB m c 4) -∗ Kt (Scalar.extui (fb 5 c))))
      ⊢ wp frame (wpE (defs₀ (F := F)) 𝒱₀ (c : Thread nD τ) none) Set.univ (part4 (F := F) v2 v5 v8 (fb 0 c) (fb 1 c) (fb 2 c) (fb 3 c) (fb 4 c) (fb 5 c) (blk m c) (k0_pay5 (F := F)) (k0_pay6 (F := F)) (k0_pay7 (F := F)) (k0_pay8 (blk m c))) Kt := by
  unfold part4
  rw [k0_part4_eq_skeleton]; unfold k0_part4_skel
  simp only [Prog.lift, Prog.bind_op, Prog.bind_ret, Prog.pure_eq_ret]
  unfold rcvA rcvB oPts
  iintro ⟨#HR, HO, ⟨%o, Hout⟩, ⟨Hat0, Hc0⟩, ⟨Hat1, Hc1⟩, ⟨Hat2, Hc2⟩, ⟨Hat3, Hc3⟩, ⟨Hat4, Hc4⟩, Hk⟩
  -- the block's own stencil stored whole
  iapply (wp_load 𝒱₀ (c : Thread nD τ) none Set.univ (m := oM) (Finset.subset_univ _)) $$ Hout; iintro Hout
  iapply (wp_store 𝒱₀ (c : Thread nD τ) none Set.univ (m := oM) (r := rW) (Mk := Finset.univ) (Finset.subset_univ _)) $$ Hout; iintro Hout
  have e0 : (oM.access rW : View sig .tc _ _ _).write (Elt F) o (k0_pay9 (blk m c) (k0_pay5 (F := F)) (k0_pay6 (F := F)) (k0_pay7 (F := F)) (k0_pay8 (blk m c))) Finset.univ = out0 m c :=
    putO_whole o _
  rw [e0]
  -- the receive wait of slot 0
  rw [p4_dite_jp, wp_bind]
  iapply (step_rwait m K c 0 (fb_cond 0 c) _ _ (fun h => ⟨_, _, rfl⟩) (fun h => rfl))
  isplitr; · iexact HR
  isplitl [HO]; · iexact HO
  isplitl [Hat0]; · iexact Hat0
  isplitl [Hc0]; · iexact Hc0
  iintro ⟨HO, RB0⟩
  -- the receive wait of slot 1
  rw [p4_dite_jp, wp_bind]
  iapply (step_rwait m K c 1 (fb_cond 1 c) _ _ (fun h => ⟨_, _, rfl⟩) (fun h => rfl))
  isplitr; · iexact HR
  isplitl [HO]; · iexact HO
  isplitl [Hat1]; · iexact Hat1
  isplitl [Hc1]; · iexact Hc1
  iintro ⟨HO, RB1⟩
  -- the receive wait of slot 2
  rw [p4_dite_jp, wp_bind]
  iapply (step_rwait m K c 2 (fb_cond 2 c) _ _ (fun h => ⟨_, _, rfl⟩) (fun h => rfl))
  isplitr; · iexact HR
  isplitl [HO]; · iexact HO
  isplitl [Hat2]; · iexact Hat2
  isplitl [Hc2]; · iexact Hc2
  iintro ⟨HO, RB2⟩
  -- the receive wait of slot 3
  rw [p4_dite_jp, wp_bind]
  iapply (step_rwait m K c 3 (fb_cond 3 c) _ _ (fun h => ⟨_, _, rfl⟩) (fun h => rfl))
  isplitr; · iexact HR
  isplitl [HO]; · iexact HO
  isplitl [Hat3]; · iexact Hat3
  isplitl [Hc3]; · iexact Hc3
  iintro ⟨HO, RB3⟩
  -- the receive wait of slot 4
  rw [p4_dite_jp, wp_bind]
  iapply (step_rwait m K c 4 (fb_cond 4 c) _ _ (fun h => ⟨_, _, rfl⟩) (fun h => rfl))
  isplitr; · iexact HR
  isplitl [HO]; · iexact HO
  isplitl [Hat4]; · iexact Hat4
  isplitl [Hc4]; · iexact Hc4
  iintro ⟨HO, RB4⟩
  -- the part's value, and the pieces handed on
  rw [wp_ret]; imodintro
  iapply Hk
  isplitl [HO]; · iexact HO
  isplitl [Hout]; · iexact Hout
  isplitl [RB0]; · iexact RB0
  isplitl [RB1]; · iexact RB1
  isplitl [RB2]; · iexact RB2
  isplitl [RB3]; · iexact RB3
  iexact RB4

end Cert.KernelIdeal.Halo

end
-- ==== Proof.StepAddZero.lean ====
/-
  The conditional local steps on the result's staging buffer: a landed face added onto the block's boundary plane on
  the side it came from, and a boundary plane on the grid's outer frame overwritten by zeros.

  Each step is one statement over both branches of its condition. Where the condition holds, the loads of the plane
  read the whole buffer's contents through the plane's rectangle, the load of the landing slot reads that slot's
  contents (the elements a load through the slot's rectangle touches are exactly the slot's own view: a slice of the
  two-slot buffer, re-indexed), and the store rewrites the plane, which is the next stage of the result by its
  definition. Where it fails the statement is empty and the next stage is the previous one.
-/
import proofs.«900537_g7700000000000538_dist_halo3d_v7x_xyz2x4x4_s48_f32_1_alg».proof.Proof.Asserts
import proofs.«900537_g7700000000000538_dist_halo3d_v7x_xyz2x4x4_s48_f32_1_alg».proof.Proof.Out

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The elements a load through a slot's rectangle of a two-slot buffer reads are the elements of that slot's view. -/
theorem slot_load_subset (b : Memref sig .tc .vmem S2x48x48 .f32) (r : Rect S2x48x48) (hr : ∀ a, r.stride a = 1)
    (hq : r.shape.Squeezes S48x48) :
    b.view.setOn r.toLoadRect.set ⊆ ((b.slice r hr).squeeze S48x48 hq).view.set := by
  have h : ((b.slice r hr).squeeze S48x48 hq).view.set = r.set.map b.view.emb :=
    (View.set_reshape (b.view.slice r) hq.numel_eq).trans (View.set_slice b.view r)
  intro x hx
  rw [h]; exact hx

/-- A conditional addition onto a plane of the result: under the flag, the plane is loaded, a slot of a two-slot buffer is
    loaded, and the plane is stored as `pay` of the two; otherwise nothing happens. The result's buffer moves from `o` to
    `o'`, the plane rewritten or not by the flag; the slot's points-to is only read. -/
theorem add_gen (c : Dev nD) {b : Prop} [Decidable b] (t : Bool) (hb : b ↔ t = true) (A : b → PROG F) (B : ¬b → PROG F)
    (r : Rect S48x48x48) (hM : Memref sig .tc .vmem S2x48x48 .f32) (rs : Rect S2x48x48)
    (pay : (r.toLoadRect.shape.Idx → Elt F .f32) → (rs.toLoadRect.shape.Idx → Elt F .f32) → r.shape.Idx → Elt F .f32)
    (hA : ∀ h, ∃ hl1 hl2 hl3 hx hm, A h = .op (.load oM r.toLoadRect hl1) fun v154 => .op (.load hM rs.toLoadRect hl2) fun v156 =>
      .op (.load oM r.toLoadRect hl3) fun _ => .op (.store oM r (pay v154 v156) Finset.univ hx hm) fun _ => .ret ⟨⟩)
    (hB : ∀ h, B h = .ret ⟨⟩) (Q : PUnit → sProp 𝕄)
    (o o' : (cc0_stg1_0 : Ref sig .tc).ty.Contents (Elt F))
    (S : Finset (Idx (hM.view.loc (c : Thread nD τ)))) (fH : Buf (Elt F) (hM.view.loc (c : Thread nD τ)))
    (hS : hM.view.setOn rs.toLoadRect.set ⊆ S)
    (ho : o' = if t = true then putO r o (pay (getO r o) (hM.view.readAt (Elt F) rs.toLoadRect fH)) else o) :
    iprop(oPts (F := F) c o ∗ cif t (hM.view.loc (c : Thread nD τ) ↦[S]{fullShare} fH) iprop(emp)
        ∗ ((oPts (F := F) c o' ∗ cif t (hM.view.loc (c : Thread nD τ) ↦[S]{fullShare} fH) iprop(emp)) -∗ Q ⟨⟩))
      ⊢ wp frame (wpE (defs₀ (F := F)) 𝒱₀ (c : Thread nD τ) none) Set.univ (dite b A B) Q := by
  by_cases h : b
  · have h0 : t = true := hb.1 h
    obtain ⟨hl1, hl2, hl3, hx, hm, hAe⟩ := hA h
    rw [dif_pos h, hAe, ho]
    unfold oPts cif
    rw [if_pos h0, if_pos h0]
    iintro ⟨Hout, Hs, Hk⟩
    iapply (wp_load 𝒱₀ (c : Thread nD τ) none Set.univ (m := oM) (Finset.subset_univ _)) $$ Hout; iintro Hout
    iapply (wp_load 𝒱₀ (c : Thread nD τ) none Set.univ (m := hM) hS) $$ Hs; iintro Hs
    iapply (wp_load 𝒱₀ (c : Thread nD τ) none Set.univ (m := oM) (Finset.subset_univ _)) $$ Hout; iintro Hout
    iapply (wp_store 𝒱₀ (c : Thread nD τ) none Set.univ (m := oM) (r := r) (Mk := Finset.univ) (Finset.subset_univ _)) $$ Hout; iintro Hout
    rw [wp_ret]; imodintro
    iapply Hk
    isplitl [Hout]
    · iexact Hout
    · iexact Hs
  · have h0 : ¬ t = true := fun h' => h (hb.2 h')
    rw [dif_neg h, hB h, wp_ret, ho]
    unfold cif
    rw [if_neg h0, if_neg h0]
    iintro ⟨Hout, Hs, Hk⟩
    imodintro
    iapply Hk
    isplitl [Hout]
    · iexact Hout
    · iexact Hs

/-- A conditional overwrite of a plane of the result by a constant: where the flag is false the plane is loaded (the
    value is dropped) and stored as `w`; otherwise nothing happens. -/
theorem zero_gen (c : Dev nD) {b : Prop} [Decidable b] (t : Bool) (hb : b ↔ t = false) (A : b → PROG F) (B : ¬b → PROG F)
    (r : Rect S48x48x48) (w : r.shape.Idx → Elt F .f32)
    (hA : ∀ h, ∃ hl hx hm, A h = .op (.load oM r.toLoadRect hl) fun _ => .op (.store oM r w Finset.univ hx hm) fun _ => .ret ⟨⟩)
    (hB : ∀ h, B h = .ret ⟨⟩) (Q : PUnit → sProp 𝕄)
    (o o' : (cc0_stg1_0 : Ref sig .tc).ty.Contents (Elt F))
    (ho : o' = if t = false then putO r o w else o) :
    iprop(oPts (F := F) c o ∗ (oPts (F := F) c o' -∗ Q ⟨⟩))
      ⊢ wp frame (wpE (defs₀ (F := F)) 𝒱₀ (c : Thread nD τ) none) Set.univ (dite b A B) Q := by
  by_cases h : b
  · have h0 : t = false := hb.1 h
    obtain ⟨hl, hx, hm, hAe⟩ := hA h
    rw [dif_pos h, hAe, ho, if_pos h0]
    unfold oPts
    iintro ⟨Hout, Hk⟩
    iapply (wp_load 𝒱₀ (c : Thread nD τ) none Set.univ (m := oM) (Finset.subset_univ _)) $$ Hout; iintro Hout
    iapply (wp_store 𝒱₀ (c : Thread nD τ) none Set.univ (m := oM) (r := r) (Mk := Finset.univ) (Finset.subset_univ _)) $$ Hout; iintro Hout
    rw [wp_ret]; imodintro
    iapply Hk
    iexact Hout
  · have h0 : ¬ t = false := fun h' => h (hb.2 h')
    rw [dif_neg h, hB h, wp_ret, ho, if_neg h0]
    iintro ⟨Hout, Hk⟩
    imodintro
    iapply Hk
    iexact Hout

/-- The landed face of direction 0 added onto the block's boundary plane on that side, or nothing where there is no neighbour. -/
theorem step_add0 (c : Dev nD) {b : Prop} [Decidable b] (hb : b ↔ has 0 c = true) (A : b → PROG F) (B : ¬b → PROG F)
    (hA : ∀ h, ∃ hl1 hl2 hl3 hx hm, A h = .op (.load oM rX0.toLoadRect hl1) fun v154 => .op (.load hxM rS0.toLoadRect hl2) fun v156 =>
      .op (.load oM rX0.toLoadRect hl3) fun _ => .op (.store oM rX0 (k0_pay10 v154 v156) Finset.univ hx hm) fun _ => .ret ⟨⟩)
    (hB : ∀ h, B h = .ret ⟨⟩) (Q : PUnit → sProp 𝕄) :
    iprop(oPts (F := F) c (out0 m c) ∗ cif (has 0 c) (slotPts c 0 (dstC m c 0)) iprop(emp)
        ∗ ((oPts (F := F) c (out1 m c) ∗ cif (has 0 c) (slotPts c 0 (dstC m c 0)) iprop(emp)) -∗ Q ⟨⟩))
      ⊢ wp frame (wpE (defs₀ (F := F)) 𝒱₀ (c : Thread nD τ) none) Set.univ (dite b A B) Q :=
  add_gen c (has 0 c) hb A B rX0 hxM rS0 (fun v w => k0_pay10 v w) hA hB Q (out0 m c) (out1 m c)
    (dstM 0).view.set (dstC m c 0) (slot_load_subset hxM rS0 (fun _ => rfl) Facts₀.squeezes_S1x48x48_S48x48) rfl

/-- The landed face of direction 1 added onto the block's boundary plane on that side, or nothing where there is no neighbour. -/
theorem step_add1 (c : Dev nD) {b : Prop} [Decidable b] (hb : b ↔ has 1 c = true) (A : b → PROG F) (B : ¬b → PROG F)
    (hA : ∀ h, ∃ hl1 hl2 hl3 hx hm, A h = .op (.load oM rX1.toLoadRect hl1) fun v154 => .op (.load hxM rS1.toLoadRect hl2) fun v156 =>
      .op (.load oM rX1.toLoadRect hl3) fun _ => .op (.store oM rX1 (k0_pay11 v154 v156) Finset.univ hx hm) fun _ => .ret ⟨⟩)
    (hB : ∀ h, B h = .ret ⟨⟩) (Q : PUnit → sProp 𝕄) :
    iprop(oPts (F := F) c (out1 m c) ∗ cif (has 1 c) (slotPts c 1 (dstC m c 1)) iprop(emp)
        ∗ ((oPts (F := F) c (out2 m c) ∗ cif (has 1 c) (slotPts c 1 (dstC m c 1)) iprop(emp)) -∗ Q ⟨⟩))
      ⊢ wp frame (wpE (defs₀ (F := F)) 𝒱₀ (c : Thread nD τ) none) Set.univ (dite b A B) Q :=
  add_gen c (has 1 c) hb A B rX1 hxM rS1 (fun v w => k0_pay11 v w) hA hB Q (out1 m c) (out2 m c)
    (dstM 1).view.set (dstC m c 1) (slot_load_subset hxM rS1 (fun _ => rfl) Facts₀.squeezes_S1x48x48_S48x48) rfl

/-- The landed face of direction 2 added onto the block's boundary plane on that side, or nothing where there is no neighbour. -/
theorem step_add2 (c : Dev nD) {b : Prop} [Decidable b] (hb : b ↔ has 2 c = true) (A : b → PROG F) (B : ¬b → PROG F)
    (hA : ∀ h, ∃ hl1 hl2 hl3 hx hm, A h = .op (.load oM rY0.toLoadRect hl1) fun v154 => .op (.load hyM rS0.toLoadRect hl2) fun v156 =>
      .op (.load oM rY0.toLoadRect hl3) fun _ => .op (.store oM rY0 (k0_pay12 v154 v156) Finset.univ hx hm) fun _ => .ret ⟨⟩)
    (hB : ∀ h, B h = .ret ⟨⟩) (Q : PUnit → sProp 𝕄) :
    iprop(oPts (F := F) c (out2 m c) ∗ cif (has 2 c) (slotPts c 2 (dstC m c 2)) iprop(emp)
        ∗ ((oPts (F := F) c (out3 m c) ∗ cif (has 2 c) (slotPts c 2 (dstC m c 2)) iprop(emp)) -∗ Q ⟨⟩))
      ⊢ wp frame (wpE (defs₀ (F := F)) 𝒱₀ (c : Thread nD τ) none) Set.univ (dite b A B) Q :=
  add_gen c (has 2 c) hb A B rY0 hyM rS0 (fun v w => k0_pay12 v w) hA hB Q (out2 m c) (out3 m c)
    (dstM 2).view.set (dstC m c 2) (slot_load_subset hyM rS0 (fun _ => rfl) Facts₀.squeezes_S1x48x48_S48x48) rfl

/-- The landed face of direction 3 added onto the block's boundary plane on that side, or nothing where there is no neighbour. -/
theorem step_add3 (c : Dev nD) {b : Prop} [Decidable b] (hb : b ↔ has 3 c = true) (A : b → PROG F) (B : ¬b → PROG F)
    (hA : ∀ h, ∃ hl1 hl2 hl3 hx hm, A h = .op (.load oM rY1.toLoadRect hl1) fun v154 => .op (.load hyM rS1.toLoadRect hl2) fun v156 =>
      .op (.load oM rY1.toLoadRect hl3) fun _ => .op (.store oM rY1 (k0_pay13 v154 v156) Finset.univ hx hm) fun _ => .ret ⟨⟩)
    (hB : ∀ h, B h = .ret ⟨⟩) (Q : PUnit → sProp 𝕄) :
    iprop(oPts (F := F) c (out3 m c) ∗ cif (has 3 c) (slotPts c 3 (dstC m c 3)) iprop(emp)
        ∗ ((oPts (F := F) c (out4 m c) ∗ cif (has 3 c) (slotPts c 3 (dstC m c 3)) iprop(emp)) -∗ Q ⟨⟩))
      ⊢ wp frame (wpE (defs₀ (F := F)) 𝒱₀ (c : Thread nD τ) none) Set.univ (dite b A B) Q :=
  add_gen c (has 3 c) hb A B rY1 hyM rS1 (fun v w => k0_pay13 v w) hA hB Q (out3 m c) (out4 m c)
    (dstM 3).view.set (dstC m c 3) (slot_load_subset hyM rS1 (fun _ => rfl) Facts₀.squeezes_S1x48x48_S48x48) rfl

/-- The landed face of direction 4 added onto the block's boundary plane on that side, or nothing where there is no neighbour. -/
theorem step_add4 (c : Dev nD) {b : Prop} [Decidable b] (hb : b ↔ has 4 c = true) (A : b → PROG F) (B : ¬b → PROG F)
    (hA : ∀ h, ∃ hl1 hl2 hl3 hx hm, A h = .op (.load oM rZ0.toLoadRect hl1) fun v154 => .op (.load hzM rS0.toLoadRect hl2) fun v156 =>
      .op (.load oM rZ0.toLoadRect hl3) fun _ => .op (.store oM rZ0 (k0_pay14 v154 v156) Finset.univ hx hm) fun _ => .ret ⟨⟩)
    (hB : ∀ h, B h = .ret ⟨⟩) (Q : PUnit → sProp 𝕄) :
    iprop(oPts (F := F) c (out4 m c) ∗ cif (has 4 c) (slotPts c 4 (dstC m c 4)) iprop(emp)
        ∗ ((oPts (F := F) c (out5 m c) ∗ cif (has 4 c) (slotPts c 4 (dstC m c 4)) iprop(emp)) -∗ Q ⟨⟩))
      ⊢ wp frame (wpE (defs₀ (F := F)) 𝒱₀ (c : Thread nD τ) none) Set.univ (dite b A B) Q :=
  add_gen c (has 4 c) hb A B rZ0 hzM rS0 (fun v w => k0_pay14 v w) hA hB Q (out4 m c) (out5 m c)
    (dstM 4).view.set (dstC m c 4) (slot_load_subset hzM rS0 (fun _ => rfl) Facts₀.squeezes_S1x48x48_S48x48) rfl

/-- The landed face of direction 5 added onto the block's boundary plane on that side, or nothing where there is no neighbour. -/
theorem step_add5 (c : Dev nD) {b : Prop} [Decidable b] (hb : b ↔ has 5 c = true) (A : b → PROG F) (B : ¬b → PROG F)
    (hA : ∀ h, ∃ hl1 hl2 hl3 hx hm, A h = .op (.load oM rZ1.toLoadRect hl1) fun v154 => .op (.load hzM rS1.toLoadRect hl2) fun v156 =>
      .op (.load oM rZ1.toLoadRect hl3) fun _ => .op (.store oM rZ1 (k0_pay15 v154 v156) Finset.univ hx hm) fun _ => .ret ⟨⟩)
    (hB : ∀ h, B h = .ret ⟨⟩) (Q : PUnit → sProp 𝕄) :
    iprop(oPts (F := F) c (out5 m c) ∗ cif (has 5 c) (slotPts c 5 (dstC m c 5)) iprop(emp)
        ∗ ((oPts (F := F) c (out6 m c) ∗ cif (has 5 c) (slotPts c 5 (dstC m c 5)) iprop(emp)) -∗ Q ⟨⟩))
      ⊢ wp frame (wpE (defs₀ (F := F)) 𝒱₀ (c : Thread nD τ) none) Set.univ (dite b A B) Q :=
  add_gen c (has 5 c) hb A B rZ1 hzM rS1 (fun v w => k0_pay15 v w) hA hB Q (out5 m c) (out6 m c)
    (dstM 5).view.set (dstC m c 5) (slot_load_subset hzM rS1 (fun _ => rfl) Facts₀.squeezes_S1x48x48_S48x48) rfl

/-- The block's boundary plane of direction 0 zeroed where the device has NO neighbour that way (the grid's outer frame). -/
theorem step_zero0 (c : Dev nD) {b : Prop} [Decidable b] (hb : b ↔ has 0 c = false) (A : b → PROG F) (B : ¬b → PROG F)
    (hA : ∀ h, ∃ hl hx hm, A h = .op (.load oM rX0.toLoadRect hl) fun _ => .op (.store oM rX0 (k0_pay16 (F := F)) Finset.univ hx hm) fun _ => .ret ⟨⟩)
    (hB : ∀ h, B h = .ret ⟨⟩) (Q : PUnit → sProp 𝕄) :
    iprop(oPts (F := F) c (out6 m c) ∗ (oPts (F := F) c (out7 m c) -∗ Q ⟨⟩))
      ⊢ wp frame (wpE (defs₀ (F := F)) 𝒱₀ (c : Thread nD τ) none) Set.univ (dite b A B) Q :=
  zero_gen c (has 0 c) hb A B rX0 (k0_pay16 (F := F)) hA hB Q (out6 m c) (out7 m c) rfl

/-- The block's boundary plane of direction 1 zeroed where the device has NO neighbour that way (the grid's outer frame). -/
theorem step_zero1 (c : Dev nD) {b : Prop} [Decidable b] (hb : b ↔ has 1 c = false) (A : b → PROG F) (B : ¬b → PROG F)
    (hA : ∀ h, ∃ hl hx hm, A h = .op (.load oM rX1.toLoadRect hl) fun _ => .op (.store oM rX1 (k0_pay17 (F := F)) Finset.univ hx hm) fun _ => .ret ⟨⟩)
    (hB : ∀ h, B h = .ret ⟨⟩) (Q : PUnit → sProp 𝕄) :
    iprop(oPts (F := F) c (out7 m c) ∗ (oPts (F := F) c (out8 m c) -∗ Q ⟨⟩))
      ⊢ wp frame (wpE (defs₀ (F := F)) 𝒱₀ (c : Thread nD τ) none) Set.univ (dite b A B) Q :=
  zero_gen c (has 1 c) hb A B rX1 (k0_pay17 (F := F)) hA hB Q (out7 m c) (out8 m c) rfl

/-- The block's boundary plane of direction 2 zeroed where the device has NO neighbour that way (the grid's outer frame). -/
theorem step_zero2 (c : Dev nD) {b : Prop} [Decidable b] (hb : b ↔ has 2 c = false) (A : b → PROG F) (B : ¬b → PROG F)
    (hA : ∀ h, ∃ hl hx hm, A h = .op (.load oM rY0.toLoadRect hl) fun _ => .op (.store oM rY0 (k0_pay18 (F := F)) Finset.univ hx hm) fun _ => .ret ⟨⟩)
    (hB : ∀ h, B h = .ret ⟨⟩) (Q : PUnit → sProp 𝕄) :
    iprop(oPts (F := F) c (out8 m c) ∗ (oPts (F := F) c (out9 m c) -∗ Q ⟨⟩))
      ⊢ wp frame (wpE (defs₀ (F := F)) 𝒱₀ (c : Thread nD τ) none) Set.univ (dite b A B) Q :=
  zero_gen c (has 2 c) hb A B rY0 (k0_pay18 (F := F)) hA hB Q (out8 m c) (out9 m c) rfl

/-- The block's boundary plane of direction 3 zeroed where the device has NO neighbour that way (the grid's outer frame). -/
theorem step_zero3 (c : Dev nD) {b : Prop} [Decidable b] (hb : b ↔ has 3 c = false) (A : b → PROG F) (B : ¬b → PROG F)
    (hA : ∀ h, ∃ hl hx hm, A h = .op (.load oM rY1.toLoadRect hl) fun _ => .op (.store oM rY1 (k0_pay19 (F := F)) Finset.univ hx hm) fun _ => .ret ⟨⟩)
    (hB : ∀ h, B h = .ret ⟨⟩) (Q : PUnit → sProp 𝕄) :
    iprop(oPts (F := F) c (out9 m c) ∗ (oPts (F := F) c (out10 m c) -∗ Q ⟨⟩))
      ⊢ wp frame (wpE (defs₀ (F := F)) 𝒱₀ (c : Thread nD τ) none) Set.univ (dite b A B) Q :=
  zero_gen c (has 3 c) hb A B rY1 (k0_pay19 (F := F)) hA hB Q (out9 m c) (out10 m c) rfl

/-- The block's boundary plane of direction 4 zeroed where the device has NO neighbour that way (the grid's outer frame). -/
theorem step_zero4 (c : Dev nD) {b : Prop} [Decidable b] (hb : b ↔ has 4 c = false) (A : b → PROG F) (B : ¬b → PROG F)
    (hA : ∀ h, ∃ hl hx hm, A h = .op (.load oM rZ0.toLoadRect hl) fun _ => .op (.store oM rZ0 (k0_pay20 (F := F)) Finset.univ hx hm) fun _ => .ret ⟨⟩)
    (hB : ∀ h, B h = .ret ⟨⟩) (Q : PUnit → sProp 𝕄) :
    iprop(oPts (F := F) c (out10 m c) ∗ (oPts (F := F) c (out11 m c) -∗ Q ⟨⟩))
      ⊢ wp frame (wpE (defs₀ (F := F)) 𝒱₀ (c : Thread nD τ) none) Set.univ (dite b A B) Q :=
  zero_gen c (has 4 c) hb A B rZ0 (k0_pay20 (F := F)) hA hB Q (out10 m c) (out11 m c) rfl

/-- The block's boundary plane of direction 5 zeroed where the device has NO neighbour that way (the grid's outer frame). -/
theorem step_zero5 (c : Dev nD) {b : Prop} [Decidable b] (hb : b ↔ has 5 c = false) (A : b → PROG F) (B : ¬b → PROG F)
    (hA : ∀ h, ∃ hl hx hm, A h = .op (.load oM rZ1.toLoadRect hl) fun _ => .op (.store oM rZ1 (k0_pay1 (F := F)) Finset.univ hx hm) fun _ => .ret ⟨⟩)
    (hB : ∀ h, B h = .ret ⟨⟩) (Q : PUnit → sProp 𝕄) :
    iprop(oPts (F := F) c (out11 m c) ∗ (oPts (F := F) c (outFinal m c) -∗ Q ⟨⟩))
      ⊢ wp frame (wpE (defs₀ (F := F)) 𝒱₀ (c : Thread nD τ) none) Set.univ (dite b A B) Q :=
  zero_gen c (has 5 c) hb A B rZ1 (k0_pay1 (F := F)) hA hB Q (out11 m c) (outFinal m c) rfl

end Cert.KernelIdeal.Halo

end
-- ==== Proof.Part5.lean ====
/-
  Part 5 of the body at a symbolic device: the receive wait of slot 5, the six landed faces added onto the block's
  boundary planes, and the boundary planes of directions 0 … 4 zeroed where they lie on the grid's outer frame.

  Every statement of the part is conditional on the device having (or not having) a neighbour in one direction, and
  what follows a conditional statement is shared by its two branches. Each statement is taken by one lemma that covers
  both branches, so the chain does not split: the wait turns the receive cell's credit into its round-1 position and the
  landing slot holding the neighbour's face; each addition reads a landing slot, split off its receive cell's state and
  put back after; each zeroing rewrites one plane of the result. The result's buffer runs through the stages
  out0 … out11.
-/
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.Parts0
import proofs.«900537_g7700000000000538_dist_halo3d_v7x_xyz2x4x4_s48_f32_1_alg».proof.Proof.StepWaits
import proofs.«900537_g7700000000000538_dist_halo3d_v7x_xyz2x4x4_s48_f32_1_alg».proof.Proof.StepAddZero

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## A conditional statement followed by the rest of the program

The printed program shares what follows a conditional statement between its two branches: the taken branch runs its
statement and goes on with the rest, the other goes on with the rest at once. That is the conditional statement, empty on
the branch not taken, followed by the rest. -/

/-- The shared continuation of a conditional statement, pulled out of its two branches. -/
theorem p5_wp_dite_bind (c : Dev nD) {b : Prop} [Decidable b] (A : b → PROG F) (rest : PROG F) (Q : PUnit → sProp 𝕄) :
    wp frame (wpE (defs₀ (F := F)) 𝒱₀ (c : Thread nD τ) none) Set.univ (dite b A (fun _ => (Prog.ret PUnit.unit : PROG F)))
        (fun _ => wp frame (wpE (defs₀ (F := F)) 𝒱₀ (c : Thread nD τ) none) Set.univ rest Q)
      ⊢ wp frame (wpE (defs₀ (F := F)) 𝒱₀ (c : Thread nD τ) none) Set.univ (dite b (fun h => A h >>= fun _ => rest) (fun _ => rest)) Q := by
  by_cases h : b
  · rw [dif_pos h, dif_pos h, wp_bind]
  · rw [dif_neg h, dif_neg h, wp_ret]; exact fupd_wp _ _ _ _ _

/-- One operation under the condition; -/
theorem p5_jp1 (c : Dev nD) {b : Prop} [Decidable b] {β : Type} (e : b → TpuEff nD τ sig (Elt F) Λ₀ .tc β) (rest : PROG F)
    (Q : PUnit → sProp 𝕄) :
    wp frame (wpE (defs₀ (F := F)) 𝒱₀ (c : Thread nD τ) none) Set.univ (dite b (fun h => .op (e h) fun _ => (Prog.ret PUnit.unit : PROG F)) (fun _ => (Prog.ret PUnit.unit : PROG F)))
        (fun _ => wp frame (wpE (defs₀ (F := F)) 𝒱₀ (c : Thread nD τ) none) Set.univ rest Q)
      ⊢ wp frame (wpE (defs₀ (F := F)) 𝒱₀ (c : Thread nD τ) none) Set.univ (dite b (fun h => .op (e h) fun _ => rest) (fun _ => rest)) Q :=
  p5_wp_dite_bind c (fun h => .op (e h) fun _ => (Prog.ret PUnit.unit : PROG F)) rest Q

/-- two, the second not reading the first's result; -/
theorem p5_jp2 (c : Dev nD) {b : Prop} [Decidable b] {β₁ β₂ : Type} (e₁ : b → TpuEff nD τ sig (Elt F) Λ₀ .tc β₁)
    (e₂ : b → TpuEff nD τ sig (Elt F) Λ₀ .tc β₂) (rest : PROG F) (Q : PUnit → sProp 𝕄) :
    wp frame (wpE (defs₀ (F := F)) 𝒱₀ (c : Thread nD τ) none) Set.univ
        (dite b (fun h => .op (e₁ h) fun _ => .op (e₂ h) fun _ => (Prog.ret PUnit.unit : PROG F)) (fun _ => (Prog.ret PUnit.unit : PROG F)))
        (fun _ => wp frame (wpE (defs₀ (F := F)) 𝒱₀ (c : Thread nD τ) none) Set.univ rest Q)
      ⊢ wp frame (wpE (defs₀ (F := F)) 𝒱₀ (c : Thread nD τ) none) Set.univ
        (dite b (fun h => .op (e₁ h) fun _ => .op (e₂ h) fun _ => rest) (fun _ => rest)) Q :=
  p5_wp_dite_bind c (fun h => .op (e₁ h) fun _ => .op (e₂ h) fun _ => (Prog.ret PUnit.unit : PROG F)) rest Q

/-- four, the last reading the first two results. -/
theorem p5_jp4 (c : Dev nD) {b : Prop} [Decidable b] {β₁ β₂ β₃ β₄ : Type} (e₁ : b → TpuEff nD τ sig (Elt F) Λ₀ .tc β₁)
    (e₂ : b → TpuEff nD τ sig (Elt F) Λ₀ .tc β₂) (e₃ : b → TpuEff nD τ sig (Elt F) Λ₀ .tc β₃)
    (e₄ : b → β₁ → β₂ → TpuEff nD τ sig (Elt F) Λ₀ .tc β₄) (rest : PROG F) (Q : PUnit → sProp 𝕄) :
    wp frame (wpE (defs₀ (F := F)) 𝒱₀ (c : Thread nD τ) none) Set.univ
        (dite b (fun h => .op (e₁ h) fun v₁ => .op (e₂ h) fun v₂ => .op (e₃ h) fun _ => .op (e₄ h v₁ v₂) fun _ => (Prog.ret PUnit.unit : PROG F)) (fun _ => (Prog.ret PUnit.unit : PROG F)))
        (fun _ => wp frame (wpE (defs₀ (F := F)) 𝒱₀ (c : Thread nD τ) none) Set.univ rest Q)
      ⊢ wp frame (wpE (defs₀ (F := F)) 𝒱₀ (c : Thread nD τ) none) Set.univ
        (dite b (fun h => .op (e₁ h) fun v₁ => .op (e₂ h) fun v₂ => .op (e₃ h) fun _ => .op (e₄ h v₁ v₂) fun _ => rest) (fun _ => rest)) Q :=
  p5_wp_dite_bind c (fun h => .op (e₁ h) fun v₁ => .op (e₂ h) fun v₂ => .op (e₃ h) fun _ => .op (e₄ h v₁ v₂) fun _ => (Prog.ret PUnit.unit : PROG F)) rest Q

/-- A receive cell after its wait is the owner's position and, apart, the landing slot where a face came. -/
theorem p5_rcvB_split (c : Dev nD) (d : Fin 6) :
    rcvB m c d ⊣⊢ iprop(cif (has d c) (atPos ER (recvCell c d) 1 ∅ 0) (atPos ER (recvCell c d) 0 ∅ 0)
      ∗ cif (has d c) (slotPts c d (dstC m c d)) iprop(emp)) := by
  unfold rcvB cif
  by_cases h : has d c = true
  · rw [if_pos h, if_pos h, if_pos h]
  · rw [if_neg h, if_neg h, if_neg h]; exact sep_emp.symm

/-- What the receive wait hands back is the receive cell's state after its wait. -/
theorem p5_rcvB_fold (c : Dev nD) (d : Fin 6) :
    cif (has d c) iprop(atPos ER (recvCell c d) 1 ∅ 0 ∗ slotPts c d (dstC m c d)) (atPos ER (recvCell c d) 0 ∅ 0) ⊢ rcvB m c d := by
  unfold rcvB; exact .rfl

set_option maxHeartbeats 4000000 in
/-- Part 5 (the receive wait of slot 5; the six landed faces added; the outer frame's planes of directions 0 … 4 zeroed). -/
theorem part5_spec (c : Dev nD) (v2 v5 v8 v110 : BitVec 32) (hv110 : v110 = Scalar.extui (fb 5 c)) (Kt : PUnit → sProp 𝕄) :
    iprop(records m K ∗ owesE c 0 ∗ oPts (F := F) c (out0 m c) ∗ rcvA (F := F) c 5
        ∗ rcvB m c 0 ∗ rcvB m c 1 ∗ rcvB m c 2 ∗ rcvB m c 3 ∗ rcvB m c 4
        ∗ ((owesE c 0 ∗ oPts (F := F) c (out11 m c) ∗ rcvB m c 0 ∗ rcvB m c 1 ∗ rcvB m c 2 ∗ rcvB m c 3 ∗ rcvB m c 4 ∗ rcvB m c 5) -∗ Kt ⟨⟩))
      ⊢ wp frame (wpE (defs₀ (F := F)) 𝒱₀ (c : Thread nD τ) none) Set.univ (part5 (F := F) v2 v5 v8 (fb 0 c) (fb 1 c) (fb 2 c) (fb 3 c) (fb 4 c) (fb 5 c) v110) Kt := by
  subst hv110
  unfold part5
  rw [k0_part5_eq_skeleton]; unfold k0_part5_skel
  unfold rcvA
  iintro ⟨#HR, HO, Hout, ⟨Hat5, Hc5⟩, HB0, HB1, HB2, HB3, HB4, Hk⟩
  -- the receive wait of slot 5
  iapply (p5_jp1 c _ _ _)
  iapply (step_rwait m K c 5 (fb_cond 5 c) _ _ (fun h => ⟨_, _, rfl⟩) (fun h => rfl) _)
  isplitl []; · iexact HR
  isplitl [HO]; · iexact HO
  isplitl [Hat5]; · iexact Hat5
  isplitl [Hc5]; · iexact Hc5
  iintro ⟨HO, HB5⟩
  ihave HB5 := (p5_rcvB_fold m c 5) $$ HB5
  -- the landed face of direction 0 added
  iapply (p5_jp4 c _ _ _ _ _ _)
  icases (p5_rcvB_split m c 0).1 $$ HB0 with ⟨Hp0, Hs0⟩
  iapply (step_add0 m c (fb_cond 0 c) _ _ (fun h => ⟨_, _, _, _, _, rfl⟩) (fun h => rfl) _)
  isplitl [Hout]; · iexact Hout
  isplitl [Hs0]; · iexact Hs0
  iintro ⟨Hout, Hs0⟩
  ihave HB0 := (p5_rcvB_split m c 0).2 $$ [Hp0 Hs0]
  · isplitl [Hp0]; · iexact Hp0
    iexact Hs0
  -- the landed face of direction 1 added
  iapply (p5_jp4 c _ _ _ _ _ _)
  icases (p5_rcvB_split m c 1).1 $$ HB1 with ⟨Hp1, Hs1⟩
  iapply (step_add1 m c (fb_cond 1 c) _ _ (fun h => ⟨_, _, _, _, _, rfl⟩) (fun h => rfl) _)
  isplitl [Hout]; · iexact Hout
  isplitl [Hs1]; · iexact Hs1
  iintro ⟨Hout, Hs1⟩
  ihave HB1 := (p5_rcvB_split m c 1).2 $$ [Hp1 Hs1]
  · isplitl [Hp1]; · iexact Hp1
    iexact Hs1
  -- the landed face of direction 2 added
  iapply (p5_jp4 c _ _ _ _ _ _)
  icases (p5_rcvB_split m c 2).1 $$ HB2 with ⟨Hp2, Hs2⟩
  iapply (step_add2 m c (fb_cond 2 c) _ _ (fun h => ⟨_, _, _, _, _, rfl⟩) (fun h => rfl) _)
  isplitl [Hout]; · iexact Hout
  isplitl [Hs2]; · iexact Hs2
  iintro ⟨Hout, Hs2⟩
  ihave HB2 := (p5_rcvB_split m c 2).2 $$ [Hp2 Hs2]
  · isplitl [Hp2]; · iexact Hp2
    iexact Hs2
  -- the landed face of direction 3 added
  iapply (p5_jp4 c _ _ _ _ _ _)
  icases (p5_rcvB_split m c 3).1 $$ HB3 with ⟨Hp3, Hs3⟩
  iapply (step_add3 m c (fb_cond 3 c) _ _ (fun h => ⟨_, _, _, _, _, rfl⟩) (fun h => rfl) _)
  isplitl [Hout]; · iexact Hout
  isplitl [Hs3]; · iexact Hs3
  iintro ⟨Hout, Hs3⟩
  ihave HB3 := (p5_rcvB_split m c 3).2 $$ [Hp3 Hs3]
  · isplitl [Hp3]; · iexact Hp3
    iexact Hs3
  -- the landed face of direction 4 added
  iapply (p5_jp4 c _ _ _ _ _ _)
  icases (p5_rcvB_split m c 4).1 $$ HB4 with ⟨Hp4, Hs4⟩
  iapply (step_add4 m c (fb_cond 4 c) _ _ (fun h => ⟨_, _, _, _, _, rfl⟩) (fun h => rfl) _)
  isplitl [Hout]; · iexact Hout
  isplitl [Hs4]; · iexact Hs4
  iintro ⟨Hout, Hs4⟩
  ihave HB4 := (p5_rcvB_split m c 4).2 $$ [Hp4 Hs4]
  · isplitl [Hp4]; · iexact Hp4
    iexact Hs4
  -- the landed face of direction 5 added
  iapply (p5_jp4 c _ _ _ _ _ _)
  icases (p5_rcvB_split m c 5).1 $$ HB5 with ⟨Hp5, Hs5⟩
  iapply (step_add5 m c (fb_cond 5 c) _ _ (fun h => ⟨_, _, _, _, _, rfl⟩) (fun h => rfl) _)
  isplitl [Hout]; · iexact Hout
  isplitl [Hs5]; · iexact Hs5
  iintro ⟨Hout, Hs5⟩
  ihave HB5 := (p5_rcvB_split m c 5).2 $$ [Hp5 Hs5]
  · isplitl [Hp5]; · iexact Hp5
    iexact Hs5
  -- the outer frame's plane of direction 0 zeroed
  iapply (p5_jp2 c _ _ _ _)
  iapply (step_zero0 m c (fb_ncond 0 c) _ _ (fun h => ⟨_, _, _, rfl⟩) (fun h => rfl) _)
  isplitl [Hout]; · iexact Hout
  iintro Hout
  -- the outer frame's plane of direction 1 zeroed
  iapply (p5_jp2 c _ _ _ _)
  iapply (step_zero1 m c (fb_ncond 1 c) _ _ (fun h => ⟨_, _, _, rfl⟩) (fun h => rfl) _)
  isplitl [Hout]; · iexact Hout
  iintro Hout
  -- the outer frame's plane of direction 2 zeroed
  iapply (p5_jp2 c _ _ _ _)
  iapply (step_zero2 m c (fb_ncond 2 c) _ _ (fun h => ⟨_, _, _, rfl⟩) (fun h => rfl) _)
  isplitl [Hout]; · iexact Hout
  iintro Hout
  -- the outer frame's plane of direction 3 zeroed
  iapply (p5_jp2 c _ _ _ _)
  iapply (step_zero3 m c (fb_ncond 3 c) _ _ (fun h => ⟨_, _, _, rfl⟩) (fun h => rfl) _)
  isplitl [Hout]; · iexact Hout
  iintro Hout
  -- the outer frame's plane of direction 4 zeroed
  iapply (p5_jp2 c _ _ _ _)
  iapply (step_zero4 m c (fb_ncond 4 c) _ _ (fun h => ⟨_, _, _, rfl⟩) (fun h => rfl) _)
  isplitl [Hout]; · iexact Hout
  iintro Hout
  -- the part returns
  rw [wp_pure]; imodintro
  iapply Hk
  isplitl [HO]; · iexact HO
  isplitl [Hout]; · iexact Hout
  isplitl [HB0]; · iexact HB0
  isplitl [HB1]; · iexact HB1
  isplitl [HB2]; · iexact HB2
  isplitl [HB3]; · iexact HB3
  isplitl [HB4]; · iexact HB4
  iexact HB5

end Cert.KernelIdeal.Halo

end
-- ==== Proof.Ghost.lean ====
/-
  Cutting whole-buffer points-to assertions into the pieces the transfers lend, and joining them again.

  A two-slot 2 × 48 × 48 buffer is its two 1 × 48 × 48 halves: they are disjoint (separated on the first axis) and
  cover the buffer (a first coordinate is 0 or 1). So a landing buffer, whole, is its two slots, and the z staging
  buffer, whole, is the sources of the two staged faces. The four faces cut from the block itself overlap along the
  block's edges; each is lent at its own quarter of the full share, so the block, whole, is the four quarter shares of
  the whole buffer, each cut into its face and the face's complement.
-/
import proofs.«900537_g7700000000000538_dist_halo3d_v7x_xyz2x4x4_s48_f32_1_alg».proof.Proof.Asserts
import Idealize.ShloMosaic.Rules.PointsTo

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## The two halves of a two-slot buffer -/

/-- The two 1 × 48 × 48 rectangles of a 2 × 48 × 48 buffer. -/
abbrev r0 : Rect S2x48x48 := Rect.unit (s := S2x48x48) ![0, 0, 0] S1x48x48.size Facts₀.inb_S2x48x48_S1x48x48_0_0_0
abbrev r1 : Rect S2x48x48 := Rect.unit (s := S2x48x48) ![1, 0, 0] S1x48x48.size Facts₀.inb_S2x48x48_S1x48x48_1_0_0

/-- They are separated on the first axis, -/
theorem r01_disj : Disjoint r0.set r1.set := Rect.unit_disjoint 0 (Or.inl (by decide))

/-- and every index lies in one of them: its first coordinate is 0 or 1. -/
theorem r01_union : r0.set ∪ r1.set = Finset.univ := by
  ext i
  simp only [Finset.mem_union, Rect.mem_set_unit, Finset.mem_univ, iff_true]
  have h0 : (i 0 : ℕ) < 2 := (i 0).isLt
  have h1 : (i 1 : ℕ) < 48 := (i 1).isLt
  have h2 : (i 2 : ℕ) < 48 := (i 2).isLt
  rcases Nat.lt_or_ge (i 0 : ℕ) 1 with h | h
  · left
    intro a
    match a with
    | 0 => show (0:ℕ) ≤ (i 0 : ℕ) ∧ (i 0 : ℕ) < 0 + 1; omega
    | 1 => show (0:ℕ) ≤ (i 1 : ℕ) ∧ (i 1 : ℕ) < 0 + 48; omega
    | 2 => show (0:ℕ) ≤ (i 2 : ℕ) ∧ (i 2 : ℕ) < 0 + 48; omega
  · right
    intro a
    match a with
    | 0 => show (1:ℕ) ≤ (i 0 : ℕ) ∧ (i 0 : ℕ) < 1 + 1; omega
    | 1 => show (0:ℕ) ≤ (i 1 : ℕ) ∧ (i 1 : ℕ) < 0 + 48; omega
    | 2 => show (0:ℕ) ≤ (i 2 : ℕ) ∧ (i 2 : ℕ) < 0 + 48; omega

/-- The elements under each landing slot and under each staged source are those rectangles of their buffers: a squeeze
    keeps a view's elements, and a slice of a whole buffer has its rectangle's. -/
theorem set_dst0 : (dstM 0).view.set = r0.set := (View.set_reshape _ _).trans (View.set_slice_whole _ _)
theorem set_dst1 : (dstM 1).view.set = r1.set := (View.set_reshape _ _).trans (View.set_slice_whole _ _)
theorem set_dst2 : (dstM 2).view.set = r0.set := (View.set_reshape _ _).trans (View.set_slice_whole _ _)
theorem set_dst3 : (dstM 3).view.set = r1.set := (View.set_reshape _ _).trans (View.set_slice_whole _ _)
theorem set_dst4 : (dstM 4).view.set = r0.set := (View.set_reshape _ _).trans (View.set_slice_whole _ _)
theorem set_dst5 : (dstM 5).view.set = r1.set := (View.set_reshape _ _).trans (View.set_slice_whole _ _)
theorem set_src4 : (srcM 4).view.set = r1.set := (View.set_reshape _ _).trans (View.set_slice_whole _ _)
theorem set_src5 : (srcM 5).view.set = r0.set := (View.set_reshape _ _).trans (View.set_slice_whole _ _)

/-! ## The landing buffers -/

/-- A two-slot landing buffer, whole at any contents, is its two slots; -/
theorem hx_split (c : Dev nD) (f : Buf (Elt F) ((c : Thread nD τ).loc cc0_scratch0)) :
    (((c : Thread nD τ).loc cc0_scratch0) ↦{fullShare} f : sProp 𝕄) ⊢ iprop(slotAny (F := F) c 0 ∗ slotAny (F := F) c 1) := by
  have hd : Disjoint (dstM 0).view.set (dstM 1).view.set := by rw [set_dst0, set_dst1]; exact r01_disj
  have hu : (dstM 0).view.set ∪ (dstM 1).view.set = Finset.univ := by rw [set_dst0, set_dst1]; exact r01_union
  have h := pointsTo_union (Val := Elt F) (U := UU) (Ix := Unit) (Name := ℕ) (Lvl := ℕ)
    (ℓ := (c : Thread nD τ).loc cc0_scratch0) (q := fullShare) (f := f) hd
  rw [hu] at h
  unfold slotAny slotPts
  iintro H
  ihave H := h.1 $$ H
  icases H with ⟨H0, H1⟩
  isplitl [H0]
  · iexists f; iexact H0
  · iexists f; iexact H1

theorem hy_split (c : Dev nD) (f : Buf (Elt F) ((c : Thread nD τ).loc cc0_scratch1)) :
    (((c : Thread nD τ).loc cc0_scratch1) ↦{fullShare} f : sProp 𝕄) ⊢ iprop(slotAny (F := F) c 2 ∗ slotAny (F := F) c 3) := by
  have hd : Disjoint (dstM 2).view.set (dstM 3).view.set := by rw [set_dst2, set_dst3]; exact r01_disj
  have hu : (dstM 2).view.set ∪ (dstM 3).view.set = Finset.univ := by rw [set_dst2, set_dst3]; exact r01_union
  have h := pointsTo_union (Val := Elt F) (U := UU) (Ix := Unit) (Name := ℕ) (Lvl := ℕ)
    (ℓ := (c : Thread nD τ).loc cc0_scratch1) (q := fullShare) (f := f) hd
  rw [hu] at h
  unfold slotAny slotPts
  iintro H
  ihave H := h.1 $$ H
  icases H with ⟨H0, H1⟩
  isplitl [H0]
  · iexists f; iexact H0
  · iexists f; iexact H1

theorem hz_split (c : Dev nD) (f : Buf (Elt F) ((c : Thread nD τ).loc cc0_scratch2)) :
    (((c : Thread nD τ).loc cc0_scratch2) ↦{fullShare} f : sProp 𝕄) ⊢ iprop(slotAny (F := F) c 4 ∗ slotAny (F := F) c 5) := by
  have hd : Disjoint (dstM 4).view.set (dstM 5).view.set := by rw [set_dst4, set_dst5]; exact r01_disj
  have hu : (dstM 4).view.set ∪ (dstM 5).view.set = Finset.univ := by rw [set_dst4, set_dst5]; exact r01_union
  have h := pointsTo_union (Val := Elt F) (U := UU) (Ix := Unit) (Name := ℕ) (Lvl := ℕ)
    (ℓ := (c : Thread nD τ).loc cc0_scratch2) (q := fullShare) (f := f) hd
  rw [hu] at h
  unfold slotAny slotPts
  iintro H
  ihave H := h.1 $$ H
  icases H with ⟨H0, H1⟩
  isplitl [H0]
  · iexists f; iexact H0
  · iexists f; iexact H1

/-- and two slots at any contents are the buffer whole at some contents: the one that is the first slot's on the first
    half and the second slot's on the second. -/
theorem hx_join (c : Dev nD) :
    iprop(slotAny (F := F) c 0 ∗ slotAny (F := F) c 1) ⊢ iprop(∃ f : Buf (Elt F) ((c : Thread nD τ).loc cc0_scratch0), ((c : Thread nD τ).loc cc0_scratch0) ↦{fullShare} f) := by
  have hd : Disjoint (dstM 0).view.set (dstM 1).view.set := by rw [set_dst0, set_dst1]; exact r01_disj
  have hu : (dstM 0).view.set ∪ (dstM 1).view.set = Finset.univ := by rw [set_dst0, set_dst1]; exact r01_union
  unfold slotAny slotPts
  iintro ⟨⟨%f, H0⟩, ⟨%g, H1⟩⟩
  have h := pointsTo_join (Val := Elt F) (U := UU) (Ix := Unit) (Name := ℕ) (Lvl := ℕ)
    (ℓ := (c : Thread nD τ).loc cc0_scratch0) (q := fullShare) (f := f) (g := g) hd
  rw [hu] at h
  iexists ((dstM 1).view.set.piecewise g f)
  iapply h
  isplitl [H0]
  · iexact H0
  · iexact H1

theorem hy_join (c : Dev nD) :
    iprop(slotAny (F := F) c 2 ∗ slotAny (F := F) c 3) ⊢ iprop(∃ f : Buf (Elt F) ((c : Thread nD τ).loc cc0_scratch1), ((c : Thread nD τ).loc cc0_scratch1) ↦{fullShare} f) := by
  have hd : Disjoint (dstM 2).view.set (dstM 3).view.set := by rw [set_dst2, set_dst3]; exact r01_disj
  have hu : (dstM 2).view.set ∪ (dstM 3).view.set = Finset.univ := by rw [set_dst2, set_dst3]; exact r01_union
  unfold slotAny slotPts
  iintro ⟨⟨%f, H0⟩, ⟨%g, H1⟩⟩
  have h := pointsTo_join (Val := Elt F) (U := UU) (Ix := Unit) (Name := ℕ) (Lvl := ℕ)
    (ℓ := (c : Thread nD τ).loc cc0_scratch1) (q := fullShare) (f := f) (g := g) hd
  rw [hu] at h
  iexists ((dstM 3).view.set.piecewise g f)
  iapply h
  isplitl [H0]
  · iexact H0
  · iexact H1

theorem hz_join (c : Dev nD) :
    iprop(slotAny (F := F) c 4 ∗ slotAny (F := F) c 5) ⊢ iprop(∃ f : Buf (Elt F) ((c : Thread nD τ).loc cc0_scratch2), ((c : Thread nD τ).loc cc0_scratch2) ↦{fullShare} f) := by
  have hd : Disjoint (dstM 4).view.set (dstM 5).view.set := by rw [set_dst4, set_dst5]; exact r01_disj
  have hu : (dstM 4).view.set ∪ (dstM 5).view.set = Finset.univ := by rw [set_dst4, set_dst5]; exact r01_union
  unfold slotAny slotPts
  iintro ⟨⟨%f, H0⟩, ⟨%g, H1⟩⟩
  have h := pointsTo_join (Val := Elt F) (U := UU) (Ix := Unit) (Name := ℕ) (Lvl := ℕ)
    (ℓ := (c : Thread nD τ).loc cc0_scratch2) (q := fullShare) (f := f) (g := g) hd
  rw [hu] at h
  iexists ((dstM 5).view.set.piecewise g f)
  iapply h
  isplitl [H0]
  · iexact H0
  · iexact H1

/-- A slot holding a face is a slot at some contents. -/
theorem slotAny_of (c : Dev nD) (i : Fin 6) (f) : slotPts (F := F) c i f ⊢ slotAny (F := F) c i := by
  unfold slotAny
  iintro H
  iexists f
  iexact H

/-! ## The z staging buffer -/

/-- The z staging buffer, whole, is the two staged faces' sources (each lent whole); -/
theorem zs_split (c : Dev nD) :
    (((c : Thread nD τ).loc cc0_scratch3) ↦{fullShare} zsC m c : sProp 𝕄) ⊣⊢ iprop(srcPts c 4 (srcC m c 4) ∗ srcPts c 5 (srcC m c 5)) := by
  have hd : Disjoint (srcM 4).view.set (srcM 5).view.set := by rw [set_src4, set_src5]; exact r01_disj.symm
  have hu : (srcM 4).view.set ∪ (srcM 5).view.set = Finset.univ := by
    rw [set_src4, set_src5, Finset.union_comm]; exact r01_union
  have h := pointsTo_union (Val := Elt F) (U := UU) (Ix := Unit) (Name := ℕ) (Lvl := ℕ)
    (ℓ := (c : Thread nD τ).loc cc0_scratch3) (q := fullShare) (f := zsC m c) hd
  rw [hu] at h
  exact h

/-! ## The block's buffer -/

/-- What is left of the block's buffer once the four face sources are lent at their quarter shares. -/
def uRest (c : Dev nD) : sProp 𝕄 :=
  iprop((((c : Thread nD τ).loc cc0_stg0_0) ↦[Finset.univ \ (srcM 0).view.set]{qS 0} xstg m c) ∗ (((c : Thread nD τ).loc cc0_stg0_0) ↦[Finset.univ \ (srcM 1).view.set]{qS 1} xstg m c)
    ∗ (((c : Thread nD τ).loc cc0_stg0_0) ↦[Finset.univ \ (srcM 2).view.set]{qS 2} xstg m c) ∗ (((c : Thread nD τ).loc cc0_stg0_0) ↦[Finset.univ \ (srcM 3).view.set]{qS 3} xstg m c))

/-- One quarter share of the whole block is the face lent at that share and the face's complement. -/
theorem u_quarter (c : Dev nD) (I : Finset (Idx ((c : Thread nD τ).loc cc0_stg0_0))) (q q' : PosShare TreeShare) (hq : q = q') :
    ((((c : Thread nD τ).loc cc0_stg0_0) ↦{q'} xstg m c : sProp 𝕄))
      ⊣⊢ iprop((((c : Thread nD τ).loc cc0_stg0_0) ↦[I]{q} xstg m c) ∗ (((c : Thread nD τ).loc cc0_stg0_0) ↦[Finset.univ \ I]{q} xstg m c)) := by
  subst hq
  exact pointsTo_split_subset (Finset.subset_univ I)

/-- the block's buffer, whole, is the four overlapping face sources at a quarter share each, and the rest. -/
theorem u_split (c : Dev nD) :
    uPts m c ⊣⊢ iprop(srcPts c 0 (srcC m c 0) ∗ srcPts c 1 (srcC m c 1) ∗ srcPts c 2 (srcC m c 2) ∗ srcPts c 3 (srcC m c 3) ∗ uRest m c) := by
  have hF := pointsTo_share (Val := Elt F) (U := UU) (Ix := Unit) (Name := ℕ) (Lvl := ℕ)
    (ℓ := (c : Thread nD τ).loc cc0_stg0_0) (I := Finset.univ) (f := xstg m c) (PosShare.mem_left_op_right fullShare)
  have hL := pointsTo_share (Val := Elt F) (U := UU) (Ix := Unit) (Name := ℕ) (Lvl := ℕ)
    (ℓ := (c : Thread nD τ).loc cc0_stg0_0) (I := Finset.univ) (f := xstg m c) (PosShare.mem_left_op_right fullShare.left)
  have hR := pointsTo_share (Val := Elt F) (U := UU) (Ix := Unit) (Name := ℕ) (Lvl := ℕ)
    (ℓ := (c : Thread nD τ).loc cc0_stg0_0) (I := Finset.univ) (f := xstg m c) (PosShare.mem_left_op_right fullShare.right)
  have s0 := u_quarter m c (srcM 0).view.set (qS 0) fullShare.left.left rfl
  have s1 := u_quarter m c (srcM 1).view.set (qS 1) fullShare.left.right rfl
  have s2 := u_quarter m c (srcM 2).view.set (qS 2) fullShare.right.left rfl
  have s3 := u_quarter m c (srcM 3).view.set (qS 3) fullShare.right.right rfl
  unfold uPts uRest srcPts
  constructor
  · iintro H
    ihave H := hF.1 $$ H
    icases H with ⟨HL, HR⟩
    ihave HL := hL.1 $$ HL
    icases HL with ⟨H0, H1⟩
    ihave HR := hR.1 $$ HR
    icases HR with ⟨H2, H3⟩
    ihave H0 := s0.1 $$ H0
    icases H0 with ⟨A0, R0⟩
    ihave H1 := s1.1 $$ H1
    icases H1 with ⟨A1, R1⟩
    ihave H2 := s2.1 $$ H2
    icases H2 with ⟨A2, R2⟩
    ihave H3 := s3.1 $$ H3
    icases H3 with ⟨A3, R3⟩
    isplitl [A0]
    · iexact A0
    isplitl [A1]
    · iexact A1
    isplitl [A2]
    · iexact A2
    isplitl [A3]
    · iexact A3
    isplitl [R0]
    · iexact R0
    isplitl [R1]
    · iexact R1
    isplitl [R2]
    · iexact R2
    · iexact R3
  · iintro ⟨A0, A1, A2, A3, R0, R1, R2, R3⟩
    iapply hF.2
    isplitl [A0 R0 A1 R1]
    · iapply hL.2
      isplitl [A0 R0]
      · iapply s0.2
        isplitl [A0]
        · iexact A0
        · iexact R0
      · iapply s1.2
        isplitl [A1]
        · iexact A1
        · iexact R1
    · iapply hR.2
      isplitl [A2 R2]
      · iapply s2.2
        isplitl [A2]
        · iexact A2
        · iexact R2
      · iapply s3.2
        isplitl [A3]
        · iexact A3
        · iexact R3

end Cert.KernelIdeal.Halo

end
-- ==== Proof.Body.lean ====
/-
  The body obligation of one device of the halo exchange.

  The body is five parts and a tail, run at a symbolic device `c`; every conditional statement is one step that covers
  both branches, so the chain never splits. Before part 1 the three landing buffers are cut into the six landing slots
  (each entry signal hands one over). After part 2 the block's buffer is cut into the four face sources, each at a quarter
  of the full share, and the z staging buffer into its two staged faces: the six transfers of part 3 lend them. Parts 4
  and 5 wait for the six faces and add them; the tail zeroes the last plane of the grid's outer frame and waits for the
  six sends. At the end every source face is back (handed back by its send wait where the transfer was started, never lent
  where it was not) and every landing slot is back (holding the neighbour's face, or never handed over), so the buffers are
  whole again; each of the twelve transfer cells has its owner past its only round, or at round 0 of a cell without a
  duty, and closes with its counter at zero. The barrier cell's position and the tokens of duties nobody has are dropped.
-/
import proofs.«900537_g7700000000000538_dist_halo3d_v7x_xyz2x4x4_s48_f32_1_alg».proof.Proof.Body0
import proofs.«900537_g7700000000000538_dist_halo3d_v7x_xyz2x4x4_s48_f32_1_alg».proof.Proof.Parts0
import proofs.«900537_g7700000000000538_dist_halo3d_v7x_xyz2x4x4_s48_f32_1_alg».proof.Proof.Part1
import proofs.«900537_g7700000000000538_dist_halo3d_v7x_xyz2x4x4_s48_f32_1_alg».proof.Proof.Part2
import proofs.«900537_g7700000000000538_dist_halo3d_v7x_xyz2x4x4_s48_f32_1_alg».proof.Proof.Part3
import proofs.«900537_g7700000000000538_dist_halo3d_v7x_xyz2x4x4_s48_f32_1_alg».proof.Proof.Part4
import proofs.«900537_g7700000000000538_dist_halo3d_v7x_xyz2x4x4_s48_f32_1_alg».proof.Proof.Part5
import proofs.«900537_g7700000000000538_dist_halo3d_v7x_xyz2x4x4_s48_f32_1_alg».proof.Proof.StepAddZero
import proofs.«900537_g7700000000000538_dist_halo3d_v7x_xyz2x4x4_s48_f32_1_alg».proof.Proof.StepWaits
import proofs.«900537_g7700000000000538_dist_halo3d_v7x_xyz2x4x4_s48_f32_1_alg».proof.Proof.Ghost

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## The conditional statement followed by the rest of the program -/

/-- A conditional statement followed by the rest of the program, as the program text has it (the rest repeated in both
    branches): its weakest precondition is that of the conditional statement alone, with the rest's as postcondition. -/
theorem body_wp_dite_rest {Ef : Type → Type} {M : Type} [URA M] {Mask : Type}
    (Fr : Mask → sProp M) (wE : Mask → ∀ ⦃β : Type⦄, Ef β → sWPT M β) (E : Mask) {α : Type}
    {b : Prop} [Decidable b] (A : b → Prog Ef PUnit) (rest : Prog Ef α) (Q : α → sProp M) :
    wp Fr wE E (dite b (fun h => A h >>= fun _ => rest) (fun _ => rest)) Q
      = wp Fr wE E (dite b A (fun _ => Prog.ret PUnit.unit)) (fun _ => wp Fr wE E rest Q) := by
  by_cases h : b
  · rw [dif_pos h, dif_pos h, wp_bind]
  · rw [dif_neg h, dif_neg h, wp_ret, fupd_wp_eq]

/-! ## Ghost steps between the parts -/

/-- The send cell's credit (where the transfer was started) apart from what was never lent (where it was not). -/
theorem body_sndB_split (c : Dev nD) (i : Fin 6) :
    sndB m c i ⊢ iprop(cif (has (opp i) c) (cred (tallyAt (sendCell c i) () N)) iprop(emp) ∗ cif (has (opp i) c) iprop(emp) (sndA m c i)) := by
  unfold sndB cif
  by_cases h : has (opp i) c = true
  · rw [if_pos h, if_pos h, if_pos h]; iintro H; isplitl [H]; · iexact H
    iempintro
  · rw [if_neg h, if_neg h, if_neg h]; iintro H; isplitr [H]; · iempintro
    iexact H

/-- After its send wait the source of transfer `i` is back either way: handed back by the wait, or never lent. -/
theorem body_src_back (c : Dev nD) (i : Fin 6) :
    sndC m c i ⊢ iprop(cif (has (opp i) c) (atPos ER (sendCell c i) 1 ∅ 0) (atPos ER (sendCell c i) 0 ∅ 0) ∗ srcPts c i (srcC m c i)) := by
  unfold sndC sndA cif
  by_cases h : has (opp i) c = true
  · rw [if_pos h, if_pos h, if_pos h]; iintro ⟨⟨Hat, Hs⟩, -⟩; isplitl [Hat]; · iexact Hat
    iexact Hs
  · rw [if_neg h, if_neg h, if_neg h]; iintro ⟨Hat, -, -, Hs⟩; isplitl [Hat]; · iexact Hat
    iexact Hs

/-- After its receive wait landing slot `d` is back either way: holding the neighbour's face, or never handed over. -/
theorem body_slot_back (c : Dev nD) (d : Fin 6) :
    iprop(rcvB m c d ∗ dirB (F := F) c d) ⊢ iprop(cif (has d c) (atPos ER (recvCell c d) 1 ∅ 0) (atPos ER (recvCell c d) 0 ∅ 0) ∗ slotAny (F := F) c d) := by
  unfold rcvB dirB dirA cif
  by_cases h : has d c = true
  · rw [if_pos h, if_pos h, if_pos h]; iintro ⟨⟨Hat, Hs⟩, -⟩; isplitl [Hat]; · iexact Hat
    iapply (slotAny_of c d _); iexact Hs
  · rw [if_neg h, if_neg h, if_neg h]; iintro ⟨Hat, -, Hs⟩; isplitl [Hat]; · iexact Hat
    iexact Hs

/-- The same for a conditional statement of two operations. -/
theorem body_wp_dite_rest2 {Ef : Type → Type} {M : Type} [URA M] {Mask : Type}
    (Fr : Mask → sProp M) (wE : Mask → ∀ ⦃β : Type⦄, Ef β → sWPT M β) (E : Mask) {α β : Type}
    {b : Prop} [Decidable b] (A₁ : b → Prog Ef β) (A₂ : b → β → Prog Ef PUnit) (rest : Prog Ef α) (Q : α → sProp M) :
    wp Fr wE E (dite b (fun h => A₁ h >>= fun x => A₂ h x >>= fun _ => rest) (fun _ => rest)) Q
      = wp Fr wE E (dite b (fun h => A₁ h >>= fun x => A₂ h x) (fun _ => Prog.ret PUnit.unit)) (fun _ => wp Fr wE E rest Q) := by
  by_cases h : b
  · rw [dif_pos h, dif_pos h]; simp only [wp_bind]
  · rw [dif_neg h, dif_neg h, wp_ret, fupd_wp_eq]

/-- The ghost step at the end of the body: every source face and every landing slot is back, so the block's buffer and the
    four scratch buffers are whole again, and each of the twelve transfer cells, its owner past its only round or at
    round 0 of a cell with no duty, closes with its counter at zero. -/
theorem body_close (c : Dev nD) :
    iprop(records m K
        ∗ (sndC m c 0 ∗ sndC m c 1 ∗ sndC m c 2 ∗ sndC m c 3 ∗ sndC m c 4 ∗ sndC m c 5) ∗ uRest m c
        ∗ (rcvB m c 0 ∗ rcvB m c 1 ∗ rcvB m c 2 ∗ rcvB m c 3 ∗ rcvB m c 4 ∗ rcvB m c 5)
        ∗ (dirB (F := F) c 0 ∗ dirB (F := F) c 1 ∗ dirB (F := F) c 2 ∗ dirB (F := F) c 3 ∗ dirB (F := F) c 4 ∗ dirB (F := F) c 5))
      ⊢ |={Set.univ}=> (iprop(Φ₁ (F := F) c ∗ uPts m c) : sProp 𝕄) := by
  unfold Φ₁ scr
  rw [bigSep_fin6, bigSep_fin6]
  iintro ⟨#Hrec, ⟨S0, S1, S2, S3, S4, S5⟩, Hur, ⟨R0, R1, R2, R3, R4, R5⟩, ⟨D0, D1, D2, D3, D4, D5⟩⟩
  -- the six sources
  ihave S0 := (body_src_back m c 0) $$ S0; icases S0 with ⟨A0, P0⟩
  ihave S1 := (body_src_back m c 1) $$ S1; icases S1 with ⟨A1, P1⟩
  ihave S2 := (body_src_back m c 2) $$ S2; icases S2 with ⟨A2, P2⟩
  ihave S3 := (body_src_back m c 3) $$ S3; icases S3 with ⟨A3, P3⟩
  ihave S4 := (body_src_back m c 4) $$ S4; icases S4 with ⟨A4, P4⟩
  ihave S5 := (body_src_back m c 5) $$ S5; icases S5 with ⟨A5, P5⟩
  -- the six slots
  ihave X0 := (body_slot_back m c 0) $$ [R0 D0]
  · isplitl [R0]; · iexact R0
    iexact D0
  icases X0 with ⟨B0, L0⟩
  ihave X1 := (body_slot_back m c 1) $$ [R1 D1]
  · isplitl [R1]; · iexact R1
    iexact D1
  icases X1 with ⟨B1, L1⟩
  ihave X2 := (body_slot_back m c 2) $$ [R2 D2]
  · isplitl [R2]; · iexact R2
    iexact D2
  icases X2 with ⟨B2, L2⟩
  ihave X3 := (body_slot_back m c 3) $$ [R3 D3]
  · isplitl [R3]; · iexact R3
    iexact D3
  icases X3 with ⟨B3, L3⟩
  ihave X4 := (body_slot_back m c 4) $$ [R4 D4]
  · isplitl [R4]; · iexact R4
    iexact D4
  icases X4 with ⟨B4, L4⟩
  ihave X5 := (body_slot_back m c 5) $$ [R5 D5]
  · isplitl [R5]; · iexact R5
    iexact D5
  icases X5 with ⟨B5, L5⟩
  -- the twelve cells close
  imod (close_send m K c 0) $$ [A0] with Z0
  · isplitr; · iexact Hrec
    iexact A0
  imod (close_send m K c 1) $$ [A1] with Z1
  · isplitr; · iexact Hrec
    iexact A1
  imod (close_send m K c 2) $$ [A2] with Z2
  · isplitr; · iexact Hrec
    iexact A2
  imod (close_send m K c 3) $$ [A3] with Z3
  · isplitr; · iexact Hrec
    iexact A3
  imod (close_send m K c 4) $$ [A4] with Z4
  · isplitr; · iexact Hrec
    iexact A4
  imod (close_send m K c 5) $$ [A5] with Z5
  · isplitr; · iexact Hrec
    iexact A5
  imod (close_recv m K c 0) $$ [B0] with Y0
  · isplitr; · iexact Hrec
    iexact B0
  imod (close_recv m K c 1) $$ [B1] with Y1
  · isplitr; · iexact Hrec
    iexact B1
  imod (close_recv m K c 2) $$ [B2] with Y2
  · isplitr; · iexact Hrec
    iexact B2
  imod (close_recv m K c 3) $$ [B3] with Y3
  · isplitr; · iexact Hrec
    iexact B3
  imod (close_recv m K c 4) $$ [B4] with Y4
  · isplitr; · iexact Hrec
    iexact B4
  imod (close_recv m K c 5) $$ [B5] with Y5
  · isplitr; · iexact Hrec
    iexact B5
  imodintro
  -- the buffers whole again
  ihave Hx := (hx_join (F := F) c) $$ [L0 L1]
  · isplitl [L0]; · iexact L0
    iexact L1
  ihave Hy := (hy_join (F := F) c) $$ [L2 L3]
  · isplitl [L2]; · iexact L2
    iexact L3
  ihave Hz := (hz_join (F := F) c) $$ [L4 L5]
  · isplitl [L4]; · iexact L4
    iexact L5
  ihave Hzs := (zs_split m c).2 $$ [P4 P5]
  · isplitl [P4]; · iexact P4
    iexact P5
  ihave Hu := (u_split m c).2 $$ [P0 P1 P2 P3 Hur]
  · isplitl [P0]; · iexact P0
    isplitl [P1]; · iexact P1
    isplitl [P2]; · iexact P2
    isplitl [P3]; · iexact P3
    iexact Hur
  isplitr [Hu]
  · isplitl [Z0 Z1 Z2 Z3 Z4 Z5]
    · isplitl [Z0]; · iexact Z0
      isplitl [Z1]; · iexact Z1
      isplitl [Z2]; · iexact Z2
      isplitl [Z3]; · iexact Z3
      isplitl [Z4]; · iexact Z4
      iexact Z5
    isplitl [Y0 Y1 Y2 Y3 Y4 Y5]
    · isplitl [Y0]; · iexact Y0
      isplitl [Y1]; · iexact Y1
      isplitl [Y2]; · iexact Y2
      isplitl [Y3]; · iexact Y3
      isplitl [Y4]; · iexact Y4
      iexact Y5
    isplitl [Hx]; · iexact Hx
    isplitl [Hy]; · iexact Hy
    isplitl [Hz]; · iexact Hz
    iexists _; iexact Hzs
  · iexact Hu

/-! ## The body -/

/-- What the body starts from, with the cells' invariants under the names `K`. -/
def body_pre (c : Dev nD) : sProp 𝕄 :=
  iprop(((ghost m K c ∗ cred (tallyAt (barCell c) () (dirs c).card)
        ∗ (bigSep Finset.univ fun i : Fin 6 => cif (has i c) (cred (tallyAt (recvCell c i) () N)) iprop(emp))
        ∗ levAts L lv) ∗ scr (F := F) c)
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

theorem body_fetch_0 : (cfg0.win (0 : Fin 2)).fetch t0_0 = true := rfl

set_option maxHeartbeats 1600000 in
/-- The body, from `body_pre` to `bodyPost`: the five parts and the tail in program order, with the ghost steps between. -/
theorem sound_body (c : Dev nD) (Kt : PUnit → sProp 𝕄) :
    iprop(body_pre m K c ∗ (bodyPost m c -∗ Kt ⟨⟩))
      ⊢ wp frame (wpE (defs₀ (F := F)) 𝒱₀ (c : Thread nD τ) none) Set.univ (bodyProg (F := F)) Kt := by
  unfold body_pre ghost scr
  rw [bigSep_fin6, bigSep_fin6, bigSep_fin6, bigSep_fin6, bigSep_fin6]
  iintro ⟨⟨⟨⟨⟨#Hrec, HatB, ⟨HatS0, HatS1, HatS2, HatS3, HatS4, HatS5⟩, ⟨HatR0, HatR1, HatR2, HatR3, HatR4, HatR5⟩,
      ⟨⟨HtB0, HtR0⟩, ⟨HtB1, HtR1⟩, ⟨HtB2, HtR2⟩, ⟨HtB3, HtR3⟩, ⟨HtB4, HtR4⟩, ⟨HtB5, HtR5⟩⟩, ⟨HtS0, HtS1, HtS2, HtS3, HtS4, HtS5⟩⟩,
      HcB, ⟨HcR0, HcR1, HcR2, HcR3, HcR4, HcR5⟩, #Hlev⟩, ⟨%fx, Hhx⟩, ⟨%fy, Hhy⟩, ⟨%fz, Hhz⟩, Hzs⟩,
    Ho, ⟨%d0, %g0, %hg0, Hu⟩, ⟨%d1, %g1, %hg1, Hout⟩⟩, Hk⟩
  have hx : g0 = xstg m c := by rw [hg0]; unfold Dat.before; rw [if_pos body_fetch_0]; rfl
  subst hx
  unfold Dat.owesAt Pipeline.owesWithin
  icases Ho with ⟨%W, %hW, HO⟩
  rw [show (dats m 0 c).owed t0_0.castSucc = Og c 0 from rfl]
  -- the six landing slots
  ihave Hs01 := (hx_split c fx) $$ Hhx; icases Hs01 with ⟨Hs0, Hs1⟩
  ihave Hs23 := (hy_split c fy) $$ Hhy; icases Hs23 with ⟨Hs2, Hs3⟩
  ihave Hs45 := (hz_split c fz) $$ Hhz; icases Hs45 with ⟨Hs4, Hs5⟩
  unfold bodyProg
  rw [cc0_body_eq_skeleton]; unfold cc0_body_skel
  -- part 1
  rw [wp_bind]
  iapply (part1_spec m K c _)
  isplitr; · iexact Hrec
  isplitl [HO]; · unfold owesE; iexists W; iexact HO
  isplitl [HtB0 Hs0]
  · unfold dirA; isplitl [HtB0]; · iexact HtB0
    iexact Hs0
  isplitl [HtB1 Hs1]
  · unfold dirA; isplitl [HtB1]; · iexact HtB1
    iexact Hs1
  isplitl [HtB2 Hs2]
  · unfold dirA; isplitl [HtB2]; · iexact HtB2
    iexact Hs2
  isplitl [HtB3 Hs3]
  · unfold dirA; isplitl [HtB3]; · iexact HtB3
    iexact Hs3
  iintro %v2 %v5 %v8 %v20 %v21 ⟨HO, Hd0, Hd1, Hd2, Hd3⟩
  dsimp -zeta only
  -- part 2
  rw [wp_bind]
  iapply (part2_spec m K c v2 v5 v20 v21 _)
  isplitr; · iexact Hrec
  isplitr; · iexact Hlev
  isplitl [HO]; · iexact HO
  isplitl [HtB4 Hs4]
  · unfold dirA; isplitl [HtB4]; · iexact HtB4
    iexact Hs4
  isplitl [HtB5 Hs5]
  · unfold dirA; isplitl [HtB5]; · iexact HtB5
    iexact Hs5
  isplitl [Hu]; · unfold uPts; iexact Hu
  isplitl [Hzs]; · iexact Hzs
  isplitl [HatB]; · iexact HatB
  isplitl [HcB]; · iexact HcB
  iintro %v58 %v59 %v60 %v61 ⟨HO, Hd4, Hd5, Hu, Hzs, HatB, Hb0, Hb1, Hb2, Hb3, Hb4, Hb5⟩
  dsimp -zeta only
  -- the six sources
  ihave Hsrc := (u_split m c).1 $$ Hu; icases Hsrc with ⟨Hp0, Hp1, Hp2, Hp3, Hur⟩
  ihave Hsrc := (zs_split m c).1 $$ Hzs; icases Hsrc with ⟨Hp4, Hp5⟩
  -- part 3
  rw [wp_bind]
  iapply (part3_spec m K c v2 v5 v8 v58 v59 v60 v61 _)
  isplitr; · iexact Hrec
  isplitl [HO]; · iexact HO
  isplitl [HtS0 HtR1 Hp0]
  · unfold sndA; isplitl [HtS0]; · iexact HtS0
    isplitl [HtR1]; · iexact HtR1
    iexact Hp0
  isplitl [HtS1 HtR0 Hp1]
  · unfold sndA; isplitl [HtS1]; · iexact HtS1
    isplitl [HtR0]; · iexact HtR0
    iexact Hp1
  isplitl [HtS2 HtR3 Hp2]
  · unfold sndA; isplitl [HtS2]; · iexact HtS2
    isplitl [HtR3]; · iexact HtR3
    iexact Hp2
  isplitl [HtS3 HtR2 Hp3]
  · unfold sndA; isplitl [HtS3]; · iexact HtS3
    isplitl [HtR2]; · iexact HtR2
    iexact Hp3
  isplitl [HtS4 HtR5 Hp4]
  · unfold sndA; isplitl [HtS4]; · iexact HtS4
    isplitl [HtR5]; · iexact HtR5
    iexact Hp4
  isplitl [HtS5 HtR4 Hp5]
  · unfold sndA; isplitl [HtS5]; · iexact HtS5
    isplitl [HtR4]; · iexact HtR4
    iexact Hp5
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iintro ⟨HO, Hq0, Hq1, Hq2, Hq3, Hq4, Hq5⟩
  dsimp -zeta only
  -- part 4
  rw [wp_bind]
  iapply (part4_spec m K c v2 v5 v8 _)
  isplitr; · iexact Hrec
  isplitl [HO]; · iexact HO
  isplitl [Hout]; · unfold oPts; iexists g1; iexact Hout
  isplitl [HatR0 HcR0]
  · unfold rcvA; isplitl [HatR0]; · iexact HatR0
    iexact HcR0
  isplitl [HatR1 HcR1]
  · unfold rcvA; isplitl [HatR1]; · iexact HatR1
    iexact HcR1
  isplitl [HatR2 HcR2]
  · unfold rcvA; isplitl [HatR2]; · iexact HatR2
    iexact HcR2
  isplitl [HatR3 HcR3]
  · unfold rcvA; isplitl [HatR3]; · iexact HatR3
    iexact HcR3
  isplitl [HatR4 HcR4]
  · unfold rcvA; isplitl [HatR4]; · iexact HatR4
    iexact HcR4
  iintro ⟨HO, Hout, Hr0, Hr1, Hr2, Hr3, Hr4⟩
  -- part 5
  rw [wp_bind]
  iapply (part5_spec m K c v2 v5 v8 (Scalar.extui (fb 5 c)) rfl _)
  isplitr; · iexact Hrec
  isplitl [HO]; · iexact HO
  isplitl [Hout]; · iexact Hout
  isplitl [HatR5 HcR5]
  · unfold rcvA; isplitl [HatR5]; · iexact HatR5
    iexact HcR5
  isplitl [Hr0]; · iexact Hr0
  isplitl [Hr1]; · iexact Hr1
  isplitl [Hr2]; · iexact Hr2
  isplitl [Hr3]; · iexact Hr3
  isplitl [Hr4]; · iexact Hr4
  iintro ⟨HO, Hout, Hr0, Hr1, Hr2, Hr3, Hr4, Hr5⟩
  -- the tail: the z+ plane of the outer frame zeroed
  extract_lets +onlyGivenNames -underBinder v139 v140 v141 jp0
  rw [body_wp_dite_rest2]
  iapply (step_zero5 m c (fb_ncond 5 c) _ _ (fun h => ⟨_, _, _, rfl⟩) (fun h => rfl) _)
  isplitl [Hout]; · iexact Hout
  iintro Hout
  unfold jp0
  -- the send wait of transfer 0
  extract_lets +onlyGivenNames -underBinder v142 v143 jp1
  rw [body_wp_dite_rest]
  ihave Hq := (body_sndB_split m c 0) $$ Hq0; icases Hq with ⟨Hc0, Hn0⟩
  iapply (step_swait m K c 0 (fb_cond 1 c) _ _ (fun h => ⟨_, _, rfl⟩) (fun h => rfl) _)
  isplitr; · iexact Hrec
  isplitl [HO]; · iexact HO
  isplitl [HatS0]; · iexact HatS0
  isplitl [Hc0]; · iexact Hc0
  iintro ⟨HO, Hw0⟩
  unfold jp1
  -- the send wait of transfer 1
  extract_lets +onlyGivenNames -underBinder v144 v145 jp2
  rw [body_wp_dite_rest]
  ihave Hq := (body_sndB_split m c 1) $$ Hq1; icases Hq with ⟨Hc1, Hn1⟩
  iapply (step_swait m K c 1 (fb_cond 0 c) _ _ (fun h => ⟨_, _, rfl⟩) (fun h => rfl) _)
  isplitr; · iexact Hrec
  isplitl [HO]; · iexact HO
  isplitl [HatS1]; · iexact HatS1
  isplitl [Hc1]; · iexact Hc1
  iintro ⟨HO, Hw1⟩
  unfold jp2
  -- the send wait of transfer 2
  extract_lets +onlyGivenNames -underBinder v146 v147 jp3
  rw [body_wp_dite_rest]
  ihave Hq := (body_sndB_split m c 2) $$ Hq2; icases Hq with ⟨Hc2, Hn2⟩
  iapply (step_swait m K c 2 (fb_cond 3 c) _ _ (fun h => ⟨_, _, rfl⟩) (fun h => rfl) _)
  isplitr; · iexact Hrec
  isplitl [HO]; · iexact HO
  isplitl [HatS2]; · iexact HatS2
  isplitl [Hc2]; · iexact Hc2
  iintro ⟨HO, Hw2⟩
  unfold jp3
  -- the send wait of transfer 3
  extract_lets +onlyGivenNames -underBinder v148 v149 jp4
  rw [body_wp_dite_rest]
  ihave Hq := (body_sndB_split m c 3) $$ Hq3; icases Hq with ⟨Hc3, Hn3⟩
  iapply (step_swait m K c 3 (fb_cond 2 c) _ _ (fun h => ⟨_, _, rfl⟩) (fun h => rfl) _)
  isplitr; · iexact Hrec
  isplitl [HO]; · iexact HO
  isplitl [HatS3]; · iexact HatS3
  isplitl [Hc3]; · iexact Hc3
  iintro ⟨HO, Hw3⟩
  unfold jp4
  -- the send wait of transfer 4
  extract_lets +onlyGivenNames -underBinder v150 v151 jp5
  rw [body_wp_dite_rest]
  ihave Hq := (body_sndB_split m c 4) $$ Hq4; icases Hq with ⟨Hc4, Hn4⟩
  iapply (step_swait m K c 4 (fb_cond 5 c) _ _ (fun h => ⟨_, _, rfl⟩) (fun h => rfl) _)
  isplitr; · iexact Hrec
  isplitl [HO]; · iexact HO
  isplitl [HatS4]; · iexact HatS4
  isplitl [Hc4]; · iexact Hc4
  iintro ⟨HO, Hw4⟩
  unfold jp5
  -- the send wait of transfer 5
  extract_lets +onlyGivenNames -underBinder v152 v153 jp6
  rw [body_wp_dite_rest]
  ihave Hq := (body_sndB_split m c 5) $$ Hq5; icases Hq with ⟨Hc5, Hn5⟩
  iapply (step_swait m K c 5 (fb_cond 4 c) _ _ (fun h => ⟨_, _, rfl⟩) (fun h => rfl) _)
  isplitr; · iexact Hrec
  isplitl [HO]; · iexact HO
  isplitl [HatS5]; · iexact HatS5
  isplitl [Hc5]; · iexact Hc5
  iintro ⟨HO, Hw5⟩
  unfold jp6
  -- the ghost step at the end
  imod (body_close m K c) $$ [Hw0 Hn0 Hw1 Hn1 Hw2 Hn2 Hw3 Hn3 Hw4 Hn4 Hw5 Hn5 Hur Hr0 Hr1 Hr2 Hr3 Hr4 Hr5 Hd0 Hd1 Hd2 Hd3 Hd4 Hd5] with ⟨HΦ, Hu⟩
  · isplitr; · iexact Hrec
    isplitl [Hw0 Hn0 Hw1 Hn1 Hw2 Hn2 Hw3 Hn3 Hw4 Hn4 Hw5 Hn5]
    · unfold sndC
      isplitl [Hw0 Hn0]
      · isplitl [Hw0]; · iexact Hw0
        iexact Hn0
      isplitl [Hw1 Hn1]
      · isplitl [Hw1]; · iexact Hw1
        iexact Hn1
      isplitl [Hw2 Hn2]
      · isplitl [Hw2]; · iexact Hw2
        iexact Hn2
      isplitl [Hw3 Hn3]
      · isplitl [Hw3]; · iexact Hw3
        iexact Hn3
      isplitl [Hw4 Hn4]
      · isplitl [Hw4]; · iexact Hw4
        iexact Hn4
      isplitl [Hw5]; · iexact Hw5
      iexact Hn5
    isplitl [Hur]; · iexact Hur
    isplitl [Hr0 Hr1 Hr2 Hr3 Hr4 Hr5]
    · isplitl [Hr0]; · iexact Hr0
      isplitl [Hr1]; · iexact Hr1
      isplitl [Hr2]; · iexact Hr2
      isplitl [Hr3]; · iexact Hr3
      isplitl [Hr4]; · iexact Hr4
      iexact Hr5
    isplitl [Hd0]; · iexact Hd0
    isplitl [Hd1]; · iexact Hd1
    isplitl [Hd2]; · iexact Hd2
    isplitl [Hd3]; · iexact Hd3
    isplitl [Hd4]; · iexact Hd4
    iexact Hd5
  rw [wp_pure]; imodintro
  iapply Hk
  unfold bodyPost Dat.owesAt Pipeline.owesWithin owesE
  rw [show (dats m 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [Hu]
  · iexists _; isplitr; · (ipureintro; rfl)
    unfold uPts; iexact Hu
  iexists _; isplitr; · (ipureintro; rfl)
  unfold oPts; iexact Hout

/-- A whole staging buffer owned at contents `X`, spelled out. -/
theorem body_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [body_owns_whole_eq]
  show bodyPre m c ⊢ wp frame (wpE (defs₀ (F := F)) 𝒱₀ (c : Thread nD τ) none) Set.univ (bodyProg (F := F)) (fun _ => bodyPost m c)
  unfold bodyPre Φ₀ start
  iintro ⟨⟨⟨⟨%K, Hg⟩, Hrest⟩, Hscr⟩, Ho, Hx, Hout⟩
  iapply (sound_body m K c fun _ => bodyPost m c)
  unfold body_pre
  isplitr []
  · isplitl [Hg Hrest Hscr]
    · isplitl [Hg Hrest]
      · isplitl [Hg]; · iexact Hg
        iexact Hrest
      iexact Hscr
    isplitl [Ho]; · iexact Ho
    isplitl [Hx] <;> iassumption
  · iintro H; iexact H

end Cert.KernelIdeal.Halo

end
-- ==== Proof.LaunchRes.lean ====
/-
  The launch resources of the halo exchange.

  The exchange's launch element is, per device, the thirteen cells (the barrier cell, six send cells, six receive cells)
  in their launch state and eighteen duty tokens: one per direction on the barrier cell, one on each send cell, one on
  each receive cell. Funding it gives every device its cells' round states, positions and round-0 marks, and the tokens
  of its OWN cells. The global step then, with every device's thirteen semaphores at zero, allocates the cells'
  invariants, gathers their names into one function, and deals the tokens to the devices that PAY the duties: the
  pairing of (device, direction) with (neighbour, opposite direction) is an involution of the pairs, so the barrier
  and receive tokens are the same family re-indexed along it, while each send token stays with its own device.
-/
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.Body0

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The exchange's cells and tokens at launch, and how they reach the devices -/

/-- The place of a semaphore among a device's thirteen cells: the barrier cell first, then the send cells, then the
    receive cells. -/
def cidx : SemLoc sig → ℕ
  | .reg _ => 0
  | .dma q => q.val - 1

theorem cidx_csem : ∀ k : Fin 13, cidx (csem k) = k.val := by decide

theorem kcell_injective : Function.Injective (kcell : Dev nD × Fin 13 → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := Fin.ext (by rw [← cidx_csem k, ← cidx_csem k', h2])
  subst h3; rfl

/-- Every device's thirteen cells. -/
def haloCells : Finset (GSem nD τ sig) := Finset.univ.map ⟨kcell, kcell_injective⟩

/-- The duty tokens minted: per device, one per direction on its barrier cell, one on each send cell, one on each receive cell. -/
def tokOf (cj : Dev nD × Fin 18) : GSem nD τ sig × ℕ × Fin 6 :=
  if h : cj.2.val < 6 then (barCell cj.1, 0, ⟨cj.2.val, h⟩)
  else if h2 : cj.2.val < 12 then (sendCell cj.1 ⟨cj.2.val - 6, by omega⟩, 0, 0)
  else (recvCell cj.1 ⟨cj.2.val - 12, by omega⟩, 0, 0)

/-- A token's number among its device's eighteen, read back off the token. -/
def tcode (x : GSem nD τ sig × ℕ × Fin 6) : ℕ := if cidx x.1.2 = 0 then x.2.2.val else 5 + cidx x.1.2

theorem tcode_tokOf (c : Dev nD) : ∀ j : Fin 18, tcode (tokOf (c, j)) = j.val := by
  intro j; fin_cases j <;> rfl
theorem dev_tokOf (c : Dev nD) : ∀ j : Fin 18, (tokOf (c, j)).1.1.1 = c := by
  intro j; fin_cases j <;> rfl

theorem tokOf_injective : Function.Injective (tokOf : Dev nD × Fin 18 → GSem nD τ sig × ℕ × Fin 6) := by
  rintro ⟨c, j⟩ ⟨c', j'⟩ h
  have h1 : c = c' := by rw [← dev_tokOf c j, ← dev_tokOf c' j', h]
  subst h1
  have h2 : j = j' := Fin.ext (by rw [← tcode_tokOf c j, ← tcode_tokOf c j', h])
  subst h2; rfl

def haloToks : Finset (GSem nD τ sig × ℕ × Fin 6) := Finset.univ.map ⟨tokOf, tokOf_injective⟩

/-- The tokens of device `c`'s own cells, as minted. -/
def toks (c : Dev nD) : sProp 𝕄 :=
  iprop((bigSep Finset.univ fun d : Fin 6 => dutyTok ER (barCell c) 0 d) ∗ (bigSep Finset.univ fun i : Fin 6 => dutyTok ER (sendCell c i) 0 (0 : Fin 6))
    ∗ (bigSep Finset.univ fun i : Fin 6 => dutyTok ER (recvCell c i) 0 (0 : Fin 6)))

/-- What the launch element deals device `c`. -/
def G (c : Dev nD) : sProp 𝕄 :=
  iprop((bigSep Finset.univ fun k : Fin 13 => roundState ER (haloRd m) (kcell (c, k)) 0)
    ∗ (bigSep Finset.univ fun k : Fin 13 => iprop(atPos ER (kcell (c, k)) 0 ∅ 0 ∗ reached ER (kcell (c, k)) 0)) ∗ toks (F := F) c)

omit [FloatOps F] in
/-- Separating conjunction re-associated, as an equation. -/
theorem sep_assoc_eq (P Q R : sProp 𝕄) : iprop((P ∗ Q) ∗ R) = iprop(P ∗ Q ∗ R) := equiv_iff.mp ⟨BI.sep_assoc, BI.sep_assoc'⟩

omit [FloatOps F] in
theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

omit [FloatOps F] in
/-- A device's eighteen minted tokens are those of its barrier cell, of its send cells and of its receive cells. -/
theorem toks_eq (c : Dev nD) :
    (bigSep Finset.univ fun j : Fin 18 => (dutyTok ER (tokOf (c, j)).1 (tokOf (c, j)).2.1 (tokOf (c, j)).2.2 : sProp 𝕄)) = toks c := by
  unfold toks
  rw [bigSep_fin18, bigSep_fin6, bigSep_fin6, bigSep_fin6]
  simp only [sep_assoc_eq]
  rfl

omit [FloatOps F] in
/-- The exchange's launch element funds every device's share. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 13 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => toks_eq c
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, cell by cell -/

omit [FloatOps F] in
/-- The twelve send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
        ∗ semVal (kcell (c, 6)) 0 ∗ semVal (kcell (c, 7)) 0 ∗ semVal (kcell (c, 8)) 0 ∗ semVal (kcell (c, 9)) 0 ∗ semVal (kcell (c, 10)) 0
        ∗ semVal (kcell (c, 11)) 0 ∗ semVal (kcell (c, 12)) 0) := by
  rw [Pipeline.ownSems0_eq_of_list c osem [0, 1, 2, 3, 4, 5, 6, 7, 8, 9, 10, 11] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨HS, HB⟩
  isplitl [HB]; · iexact HB
  iexact HS

omit [FloatOps F] in
/-- With a device's thirteen semaphores at zero, its cells' invariants are allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k : Fin 13 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- Whom each (device, direction) pays, as a permutation of the pairs. -/
def dealEquiv : Dev nD × Fin 6 ≃ Dev nD × Fin 6 where
  toFun p := peer p.2 p.1
  invFun p := peer p.2 p.1
  left_inv p := peer_peer p.2 p.1
  right_inv p := peer_peer p.2 p.1

/-- What stays with device `c`: the tokens of the duties it pays in each direction, and of its own send cells. -/
def payToks (c : Dev nD) : sProp 𝕄 :=
  iprop((bigSep Finset.univ fun d : Fin 6 => iprop(tokB (F := F) c d ∗ tokR (F := F) c d)) ∗ (bigSep Finset.univ fun i : Fin 6 => tokS (F := F) c i))
/-- With them, its positions at its thirteen cells. -/
def linear (c : Dev nD) : sProp 𝕄 :=
  iprop((atPos ER (barCell c) 0 ∅ 0 ∗ (bigSep Finset.univ fun i : Fin 6 => atPos ER (sendCell c i) 0 ∅ 0)
      ∗ (bigSep Finset.univ fun i : Fin 6 => atPos ER (recvCell c i) 0 ∅ 0)) ∗ payToks (F := F) c)

omit [FloatOps F] in
theorem ghost_intro (K : Dev nD × Fin 13 → ℕ) (c : Dev nD) : iprop(records m K ∗ linear (F := F) c) ⊢ iprop(∃ K, ghost m K c) := by
  unfold linear payToks ghost
  iintro ⟨#HR, ⟨HaB, HaS, HaV⟩, HtBR, HtS⟩
  iexists K
  isplitr; · iexact HR
  isplitl [HaB]; · iexact HaB
  isplitl [HaS]; · iexact HaS
  isplitl [HaV]; · iexact HaV
  isplitl [HtBR]; · iexact HtBR
  iexact HtS

omit [FloatOps F] in
/-- Thirteen cells are the barrier cell, the six send cells and the six receive cells. -/
theorem fin13_split (Φ : Fin 13 → sProp 𝕄) :
    bigSep Finset.univ Φ = iprop(Φ 0 ∗ (bigSep Finset.univ fun i : Fin 6 => Φ (sIdx i)) ∗ (bigSep Finset.univ fun i : Fin 6 => Φ (rIdx i))) := by
  rw [bigSep_fin13, bigSep_fin6, bigSep_fin6]
  simp only [sep_assoc_eq]
  rfl

omit [FloatOps F] in
theorem atPos13 (c : Dev nD) :
    (bigSep Finset.univ fun k : Fin 13 => (atPos ER (kcell (c, k)) 0 ∅ 0 : sProp 𝕄))
      = iprop(atPos ER (barCell c) 0 ∅ 0 ∗ (bigSep Finset.univ fun i : Fin 6 => atPos ER (sendCell c i) 0 ∅ 0)
          ∗ (bigSep Finset.univ fun i : Fin 6 => atPos ER (recvCell c i) 0 ∅ 0)) := by
  rw [fin13_split]
  simp only [kcell_send, kcell_recv]

omit [FloatOps F] in
/-- The barrier and receive tokens go to the devices that pay them; the send tokens stay. -/
theorem toks_around : (bigSep Finset.univ fun c : Dev nD => (toks c : sProp 𝕄)) ⊢ bigSep Finset.univ fun c : Dev nD => payToks c := by
  have hB : (bigSep Finset.univ fun c : Dev nD => bigSep Finset.univ fun d : Fin 6 => (dutyTok ER (barCell c) 0 d : sProp 𝕄))
      = bigSep Finset.univ fun c : Dev nD => bigSep Finset.univ fun d : Fin 6 => tokB c d :=
    ((bigSep_univ_prod (fun cd : Dev nD × Fin 6 => (dutyTok ER (barCell cd.1) 0 cd.2 : sProp 𝕄))).symm.trans
      (bigSep_univ_equiv dealEquiv (fun cd : Dev nD × Fin 6 => (dutyTok ER (barCell cd.1) 0 cd.2 : sProp 𝕄)))).trans
      (bigSep_univ_prod _)
  have hR : (bigSep Finset.univ fun c : Dev nD => bigSep Finset.univ fun i : Fin 6 => (dutyTok ER (recvCell c i) 0 (0 : Fin 6) : sProp 𝕄))
      = bigSep Finset.univ fun c : Dev nD => bigSep Finset.univ fun d : Fin 6 => tokR c d :=
    ((bigSep_univ_prod (fun cd : Dev nD × Fin 6 => (dutyTok ER (recvCell cd.1 cd.2) 0 (0 : Fin 6) : sProp 𝕄))).symm.trans
      (bigSep_univ_equiv dealEquiv (fun cd : Dev nD × Fin 6 => (dutyTok ER (recvCell cd.1 cd.2) 0 (0 : Fin 6) : sProp 𝕄)))).trans
      (bigSep_univ_prod _)
  unfold toks payToks
  rw [bigSep_sep', bigSep_sep', hB, hR, bigSep_sep',
    bigSep_congr (s := Finset.univ) (fun (c : Dev nD) _ => bigSep_sep' Finset.univ (fun d : Fin 6 => tokB (F := F) c d) (fun d => tokR c d)),
    bigSep_sep']
  iintro ⟨H1, H2, H3⟩
  isplitl [H1 H3]
  · isplitl [H1] <;> iassumption
  iexact H2

/-! ## The global step -/

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The invariants named, the round-0 marks shared, the positions kept and the tokens dealt: every device's ghost state. -/
theorem regroup :
    (bigSep Finset.univ fun c : Dev nD => iprop((bigSep Finset.univ fun k => iprop(∃ κ : ℕ, cellInv ER (haloRd m) κ (kcell (c, k))))
          ∗ (bigSep Finset.univ fun k : Fin 13 => iprop(atPos ER (kcell (c, k)) 0 ∅ 0 ∗ reached ER (kcell (c, k)) 0)) ∗ toks c) : sProp 𝕄)
      ⊢ bigSep Finset.univ fun c => iprop(∃ K, ghost m K c) := by
  rw [bigSep_sep', bigSep_sep', ← bigSep_univ_prod (fun ck : Dev nD × Fin 13 => iprop(∃ κ : ℕ, cellInv ER (haloRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄)) payToks).symm).trans
      (bigSep_mono fun c _ => show _ ⊢ linear c from Entails.of_eq (by unfold linear; rw [atPos13])))
    isplitl [Hat]; · iexact Hat
    iexact Htk

omit [FloatOps F] in
/-- The global step: with every device's own and unscoped semaphores at zero, the cells' invariants are allocated, and the
    tokens dealt to the devices that pay them. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(∃ K, ghost m K c) :=
  ((bigSep_mono fun c _ => core_alloc m c).trans (bigSep_fupd _ _)).trans (BI.fupd_mono (regroup m))

/-- info: 'Cert.KernelIdeal.Halo.glob' depends on axioms: [propext, Classical.choice, Quot.sound] -/
#guard_msgs in #print axioms glob
/-- info: 'Cert.KernelIdeal.Halo.fund_halo' depends on axioms: [propext, Classical.choice, Quot.sound] -/
#guard_msgs in #print axioms fund_halo

end Cert.KernelIdeal.Halo

end
-- ==== Proof.Launch.lean ====
import proofs.«900537_g7700000000000538_dist_halo3d_v7x_xyz2x4x4_s48_f32_1_alg».proof.Proof.Asserts
import proofs.«900537_g7700000000000538_dist_halo3d_v7x_xyz2x4x4_s48_f32_1_alg».proof.Proof.Out
import proofs.«900537_g7700000000000538_dist_halo3d_v7x_xyz2x4x4_s48_f32_1_alg».proof.Proof.LaunchRes
import proofs.«900537_g7700000000000538_dist_halo3d_v7x_xyz2x4x4_s48_f32_1_alg».proof.Proof.Gen.KernelIdeal.Frame

noncomputable section

namespace Cert.KernelIdeal.Halo

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The launch element: the pipeline's cells beside the exchange's. -/
def u₀ : UU :=
  (initOf (Pipeline.cells cfgs cellOf_inj) (Pipeline.launchToks cfgs cellOf_inj), initOf haloCells haloToks)

namespace Lau

theorem ownSemFacts : Pipeline.OwnSemFacts cfg0.spec osem := by decide

theorem share_eq (c : Dev nD) (w : Fin cfg0.W) : (dats m 0 c).share w = fullShare := by unfold Dat.share; split <;> rfl

/-! ## The launch credit

What the devices owe a cell, summed over the devices, is what the cell's owner waits for: a unit on its barrier cell
from each neighbour it has, a face's credit on receive cell `i` from the neighbour in direction `i`. -/

theorem bar_eq_iff {a b : Dev nD} : Iff (barCell a = barCell b) (a = b) :=
  ⟨fun h => Fin.ext (congrArg (fun g : GSem nD τ sig => g.1.1.val) h), fun h => h ▸ rfl⟩

theorem recvSem_inj : Function.Injective recvSem := fun i j h => Fin.ext (by
  have h1 := congrArg (fun q : DmaSem sig => q.val) h
  simp only [recvSem_val] at h1
  omega)

theorem recv_eq_iff {a b : Dev nD} {i j : Fin 6} : Iff (recvCell a i = recvCell b j) (a = b ∧ i = j) :=
  ⟨fun h => ⟨Fin.ext (congrArg (fun g : GSem nD τ sig => g.1.1.val) h),
      recvSem_inj (SemLoc.dma.inj (congrArg Prod.snd h))⟩, fun h => by rw [h.1, h.2]⟩

theorem recv_ne_bar (a b : Dev nD) (i : Fin 6) : recvCell a i ≠ barCell b := fun h => by cases (congrArg Prod.snd h)

/-- The entry signal of direction `e` of device `d` is owed to device `c`'s barrier cell when `c` is that neighbour. -/
theorem sigT_bar (e : Fin 6) (d c : Dev nD) : sigT e d (barCell c) () = if has e d = true ∧ nbr e d = c then 1 else 0 := by
  unfold sigT
  by_cases h : has e d = true
  · rw [if_pos h, tallyAt_apply]
    by_cases h2 : nbr e d = c
    · rw [if_pos ⟨by rw [h2], rfl⟩, if_pos ⟨h, h2⟩]
    · rw [if_neg (fun h3 => h2 (bar_eq_iff.mp h3.1).symm), if_neg (fun h3 => h2 h3.2)]
  · rw [if_neg h, if_neg (fun h3 => h h3.1)]; rfl

theorem sigT_recv (e : Fin 6) (d c : Dev nD) (i : Fin 6) : sigT e d (recvCell c i) () = 0 := by
  unfold sigT
  by_cases h : has e d = true
  · rw [if_pos h, tallyAt_ne_cell (recv_ne_bar _ _ _)]; rfl
  · rw [if_neg h]; rfl

theorem sndT_bar (j : Fin 6) (d c : Dev nD) : sndT j d (barCell c) () = 0 := by
  unfold sndT
  by_cases h : has (opp j) d = true
  · rw [if_pos h, tallyAt_ne_cell (fun h3 => recv_ne_bar _ _ _ h3.symm)]; rfl
  · rw [if_neg h]; rfl

/-- Transfer `j` of device `d` is owed to receive cell `i` of device `c` when `j = i` and `c` is the neighbour opposite to `j`. -/
theorem sndT_recv (j : Fin 6) (d c : Dev nD) (i : Fin 6) :
    sndT j d (recvCell c i) () = (if has (opp j) d = true ∧ nbr (opp j) d = c ∧ j = i then 1 else 0) * N := by
  unfold sndT
  by_cases h : has (opp j) d = true
  · rw [if_pos h, tallyAt_apply]
    by_cases h2 : nbr (opp j) d = c ∧ j = i
    · rw [if_pos ⟨by rw [h2.1, h2.2], rfl⟩, if_pos ⟨h, h2⟩, Nat.one_mul]
    · rw [if_neg (fun h3 => h2 ⟨(recv_eq_iff.mp h3.1).1.symm, (recv_eq_iff.mp h3.1).2.symm⟩), if_neg (fun h3 => h2 h3.2), Nat.zero_mul]
  · rw [if_neg h, if_neg (fun h3 => h h3.1), Nat.zero_mul]; rfl

theorem owed_bar (d c : Dev nD) : O₀ d (barCell c) () = ∑ e : Fin 6, if has e d = true ∧ nbr e d = c then 1 else 0 := by
  show ((((((((((((((0 : CellTallies nD τ sig Unit) + sndT 5 d) + sndT 4 d) + sndT 3 d) + sndT 2 d) + sndT 1 d) + sndT 0 d) + sigT 5 d) + sigT 4 d) + sigT 3 d) + sigT 2 d) + sigT 1 d) + sigT 0 d) (barCell c) ()) = _
  simp only [Pi.add_apply, Finsupp.add_apply, sigT_bar, sndT_bar, Fin.sum_univ_six, Pi.zero_apply, Finsupp.coe_zero]
  omega

theorem owed_recv (d c : Dev nD) (i : Fin 6) :
    O₀ d (recvCell c i) () = (∑ j : Fin 6, if has (opp j) d = true ∧ nbr (opp j) d = c ∧ j = i then 1 else 0) * N := by
  show ((((((((((((((0 : CellTallies nD τ sig Unit) + sndT 5 d) + sndT 4 d) + sndT 3 d) + sndT 2 d) + sndT 1 d) + sndT 0 d) + sigT 5 d) + sigT 4 d) + sigT 3 d) + sigT 2 d) + sigT 1 d) + sigT 0 d) (recvCell c i) ()) = _
  simp only [Pi.add_apply, Finsupp.add_apply, sigT_recv, sndT_recv, Fin.sum_univ_six, Pi.zero_apply, Finsupp.coe_zero, Nat.add_mul]
  omega

/-- Each neighbour of `c`, and no other device, signals `c`'s barrier cell, once. -/
theorem bar_count : ∀ c : Dev nD, (∑ d : Dev nD, ∑ e : Fin 6, if has e d = true ∧ nbr e d = c then 1 else 0) = (dirs c).card := by
  decide +kernel

/-- The neighbour in direction `i` of `c`, and no other device, sends into `c`'s slot `i`, by its transfer `i`. -/
theorem recv_count : ∀ (c : Dev nD) (i : Fin 6),
    (∑ d : Dev nD, ∑ j : Fin 6, if has (opp j) d = true ∧ nbr (opp j) d = c ∧ j = i then 1 else 0) = if has i c = true then 1 else 0 := by
  decide +kernel

theorem launch_bar (c : Dev nD) :
    tallyOn (barCell c) (launchCredit (Pipeline.owing O₀) 0 (barCell c)) = (tallyAt (barCell c) () (dirs c).card : CellTallies nD τ sig Unit) := by
  unfold tallyAt; refine congrArg _ (Finsupp.ext fun u => ?_); cases u
  rw [Pipeline.launchCredit_owing, Finsupp.single_eq_same, Finset.sum_congr rfl fun d _ => owed_bar d c]
  exact bar_count c

theorem launch_recv (c : Dev nD) (i : Fin 6) :
    tallyOn (recvCell c i) (launchCredit (Pipeline.owing O₀) 0 (recvCell c i))
      = if has i c = true then (tallyAt (recvCell c i) () N : CellTallies nD τ sig Unit) else 0 := by
  have hc : launchCredit (Pipeline.owing O₀) 0 (recvCell c i) = Finsupp.single () ((if has i c = true then 1 else 0) * N) := by
    refine Finsupp.ext fun u => ?_; cases u
    rw [Pipeline.launchCredit_owing, Finsupp.single_eq_same, Finset.sum_congr rfl fun d _ => owed_recv d c i, ← Finset.sum_mul, recv_count c i]
  rw [hc]
  by_cases h : has i c = true
  · rw [if_pos h, if_pos h, Nat.one_mul]; rfl
  · rw [if_neg h, if_neg h, Nat.zero_mul, Finsupp.single_zero, tallyOn_zero]

/-- The six receive cells among a device's semaphores. -/
def recvEmb : Fin 6 ↪ SemLoc sig := ⟨fun i => .dma (recvSem i), fun i j h => recvSem_inj (SemLoc.dma.inj h)⟩

omit [FloatOps F] in
theorem creds (c : Dev nD) :
    (Pipeline.launchCred O₀ c : sProp 𝕄) ⊢ iprop(cred (tallyAt (barCell c) () (dirs c).card)
      ∗ bigSep Finset.univ fun i : Fin 6 => cif (has i c) (cred (tallyAt (recvCell c i) () N)) iprop(emp)) := by
  unfold Pipeline.launchCred
  rw [bigSep_univ_at _ (SemLoc.reg barS), launch_bar]
  refine sep_mono_right ?_
  refine (bigSep_subset (t := Finset.univ.map recvEmb) (fun sm hsm => ?_)).trans ?_
  · obtain ⟨i, -, rfl⟩ := Finset.mem_map.mp hsm
    exact Finset.mem_erase.mpr ⟨fun h => (by cases h), Finset.mem_univ _⟩
  · rw [bigSep_map]
    refine bigSep_mono fun i _ => ?_
    show cred (tallyOn (recvCell c i) (launchCredit (Pipeline.owing O₀) 0 (recvCell c i))) ⊢ _
    rw [launch_recv]
    by_cases h : has i c = true
    · rw [if_pos h]; dsimp only [cif]; rw [if_pos h]
    · rw [if_neg h, cred_zero]; dsimp only [cif]; rw [if_neg h]

/-! ## Levels -/

theorem add_pos_elim {P : Prop} {A B : CellTallies nD τ sig Unit} {g : GSem nD τ sig} {u : Unit}
    (hA : 0 < A g u → P) (hB : 0 < B g u → P) (h : 0 < (A + B) g u) : P :=
  (Pipeline.add_pos_cases h).elim hA hB

theorem sigT_pos {e : Fin 6} {d : Dev nD} {g : GSem nD τ sig} {u : Unit} (h : 0 < sigT e d g u) : ∃ c', g = barCell c' := by
  unfold sigT at h
  by_cases hh : has e d = true
  · rw [if_pos hh] at h; exact ⟨_, (Pipeline.tallyAt_pos h).1⟩
  · rw [if_neg hh] at h; exact absurd h (Nat.lt_irrefl 0)

theorem sndT_pos {j : Fin 6} {d : Dev nD} {g : GSem nD τ sig} {u : Unit} (h : 0 < sndT j d g u) : ∃ c' i, g = recvCell c' i := by
  unfold sndT at h
  by_cases hh : has (opp j) d = true
  · rw [if_pos hh] at h; exact ⟨_, _, (Pipeline.tallyAt_pos h).1⟩
  · rw [if_neg hh] at h; exact absurd h (Nat.lt_irrefl 0)

/-- Everything owed at launch is owed to a barrier cell or to a receive cell. -/
theorem O₀_pos {c : Dev nD} {g : GSem nD τ sig} {u : Unit} (h : 0 < O₀ c g u) :
    (∃ c', g = barCell c') ∨ (∃ c' i, g = recvCell c' i) := by
  have h' : 0 < ((((((((((((((0 : CellTallies nD τ sig Unit) + sndT 5 c) + sndT 4 c) + sndT 3 c) + sndT 2 c) + sndT 1 c) + sndT 0 c) + sigT 5 c) + sigT 4 c) + sigT 3 c) + sigT 2 c) + sigT 1 c) + sigT 0 c) g u) := h
  have hs : ∀ {e : Fin 6}, 0 < sigT e c g u → (∃ c', g = barCell c') ∨ (∃ c' i, g = recvCell c' i) := fun h => Or.inl (sigT_pos h)
  have hr : ∀ {j : Fin 6}, 0 < sndT j c g u → (∃ c', g = barCell c') ∨ (∃ c' i, g = recvCell c' i) := fun h => Or.inr (sndT_pos h)
  exact add_pos_elim (add_pos_elim (add_pos_elim (add_pos_elim (add_pos_elim (add_pos_elim (add_pos_elim (add_pos_elim (add_pos_elim (add_pos_elim
    (add_pos_elim (add_pos_elim (fun h0 => absurd h0 (Nat.lt_irrefl 0)) hr) hr) hr) hr) hr) hr) hs) hs) hs) hs) hs) hs h'

omit [FloatOps F] in
/-- A wait on a staging semaphore sits at level 0, below every barrier and receive cell. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨c', rfl⟩ | ⟨c', i, rfl⟩ <;> exact Finset.mem_singleton_self _)
      (fun p hp => by rw [Finset.mem_singleton.mp hp]; dsimp only [lv]; rw [hq])
      (fun g u hg => by
        rcases O₀_pos hg with ⟨c', rfl⟩ | ⟨c', i, rfl⟩
        · exact Nat.one_pos
        · dsimp only [lv]; rw [role_recv]; exact Nat.zero_lt_two)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## Into and out of the body's assertions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

omit [FloatOps F] in
/-- The kernel's own semaphores at zero: the six send cells, then the six receive cells. -/
theorem ownSems0_cells (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
        ∗ semVal (recvCell c 0) 0 ∗ semVal (recvCell c 1) 0 ∗ semVal (recvCell c 2) 0 ∗ semVal (recvCell c 3) 0 ∗ semVal (recvCell c 4) 0 ∗ semVal (recvCell c 5) 0) := by
  rw [Pipeline.ownSems0_eq_of_list c osem [0, 1, 2, 3, 4, 5, 6, 7, 8, 9, 10, 11] (by decide) (by decide)]; rfl

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_cells]
  unfold Φ₁ scr
  rw [bigSep_fin6, bigSep_fin6]
  iintro ⟨⟨S0, S1, S2, S3, S4, S5⟩, ⟨R0, R1, R2, R3, R4, R5⟩, Hr⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [R0]; · iexact R0
    isplitl [R1]; · iexact R1
    isplitl [R2]; · iexact R2
    isplitl [R3]; · iexact R3
    isplitl [R4]; · iexact R4
    iexact R5
  · iexact Hr

/-! ## The final arrays -/

/-- The result window's one block is the whole result array, written back once: the array ends at what the body left. -/
theorem final_out (c : Dev nD) : (dats m 0 c).arrAt (1 : Fin 2) cfg0.N = outFinal m c := by
  rw [show cfg0.N = (t0_0 : Fin cfg0.N).val + 1 from rfl, (dats m 0 c).arrAt_succ (1 : Fin 2) t0_0]
  rw [show (cfg0.win (1 : Fin 2)).flush t0_0 = true from by decide, if_pos rfl]
  have hz : (fun a => (win0_1.index t0_0) a * main_v1.ty.shape.size a) = fun _ => 0 := funext fun a => by fin_cases a <;> decide
  exact Memref.write_access_unit_zero_univ (Elt F) main_v1 hz _ _ _

end Lau

open Lau

/-! ## The run -/

set_option maxRecDepth 8000 in
/-- From any memory with every semaphore at zero, every weakly fair execution of @main on the thirty-two devices ends, and
    every final state has each device's result array at the kernel's block and its input unchanged — given each device's
    body. -/
theorem run_main (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := fun c => iprop(∃ K, ghost m K c)) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (1 : Fin 2)).trans (final_out m c),
      ((h c).1 (0 : Fin 2)).trans ((dats m 0 c).arrAt_in (0 : Fin 2) rfl _)⟩)

/-- info: 'Cert.KernelIdeal.Halo.run_main' depends on axioms: [propext, Classical.choice, Quot.sound] -/
#guard_msgs in #print axioms run_main

end Cert.KernelIdeal.Halo

end
-- ==== Proof.Spec.lean ====
/-
  The seven-point stencil on a 96 × 192 × 192 grid with a zero frame, as one function of the whole array.

  At an interior point (every coordinate strictly between the first and the last index of its axis) the value is the
  sum of the six face neighbours minus six times the centre; every point of the outer frame holds zero. The six
  neighbours are added in the order x−, x+, y−, y+, z−, z+ and the multiple of the centre is subtracted last.
  Coordinates are natural numbers read through `at3`, which is zero outside the array, so that a shifted coordinate
  needs no bound of its own.
-/
import Idealize.ShloMosaic.PureOps.Ideal
import Idealize.ShloMosaic.Lib.ValueIdx

noncomputable section

namespace Cert.Halo

open Idealize.ShloMosaic Idealize.ShloMosaic.ValueIdx

/-- The whole array's shape and one device's block's. -/
abbrev SW : Shape := ⟨3, ![96, 192, 192]⟩
abbrev SB : Shape := ⟨3, ![48, 48, 48]⟩

/-- The whole array read at natural-number coordinates; zero outside. -/
def at3 (U : SW.Idx → EReal) (x y z : ℕ) : EReal :=
  if h : x < 96 ∧ y < 192 ∧ z < 192 then U (ix3 ⟨x, h.1⟩ ⟨y, h.2.1⟩ ⟨z, h.2.2⟩) else 0

theorem at3_ix3 (U : SW.Idx → EReal) (a : Fin 96) (b : Fin 192) (c : Fin 192) : at3 U a.val b.val c.val = U (ix3 a b c) := by
  unfold at3; rw [dif_pos ⟨a.isLt, b.isLt, c.isLt⟩]

/-- A point strictly inside the outer frame. -/
def interior (x y z : ℕ) : Prop := 1 ≤ x ∧ x ≤ 94 ∧ 1 ≤ y ∧ y ≤ 190 ∧ 1 ≤ z ∧ z ≤ 190

instance (x y z : ℕ) : Decidable (interior x y z) := by unfold interior; infer_instance

/-- The stencil at natural-number coordinates, `six` the factor of the centre. -/
def lap (six : EReal) (U : SW.Idx → EReal) (x y z : ℕ) : EReal :=
  if interior x y z then
    (((((at3 U (x - 1) y z + at3 U (x + 1) y z) + at3 U x (y - 1) z) + at3 U x (y + 1) z) + at3 U x y (z - 1)) + at3 U x y (z + 1))
      - six * at3 U x y z
  else 0

/-- The stencil as an array over the whole grid. -/
def lapW (six : EReal) (U : SW.Idx → EReal) : SW.Idx → EReal := fun i => lap six U (i 0).val (i 1).val (i 2).val

end Cert.Halo

end
-- ==== Proof.RefScatter.lean ====
/-
  A scatter whose body returns the update, read at one element of the result.

  The scatter is a left fold over the update indices in row-major order; each step overwrites the element at the
  update's result index, when that index lies inside the operand, and changes nothing else. So an element that no
  update lands on keeps the operand's value, and an element that exactly one update index lands on holds that update.
-/
import Idealize.ShloMosaic.PureOps.ShapeOps
import Mathlib.Data.List.Range

noncomputable section

namespace Cert.RefSide

open Idealize.ShloMosaic

section Fold

variable {ι κ α : Type}

/-- A fold whose every step leaves position `p` alone unless the step's item points at `p`: with no item of the list
    pointing at `p`, the fold leaves `p` alone. -/
theorem foldl_miss (g : κ → Option ι) (step : (ι → α) → κ → (ι → α)) (p : ι)
    (hmiss : ∀ r n, g n ≠ some p → step r n p = r p) :
    ∀ (L : List κ) (x : ι → α), (∀ n ∈ L, g n ≠ some p) → L.foldl step x p = x p
  | [], _, _ => rfl
  | a :: L, x, h => by
    rw [List.foldl_cons, foldl_miss g step p hmiss L (step x a) (fun n hn => h n (List.mem_cons_of_mem a hn)),
      hmiss x a (h a List.mem_cons_self)]

/-- With some item of the list pointing at `p`, and every item that points at `p` carrying the value `w`, the fold
    ends with `w` at `p`: the last such step writes it and the later ones leave it alone. -/
theorem foldl_hit (g : κ → Option ι) (v : κ → α) (step : (ι → α) → κ → (ι → α)) (p : ι) (w : α)
    (hmiss : ∀ r n, g n ≠ some p → step r n p = r p) (hhit : ∀ r n, g n = some p → step r n p = v n) :
    ∀ (L : List κ) (x : ι → α), (∃ n ∈ L, g n = some p) → (∀ n ∈ L, g n = some p → v n = w) → L.foldl step x p = w
  | [], _, h, _ => by obtain ⟨n, hn, _⟩ := h; cases hn
  | a :: L, x, h, hv => by
    rw [List.foldl_cons]
    by_cases hL : ∃ n ∈ L, g n = some p
    · exact foldl_hit g v step p w hmiss hhit L (step x a) hL (fun n hn => hv n (List.mem_cons_of_mem a hn))
    · have hno : ∀ n ∈ L, g n ≠ some p := fun n hn hg => hL ⟨n, hn, hg⟩
      rw [foldl_miss g step p hmiss L (step x a) hno]
      obtain ⟨n, hn, hg⟩ := h
      rcases List.mem_cons.1 hn with rfl | hn'
      · rw [hhit x n hg]; exact hv n List.mem_cons_self hg
      · exact absurd hg (hno n hn')

end Fold

section Scatter

variable {α : Type} {s si u : Shape} {w : Nat}

/-- An element no update index lands on keeps the operand's value. -/
theorem scatter_set_miss (d : ScatterDims s si u) (x : s.Idx → α) (idx : IVec si w) (upd : u.Idx → α) (p : s.Idx)
    (h : ∀ j : u.Idx, d.resultIdx? j idx ≠ some p) :
    Host.scatter d (fun _ b => b) x idx upd p = x p := by
  unfold Host.scatter
  refine foldl_miss (fun n => d.resultIdx? (u.rowMajor.symm n) idx) _ p ?_ _ x (fun n _ => h _)
  intro r n hn
  dsimp only
  cases hg : d.resultIdx? (u.rowMajor.symm n) idx with
  | none => rfl
  | some i =>
    have hne : p ≠ i := fun hpi => hn (by rw [hg, hpi])
    simp only [if_neg hne]

/-- An element exactly one update index `j` lands on holds that update. -/
theorem scatter_set_hit (d : ScatterDims s si u) (x : s.Idx → α) (idx : IVec si w) (upd : u.Idx → α) (p : s.Idx) (j : u.Idx)
    (hj : d.resultIdx? j idx = some p) (huniq : ∀ j' : u.Idx, d.resultIdx? j' idx = some p → j' = j) :
    Host.scatter d (fun _ b => b) x idx upd p = upd j := by
  unfold Host.scatter
  refine foldl_hit (fun n => d.resultIdx? (u.rowMajor.symm n) idx) (fun n => upd (u.rowMajor.symm n)) _ p (upd j) ?_ ?_ _ x
    ⟨u.rowMajor j, List.mem_finRange _, by simpa using hj⟩ (fun n _ hn => by rw [huniq _ hn])
  · intro r n hn
    dsimp only
    cases hg : d.resultIdx? (u.rowMajor.symm n) idx with
    | none => rfl
    | some i =>
      have hne : p ≠ i := fun hpi => hn (by rw [hg, hpi])
      simp only [if_neg hne]
  · intro r n hn
    dsimp only at hn ⊢
    rw [hn]
    simp only [if_true]

end Scatter

end Cert.RefSide

end
-- ==== Proof.RefSide.lean ====
/-
  The one-device reference program's result is the seven-point stencil of its argument, index by index.

  The program adds the six shifted interior windows of the argument, subtracts six times the centre window, and
  scatters the 94 × 190 × 190 result at the start index (1, 1, 1) into an array of zeros. Read at a point of the
  96 × 192 × 192 result: a point strictly inside the outer frame is the image of exactly one update index (each
  coordinate less one), so it holds the update there, which is the stencil; a point of the frame is the image of
  none, so it keeps the zero of the operand.
-/
import proofs.«900537_g7700000000000538_dist_halo3d_v7x_xyz2x4x4_s48_f32_1_alg».proof.Defs
import proofs.«900537_g7700000000000538_dist_halo3d_v7x_xyz2x4x4_s48_f32_1_alg».proof.Proof.Gen.ReferenceIdeal
import proofs.«900537_g7700000000000538_dist_halo3d_v7x_xyz2x4x4_s48_f32_1_alg».proof.Proof.Gen.ReferenceIdeal.Run
import proofs.«900537_g7700000000000538_dist_halo3d_v7x_xyz2x4x4_s48_f32_1_alg».proof.Proof.Gen.ReferenceIdeal.Read
import proofs.«900537_g7700000000000538_dist_halo3d_v7x_xyz2x4x4_s48_f32_1_alg».proof.Proof.Gen.Pre_finite_inputs_ReferenceIdeal
import proofs.«900537_g7700000000000538_dist_halo3d_v7x_xyz2x4x4_s48_f32_1_alg».proof.Proof.Spec
import proofs.«900537_g7700000000000538_dist_halo3d_v7x_xyz2x4x4_s48_f32_1_alg».proof.Proof.RefScatter
import Idealize.ShloMosaic.Lib.ValueIdx
import Idealize.ShloMosaic.Lib.Pipeline.Value
import Idealize.ShloMosaic.PureOps.Ideal.Laws
import Idealize.ShloMosaic.Lib.StableHlo.Run

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx Cert.Halo

/-- The factor of the centre: the value of the single-precision word of 6.0. -/
def SIX : EReal := Ideal.ofBits .f32 0x40C00000#32

/-- The scatter's dimension numbers: a full-rank window, no inserted axis, the three components of the one index
    vector naming the three operand axes in order. -/
abbrev D : ScatterDims S96x192x192 S3 S94x190x190 := scatter_S96x192x192_S3_S94x190x190_012_n_012_0

/-! ## The index vector is (1, 1, 1) -/

/-- The concatenation of three one-element vectors, each the splat of 1. -/
theorem idx_one (k : S3.Idx) : Read.val_main_v19 (F := Ideal) k = 1#32 := by
  have h := concatenate_replicate_apply (α := BitVec 32) (t := S3) (s₁ := S1) 0 3
    (broadcastInDim S1 ![] bcast_S_S1 (constantI S_ 32 1#32)) concatenates_S1_S1_S1_S3_d0 rfl k (ix1 ⟨0, Nat.one_pos⟩)
    (by show (0 : ℕ) = (k 0).val % 1; omega) (fun b hb => absurd (Subsingleton.elim _ _) hb)
  exact h

/-! ## Where an update index lands -/

theorem start_one (idx : IVec S3 32) (hidx : ∀ k, idx k = 1#32) (j : S94x190x190.Idx) (a : Fin S96x192x192.rank) :
    D.start j idx a = 1 := by
  unfold ScatterDims.start
  have hall : ∀ b : Fin 3, b ∈ D.scatterDimsToOperandDims := by decide
  have ha : a ∈ D.scatterDimsToOperandDims := hall a
  rw [dif_pos ha, hidx]; rfl

theorem window_eq (j : S94x190x190.Idx) (a : Fin 3) : D.window j a = (j a).val := by
  match a with
  | ⟨0, _⟩ => rfl
  | ⟨1, _⟩ => rfl
  | ⟨2, _⟩ => rfl

/-- The operand index of update index `j`: every coordinate one more. -/
theorem resultIdx_eq (idx : IVec S3 32) (hidx : ∀ k, idx k = 1#32) (j : S94x190x190.Idx) :
    D.resultIdx? j idx = some (Read.idx_main_v12 j) := by
  have hs := start_one idx hidx j
  have hw := window_eq j
  have h0 : (j 0).val < 94 := (j 0).isLt
  have h1 : (j 1).val < 190 := (j 1).isLt
  have h2 : (j 2).val < 190 := (j 2).isLt
  have hall : ∀ a, 0 ≤ D.start j idx a + D.window j a ∧ D.start j idx a + D.window j a < S96x192x192.size a := by
    intro a; rw [hs a, hw a]
    match a with
    | ⟨0, _⟩ => show 0 ≤ (1 : ℤ) + ((j 0).val : ℤ) ∧ (1 : ℤ) + ((j 0).val : ℤ) < ((96 : ℕ) : ℤ); omega
    | ⟨1, _⟩ => show 0 ≤ (1 : ℤ) + ((j 1).val : ℤ) ∧ (1 : ℤ) + ((j 1).val : ℤ) < ((192 : ℕ) : ℤ); omega
    | ⟨2, _⟩ => show 0 ≤ (1 : ℤ) + ((j 2).val : ℤ) ∧ (1 : ℤ) + ((j 2).val : ℤ) < ((192 : ℕ) : ℤ); omega
  unfold ScatterDims.resultIdx?
  rw [dif_pos hall]
  refine congrArg some (funext fun a => Fin.ext ?_)
  show (D.start j idx a + D.window j a).toNat = (Read.idx_main_v12 j a).val
  rw [hs a, hw a]
  match a with
  | ⟨0, _⟩ => show ((1 : ℤ) + ((j 0).val : ℤ)).toNat = 1 + (j 0).val; omega
  | ⟨1, _⟩ => show ((1 : ℤ) + ((j 1).val : ℤ)).toNat = 1 + (j 1).val; omega
  | ⟨2, _⟩ => show ((1 : ℤ) + ((j 2).val : ℤ)).toNat = 1 + (j 2).val; omega

/-- Two update indices with one image are equal. -/
theorem v12_inj (j' j : S94x190x190.Idx) (h : Read.idx_main_v12 j' = Read.idx_main_v12 j) : j' = j := by
  have e0 : 1 + (j' 0).val = 1 + (j 0).val := congrArg (fun q : S96x192x192.Idx => (q 0).val) h
  have e1 : 1 + (j' 1).val = 1 + (j 1).val := congrArg (fun q : S96x192x192.Idx => (q 1).val) h
  have e2 : 1 + (j' 2).val = 1 + (j 2).val := congrArg (fun q : S96x192x192.Idx => (q 2).val) h
  funext a
  match a with
  | ⟨0, _⟩ => exact Fin.ext (show (j' 0).val = (j 0).val by omega)
  | ⟨1, _⟩ => exact Fin.ext (show (j' 1).val = (j 1).val by omega)
  | ⟨2, _⟩ => exact Fin.ext (show (j' 2).val = (j 2).val by omega)

/-- The image of an update index lies strictly inside the outer frame. -/
theorem v12_interior (j : S94x190x190.Idx) :
    Halo.interior (Read.idx_main_v12 j 0).val (Read.idx_main_v12 j 1).val (Read.idx_main_v12 j 2).val := by
  have h0 : (j 0).val < 94 := (j 0).isLt
  have h1 : (j 1).val < 190 := (j 1).isLt
  have h2 : (j 2).val < 190 := (j 2).isLt
  show Halo.interior (1 + (j 0).val) (1 + (j 1).val) (1 + (j 2).val)
  unfold Halo.interior; omega

/-- The update index under a point strictly inside the frame: every coordinate one less. -/
def under (p : S96x192x192.Idx) (hi : Halo.interior (p 0).val (p 1).val (p 2).val) : S94x190x190.Idx :=
  ix3 ⟨(p 0).val - 1, by unfold Halo.interior at hi; omega⟩ ⟨(p 1).val - 1, by unfold Halo.interior at hi; omega⟩
    ⟨(p 2).val - 1, by unfold Halo.interior at hi; omega⟩

theorem v12_under (p : S96x192x192.Idx) (hi : Halo.interior (p 0).val (p 1).val (p 2).val) :
    Read.idx_main_v12 (under p hi) = p := by
  have hi' := hi
  unfold Halo.interior at hi'
  funext a
  match a with
  | ⟨0, _⟩ => exact Fin.ext (show 1 + ((p 0).val - 1) = (p 0).val by omega)
  | ⟨1, _⟩ => exact Fin.ext (show 1 + ((p 1).val - 1) = (p 1).val by omega)
  | ⟨2, _⟩ => exact Fin.ext (show 1 + ((p 2).val - 1) = (p 2).val by omega)

/-! ## The argument read at the seven shifted indices -/

/-- The array read at natural-number coordinates that are an index's. -/
theorem at3_eq (U : SW.Idx → EReal) (q : SW.Idx) {x y z : ℕ} (h0 : (q 0).val = x) (h1 : (q 1).val = y) (h2 : (q 2).val = z) :
    at3 U x y z = U q := by
  subst h0 h1 h2
  exact (at3_ix3 U (q 0) (q 1) (q 2)).trans (congrArg U (eq_ix3 q).symm)

/-- The update at the index under an interior point is the stencil there. -/
theorem v15_under (x0 : S96x192x192.Idx → EReal) (p : S96x192x192.Idx) (hi : Halo.interior (p 0).val (p 1).val (p 2).val) :
    Read.val_main_v15 (F := Ideal) x0 (under p hi)
      = (((((at3 x0 ((p 0).val - 1) (p 1).val (p 2).val + at3 x0 ((p 0).val + 1) (p 1).val (p 2).val)
            + at3 x0 (p 0).val ((p 1).val - 1) (p 2).val) + at3 x0 (p 0).val ((p 1).val + 1) (p 2).val)
            + at3 x0 (p 0).val (p 1).val ((p 2).val - 1)) + at3 x0 (p 0).val (p 1).val ((p 2).val + 1))
          - SIX * at3 x0 (p 0).val (p 1).val (p 2).val := by
  have hi' := hi
  unfold Halo.interior at hi'
  rw [at3_eq x0 (Read.idx_main_v1 (under p hi)) (x := (p 0).val - 1) (y := (p 1).val) (z := (p 2).val) rfl
      (show 1 + ((p 1).val - 1) = (p 1).val by omega) (show 1 + ((p 2).val - 1) = (p 2).val by omega),
    at3_eq x0 (Read.idx_main_v2 (under p hi)) (x := (p 0).val + 1) (y := (p 1).val) (z := (p 2).val)
      (show 2 + ((p 0).val - 1) = (p 0).val + 1 by omega)
      (show 1 + ((p 1).val - 1) = (p 1).val by omega) (show 1 + ((p 2).val - 1) = (p 2).val by omega),
    at3_eq x0 (Read.idx_main_v4 (under p hi)) (x := (p 0).val) (y := (p 1).val - 1) (z := (p 2).val)
      (show 1 + ((p 0).val - 1) = (p 0).val by omega) rfl (show 1 + ((p 2).val - 1) = (p 2).val by omega),
    at3_eq x0 (Read.idx_main_v6 (under p hi)) (x := (p 0).val) (y := (p 1).val + 1) (z := (p 2).val)
      (show 1 + ((p 0).val - 1) = (p 0).val by omega) (show 2 + ((p 1).val - 1) = (p 1).val + 1 by omega)
      (show 1 + ((p 2).val - 1) = (p 2).val by omega),
    at3_eq x0 (Read.idx_main_v8 (under p hi)) (x := (p 0).val) (y := (p 1).val) (z := (p 2).val - 1)
      (show 1 + ((p 0).val - 1) = (p 0).val by omega) (show 1 + ((p 1).val - 1) = (p 1).val by omega) rfl,
    at3_eq x0 (Read.idx_main_v10 (under p hi)) (x := (p 0).val) (y := (p 1).val) (z := (p 2).val + 1)
      (show 1 + ((p 0).val - 1) = (p 0).val by omega) (show 1 + ((p 1).val - 1) = (p 1).val by omega)
      (show 2 + ((p 2).val - 1) = (p 2).val + 1 by omega),
    at3_eq x0 (Read.idx_main_v12 (under p hi)) (x := (p 0).val) (y := (p 1).val) (z := (p 2).val)
      (show 1 + ((p 0).val - 1) = (p 0).val by omega) (show 1 + ((p 1).val - 1) = (p 1).val by omega)
      (show 1 + ((p 2).val - 1) = (p 2).val by omega)]
  rw [Read.val_main_v15_apply, Read.val_main_v11_apply, Read.val_main_v9_apply, Read.val_main_v7_apply,
    Read.val_main_v5_apply, Read.val_main_v3_apply, Read.val_main_v14_apply, Read.val_main_v1_apply,
    Read.val_main_v2_apply, Read.val_main_v4_apply, Read.val_main_v6_apply, Read.val_main_v8_apply,
    Read.val_main_v10_apply, Read.val_main_v12_apply, Read.val_main_v13_apply, Read.val_main_cst_0_apply]
  rfl

/-! ## The result read at an index -/

theorem val20_apply (x0 : S96x192x192.Idx → EReal) (p : S96x192x192.Idx) :
    Read.val_main_v20 (F := Ideal) x0 p = lapW SIX x0 p := by
  show Host.scatter D (fun _ b => b) (Read.val_main_v0 (F := Ideal)) (Read.val_main_v19 (F := Ideal))
      (Read.val_main_v15 (F := Ideal) x0) p = lap SIX x0 (p 0).val (p 1).val (p 2).val
  unfold lap
  by_cases hi : Halo.interior (p 0).val (p 1).val (p 2).val
  · rw [if_pos hi, ← v15_under x0 p hi]
    refine scatter_set_hit D _ _ _ p (under p hi) ?_ ?_
    · rw [resultIdx_eq _ idx_one, v12_under]
    · intro j' hj'
      rw [resultIdx_eq _ idx_one] at hj'
      exact v12_inj j' _ ((Option.some.inj hj').trans (v12_under p hi).symm)
  · rw [if_neg hi]
    rw [scatter_set_miss D _ _ _ p (fun j hj => hi (by
      rw [resultIdx_eq _ idx_one] at hj
      rw [← Option.some.inj hj]; exact v12_interior j))]
    rw [Read.val_main_v0_apply, Read.val_main_cst_apply]
    exact Ideal.ofBits_zero_f32

/-! ## The run -/

/-- Every weakly fair execution of the reference terminates with its result the stencil of its argument and the
    argument unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v20)
          = Cert.Halo.lapW SIX (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans ((Read.val_main_v20_eq _).trans (funext fun p => val20_apply _ p)), (h 0).2⟩)
    (Cert.ReferenceIdeal.Value.run (F := Ideal) m' ρ')

/-- The reference runs and leaves its argument unchanged. -/
theorem frame_ri : Cert.frame_ReferenceIdeal :=
  fun m ρ _ => (θ_run Cert.ReferenceIdeal.defs _ _).mono (fun _ h c => (h c).2) (Cert.ReferenceIdeal.Value.run (F := Ideal) m ρ)

end Cert.RefSide

end
-- ==== Proof.ValBase.lean ====
/-
  The kernel's value, the vocabulary: the input block as a function, one plane of the result block stored or loaded
  and read at an index, and the payloads of the plane stores read at an index.

  A store through a unit-stride rectangle changes exactly the indices inside it, each to the payload at its position
  in the rectangle; a load reads the block at the rectangle's indices. The payload of an addition stage is the plane
  plus the landed face, the face read at the plane's two free coordinates; the payload of a zeroing stage is zero.
-/
import proofs.«900537_g7700000000000538_dist_halo3d_v7x_xyz2x4x4_s48_f32_1_alg».proof.Proof.Out
import Idealize.ShloMosaic.Lib.ValueIdx
import Idealize.ShloMosaic.Lib.Pipeline.Value
import Idealize.ShloMosaic.Lib.WritesUnit
import Idealize.ShloMosaic.PureOps.Ideal.Laws

noncomputable section

namespace Cert.KernelIdeal.Halo.Val

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The input block -/

/-- The staging buffer holds the device's input block as it is. -/
theorem xstg_eq (c : Dev nD) : xstg m c = m ((c : Thread nD τ).loc main_arg0) := by
  funext x
  unfold xstg
  rw [View.read_apply]
  have he : (win0_0.blk (0 : Fin 1)).view.emb x = x := funext fun a => Fin.ext (by
    show 0 * _ + 1 * (x a).val = (x a).val
    omega)
  rw [he]
  rfl

theorem val_ldU_eq (c : Dev nD) : ldU m c = xstg m c := by
  unfold ldU
  exact Memref.readAt_unit_zero (Elt F) cc0_stg0_0 (off := ![0, 0, 0]) (by decide) _ _

theorem val_blk_eq (c : Dev nD) : blk m c = xstg m c := by
  unfold blk k0_pay2
  rw [shapeCast_self, val_ldU_eq]

/-! ## A store of one plane and a load of one plane, read at an index -/

/-- An index inside the stored rectangle holds the payload at its position in the rectangle. -/
theorem putO_hit {off size : Fin S48x48x48.rank → ℕ} (inb : ∀ a, off a + size a ≤ S48x48x48.size a)
    (o : (cc0_stg1_0 : Ref sig .tc).ty.Contents (Elt F)) (w : (Rect.unit off size inb).shape.Idx → Elt F .f32)
    (y : S48x48x48.Idx) (x : (Rect.unit off size inb).shape.Idx) (hx : ∀ a, (y a).val = off a + (x a).val) :
    putO (Rect.unit off size inb) o w y = w x :=
  View.read_writes_cons_unit_of_mem oM.view o inb w [] y x rfl hx

/-- An index outside the stored rectangle on some axis keeps what it held. -/
theorem putO_miss {off size : Fin S48x48x48.rank → ℕ} (inb : ∀ a, off a + size a ≤ S48x48x48.size a)
    (o : (cc0_stg1_0 : Ref sig .tc).ty.Contents (Elt F)) (w : (Rect.unit off size inb).shape.Idx → Elt F .f32)
    (y : S48x48x48.Idx) (a : Fin S48x48x48.rank) (ha : (y a).val < off a ∨ off a + size a ≤ (y a).val) :
    putO (Rect.unit off size inb) o w y = o y :=
  View.read_writes_cons_unit_of_not_mem oM.view o inb w [] y rfl a ha

/-- A load of a rectangle of the result block reads the block at the rectangle's indices. -/
theorem getO_apply (r : Rect S48x48x48) (o : (cc0_stg1_0 : Ref sig .tc).ty.Contents (Elt F)) (x : r.toLoadRect.shape.Idx)
    (y : S48x48x48.Idx) (hy : ∀ a, (y a).val = r.off a + r.stride a * (x a).val) : getO r o x = o y := by
  show o (r.toLoadRect.idx x) = o y
  exact congrArg o (funext fun a => Fin.ext (hy a).symm)

/-- A result block and an input block read at three coordinates, as extended reals. -/
def rdO (o : (cc0_stg1_0 : Ref sig .tc).ty.Contents (Elt Ideal)) (a b d : Fin 48) : EReal := o (ix3 a b d)
def rdX (X : (cc0_stg0_0 : Ref sig .tc).ty.Contents (Elt Ideal)) (a b d : Fin 48) : EReal := X (ix3 a b d)

/-! ## The payloads of the plane stores, read at an index -/

section Payloads

variable {α : Type}

/-- Two shape casts in a row read the operand at the index with the same row-major position. -/
theorem shapeCast2_apply {s t u : Shape} (x : s.Idx → α) (h1 : s.ShapeCasts t) (h2 : t.ShapeCasts u) (j : u.Idx) (k : s.Idx)
    (hk : (s.rowMajor k).val = (u.rowMajor j).val) : shapeCast u (shapeCast t x h1) h2 j = x k := by
  show x (Shape.reshapeEquiv _ (Shape.reshapeEquiv _ j)) = x k
  rw [Shape.reshapeEquiv_reshapeEquiv]
  exact congrArg x (Shape.reshapeEquiv_eq_of_rowMajor _ hk)

/-- The zero word is the real zero. -/
theorem zero_word : (Scalar.ofBits .f32 0x00000000#32 : Ideal .f32) = (0 : EReal) := Ideal.ofBits_zero_f32

theorem pay5_apply (j : S1x48x48.Idx) : k0_pay5 (F := Ideal) j = (0 : EReal) := zero_word
theorem pay6_apply (j : S48x1x48.Idx) : k0_pay6 (F := Ideal) j = (0 : EReal) := zero_word
theorem pay7_apply (j : S48x48x1.Idx) : k0_pay7 (F := Ideal) j = (0 : EReal) := zero_word
theorem pay16_apply (j : S1x48x48.Idx) : k0_pay16 (F := Ideal) j = (0 : EReal) := zero_word
theorem pay17_apply (j : S1x48x48.Idx) : k0_pay17 (F := Ideal) j = (0 : EReal) := zero_word
theorem pay18_apply (j : S48x1x48.Idx) : k0_pay18 (F := Ideal) j = (0 : EReal) := zero_word
theorem pay19_apply (j : S48x1x48.Idx) : k0_pay19 (F := Ideal) j = (0 : EReal) := zero_word
theorem pay20_apply (j : S48x48x1.Idx) : k0_pay20 (F := Ideal) j = (0 : EReal) := zero_word
theorem pay1_apply (j : S48x48x1.Idx) : k0_pay1 (F := Ideal) j = (0 : EReal) := zero_word

/-- The x planes: the plane plus the landed face, index by index. -/
theorem pay10_apply (v w : Vec Ideal S1x48x48 .f32) (j : S1x48x48.Idx) : k0_pay10 v w j = (v j + w j : EReal) := by
  unfold k0_pay10
  show (shapeCast S1x48x48 (shapeCast S48x48 v _) _ j : EReal) + shapeCast S1x48x48 (shapeCast S48x48 w _) _ j = _
  rw [shapeCast_shapeCast, shapeCast_shapeCast]
theorem pay11_apply (v w : Vec Ideal S1x48x48 .f32) (j : S1x48x48.Idx) : k0_pay11 v w j = (v j + w j : EReal) := by
  unfold k0_pay11
  show (shapeCast S1x48x48 (shapeCast S48x48 v _) _ j : EReal) + shapeCast S1x48x48 (shapeCast S48x48 w _) _ j = _
  rw [shapeCast_shapeCast, shapeCast_shapeCast]

/-- The y planes: the landed face is read at the plane's two free coordinates. -/
theorem pay12_apply (v : Vec Ideal S48x1x48 .f32) (w : Vec Ideal S1x48x48 .f32) (a : Fin 48) (z : Fin 1) (d : Fin 48) :
    k0_pay12 v w (ix3 a z d) = (v (ix3 a z d) + w (ix3 (0 : Fin 1) a d) : EReal) := by
  unfold k0_pay12
  show (shapeCast S48x1x48 (shapeCast S48x48 v _) _ (ix3 a z d) : EReal) + shapeCast S48x1x48 (shapeCast S48x48 w _) _ (ix3 a z d) = _
  rw [shapeCast_shapeCast, shapeCast2_apply w _ _ (ix3 a z d) (ix3 (0 : Fin 1) a d) (by
    rw [Shape.rowMajor_val_three, Shape.rowMajor_val_three]
    have hz : z.val < 1 := z.isLt
    show (0 * 48 + a.val) * 48 + d.val = (a.val * 1 + z.val) * 48 + d.val
    omega)]
theorem pay13_apply (v : Vec Ideal S48x1x48 .f32) (w : Vec Ideal S1x48x48 .f32) (a : Fin 48) (z : Fin 1) (d : Fin 48) :
    k0_pay13 v w (ix3 a z d) = (v (ix3 a z d) + w (ix3 (0 : Fin 1) a d) : EReal) := by
  unfold k0_pay13
  show (shapeCast S48x1x48 (shapeCast S48x48 v _) _ (ix3 a z d) : EReal) + shapeCast S48x1x48 (shapeCast S48x48 w _) _ (ix3 a z d) = _
  rw [shapeCast_shapeCast, shapeCast2_apply w _ _ (ix3 a z d) (ix3 (0 : Fin 1) a d) (by
    rw [Shape.rowMajor_val_three, Shape.rowMajor_val_three]
    have hz : z.val < 1 := z.isLt
    show (0 * 48 + a.val) * 48 + d.val = (a.val * 1 + z.val) * 48 + d.val
    omega)]

/-- The z planes likewise. -/
theorem pay14_apply (v : Vec Ideal S48x48x1 .f32) (w : Vec Ideal S1x48x48 .f32) (a b : Fin 48) (z : Fin 1) :
    k0_pay14 v w (ix3 a b z) = (v (ix3 a b z) + w (ix3 (0 : Fin 1) a b) : EReal) := by
  unfold k0_pay14
  show (shapeCast S48x48x1 (shapeCast S48x48 v _) _ (ix3 a b z) : EReal) + shapeCast S48x48x1 (shapeCast S48x48 w _) _ (ix3 a b z) = _
  rw [shapeCast_shapeCast, shapeCast2_apply w _ _ (ix3 a b z) (ix3 (0 : Fin 1) a b) (by
    rw [Shape.rowMajor_val_three, Shape.rowMajor_val_three]
    have hz : z.val < 1 := z.isLt
    show (0 * 48 + a.val) * 48 + b.val = (a.val * 48 + b.val) * 1 + z.val
    omega)]
theorem pay15_apply (v : Vec Ideal S48x48x1 .f32) (w : Vec Ideal S1x48x48 .f32) (a b : Fin 48) (z : Fin 1) :
    k0_pay15 v w (ix3 a b z) = (v (ix3 a b z) + w (ix3 (0 : Fin 1) a b) : EReal) := by
  unfold k0_pay15
  show (shapeCast S48x48x1 (shapeCast S48x48 v _) _ (ix3 a b z) : EReal) + shapeCast S48x48x1 (shapeCast S48x48 w _) _ (ix3 a b z) = _
  rw [shapeCast_shapeCast, shapeCast2_apply w _ _ (ix3 a b z) (ix3 (0 : Fin 1) a b) (by
    rw [Shape.rowMajor_val_three, Shape.rowMajor_val_three]
    have hz : z.val < 1 := z.isLt
    show (0 * 48 + a.val) * 48 + b.val = (a.val * 48 + b.val) * 1 + z.val
    omega)]

end Payloads

end Cert.KernelIdeal.Halo.Val

end
-- ==== Proof.ValOwn.lean ====
/-
  The block's own stencil read at a point: each of the six shifted copies of the block is the block one step that way,
  zero where the step leaves the block; they are added in the order x−, x+, y−, y+, z−, z+ and six times the centre is
  subtracted.
-/
import proofs.«900537_g7700000000000538_dist_halo3d_v7x_xyz2x4x4_s48_f32_1_alg».proof.Proof.ValBase
import proofs.«900537_g7700000000000538_dist_halo3d_v7x_xyz2x4x4_s48_f32_1_alg».proof.Proof.RefSide

noncomputable section

namespace Cert.KernelIdeal.Halo.Val

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The block's own stencil, read at an index -/

section Own

/-- The block read at natural-number coordinates; zero outside. -/
def bat (X : S48x48x48.Idx → EReal) (i j k : ℕ) : EReal :=
  if h : i < 48 ∧ j < 48 ∧ k < 48 then X (ix3 ⟨i, h.1⟩ ⟨j, h.2.1⟩ ⟨k, h.2.2⟩) else 0

theorem bat_ix3 (X : S48x48x48.Idx → EReal) (a b d : Fin 48) : bat X a.val b.val d.val = X (ix3 a b d) := by
  unfold bat; rw [dif_pos ⟨a.isLt, b.isLt, d.isLt⟩]

variable (X : FVec Ideal S48x48x48 .f32) (a b d : Fin 48)

/-- The block shifted one plane up along x, a zero plane in front. -/
theorem cat_xm :
    concatenate S48x48x48 0 [⟨S1x48x48, k0_pay5 (F := Ideal)⟩, ⟨S47x48x48, extractStridedSlice S47x48x48 ![0, 0, 0] X slices_S48x48x48_o0_0_0_S47x48x48⟩]
        concatenates_S1x48x48_S47x48x48_S48x48x48_d0 (ix3 a b d)
      = if a.val = 0 then (0 : EReal) else bat X (a.val - 1) b.val d.val := by
  have hlt := a.isLt
  by_cases h : a.val = 0
  · rw [if_pos h]
    refine (concatenate_pair_apply_left (t := S48x48x48) (s₁ := S1x48x48) (s₂ := S47x48x48) (0 : Fin 3) _ _ _ (ix3 a b d) rfl
      (ix3 (0 : Fin 1) b d) (fun e => ?_)).trans (pay5_apply _)
    match e with
    | ⟨0, _⟩ => exact h.symm
    | ⟨1, _⟩ => rfl
    | ⟨2, _⟩ => rfl
  · rw [if_neg h]
    refine (concatenate_pair_apply_right (t := S48x48x48) (s₁ := S1x48x48) (s₂ := S47x48x48) (0 : Fin 3) _ _ _ (ix3 a b d) rfl rfl
      (ix3 (⟨a.val - 1, by omega⟩ : Fin 47) b d) (fun e he => ?_) ?_).trans ?_
    · match e with
      | ⟨0, _⟩ => exact absurd rfl he
      | ⟨1, _⟩ => rfl
      | ⟨2, _⟩ => rfl
    · show (a.val - 1) + 1 = a.val; omega
    · refine (extractStridedSlice_apply ![0, 0, 0] X _ _ (ix3 (⟨a.val - 1, by omega⟩ : Fin 48) b d) (fun e => ?_)).trans ?_
      · match e with
        | ⟨0, _⟩ => show a.val - 1 = 0 + (a.val - 1); omega
        | ⟨1, _⟩ => show b.val = 0 + b.val; omega
        | ⟨2, _⟩ => show d.val = 0 + d.val; omega
      · unfold bat; rw [dif_pos ⟨by omega, b.isLt, d.isLt⟩]

/-- The block shifted one plane down along x, a zero plane behind. -/
theorem cat_xp :
    concatenate S48x48x48 0 [⟨S47x48x48, extractStridedSlice S47x48x48 ![1, 0, 0] X slices_S48x48x48_o1_0_0_S47x48x48⟩, ⟨S1x48x48, k0_pay5 (F := Ideal)⟩]
        concatenates_S47x48x48_S1x48x48_S48x48x48_d0 (ix3 a b d)
      = if a.val = 47 then (0 : EReal) else bat X (a.val + 1) b.val d.val := by
  have hlt := a.isLt
  by_cases h : a.val = 47
  · rw [if_pos h]
    refine (concatenate_pair_apply_right (t := S48x48x48) (s₁ := S47x48x48) (s₂ := S1x48x48) (0 : Fin 3) _ _ _ (ix3 a b d) rfl rfl
      (ix3 (0 : Fin 1) b d) (fun e he => ?_) ?_).trans (pay5_apply _)
    · match e with
      | ⟨0, _⟩ => exact absurd rfl he
      | ⟨1, _⟩ => rfl
      | ⟨2, _⟩ => rfl
    · show 0 + 47 = a.val; omega
  · rw [if_neg h]
    refine (concatenate_pair_apply_left (t := S48x48x48) (s₁ := S47x48x48) (s₂ := S1x48x48) (0 : Fin 3) _ _ _ (ix3 a b d) rfl
      (ix3 (⟨a.val, by omega⟩ : Fin 47) b d) (fun e => ?_)).trans ?_
    · match e with
      | ⟨0, _⟩ => rfl
      | ⟨1, _⟩ => rfl
      | ⟨2, _⟩ => rfl
    · refine (extractStridedSlice_apply ![1, 0, 0] X _ _ (ix3 (⟨a.val + 1, by omega⟩ : Fin 48) b d) (fun e => ?_)).trans ?_
      · match e with
        | ⟨0, _⟩ => show a.val + 1 = 1 + a.val; omega
        | ⟨1, _⟩ => show b.val = 0 + b.val; omega
        | ⟨2, _⟩ => show d.val = 0 + d.val; omega
      · unfold bat; rw [dif_pos ⟨by omega, b.isLt, d.isLt⟩]

/-- The block shifted one plane up along y, a zero plane in front. -/
theorem cat_ym :
    concatenate S48x48x48 1 [⟨S48x1x48, k0_pay6 (F := Ideal)⟩, ⟨S48x47x48, extractStridedSlice S48x47x48 ![0, 0, 0] X slices_S48x48x48_o0_0_0_S48x47x48⟩]
        concatenates_S48x1x48_S48x47x48_S48x48x48_d1 (ix3 a b d)
      = if b.val = 0 then (0 : EReal) else bat X a.val (b.val - 1) d.val := by
  have hlt := b.isLt
  by_cases h : b.val = 0
  · rw [if_pos h]
    refine (concatenate_pair_apply_left (t := S48x48x48) (s₁ := S48x1x48) (s₂ := S48x47x48) (1 : Fin 3) _ _ _ (ix3 a b d) rfl
      (ix3 a (0 : Fin 1) d) (fun e => ?_)).trans (pay6_apply _)
    match e with
    | ⟨0, _⟩ => rfl
    | ⟨1, _⟩ => exact h.symm
    | ⟨2, _⟩ => rfl
  · rw [if_neg h]
    refine (concatenate_pair_apply_right (t := S48x48x48) (s₁ := S48x1x48) (s₂ := S48x47x48) (1 : Fin 3) _ _ _ (ix3 a b d) rfl rfl
      (ix3 a (⟨b.val - 1, by omega⟩ : Fin 47) d) (fun e he => ?_) ?_).trans ?_
    · match e with
      | ⟨0, _⟩ => rfl
      | ⟨1, _⟩ => exact absurd rfl he
      | ⟨2, _⟩ => rfl
    · show (b.val - 1) + 1 = b.val; omega
    · refine (extractStridedSlice_apply ![0, 0, 0] X _ _ (ix3 a (⟨b.val - 1, by omega⟩ : Fin 48) d) (fun e => ?_)).trans ?_
      · match e with
        | ⟨0, _⟩ => show a.val = 0 + a.val; omega
        | ⟨1, _⟩ => show b.val - 1 = 0 + (b.val - 1); omega
        | ⟨2, _⟩ => show d.val = 0 + d.val; omega
      · unfold bat; rw [dif_pos ⟨a.isLt, by omega, d.isLt⟩]

/-- The block shifted one plane down along y, a zero plane behind. -/
theorem cat_yp :
    concatenate S48x48x48 1 [⟨S48x47x48, extractStridedSlice S48x47x48 ![0, 1, 0] X slices_S48x48x48_o0_1_0_S48x47x48⟩, ⟨S48x1x48, k0_pay6 (F := Ideal)⟩]
        concatenates_S48x47x48_S48x1x48_S48x48x48_d1 (ix3 a b d)
      = if b.val = 47 then (0 : EReal) else bat X a.val (b.val + 1) d.val := by
  have hlt := b.isLt
  by_cases h : b.val = 47
  · rw [if_pos h]
    refine (concatenate_pair_apply_right (t := S48x48x48) (s₁ := S48x47x48) (s₂ := S48x1x48) (1 : Fin 3) _ _ _ (ix3 a b d) rfl rfl
      (ix3 a (0 : Fin 1) d) (fun e he => ?_) ?_).trans (pay6_apply _)
    · match e with
      | ⟨0, _⟩ => rfl
      | ⟨1, _⟩ => exact absurd rfl he
      | ⟨2, _⟩ => rfl
    · show 0 + 47 = b.val; omega
  · rw [if_neg h]
    refine (concatenate_pair_apply_left (t := S48x48x48) (s₁ := S48x47x48) (s₂ := S48x1x48) (1 : Fin 3) _ _ _ (ix3 a b d) rfl
      (ix3 a (⟨b.val, by omega⟩ : Fin 47) d) (fun e => ?_)).trans ?_
    · match e with
      | ⟨0, _⟩ => rfl
      | ⟨1, _⟩ => rfl
      | ⟨2, _⟩ => rfl
    · refine (extractStridedSlice_apply ![0, 1, 0] X _ _ (ix3 a (⟨b.val + 1, by omega⟩ : Fin 48) d) (fun e => ?_)).trans ?_
      · match e with
        | ⟨0, _⟩ => show a.val = 0 + a.val; omega
        | ⟨1, _⟩ => show b.val + 1 = 1 + b.val; omega
        | ⟨2, _⟩ => show d.val = 0 + d.val; omega
      · unfold bat; rw [dif_pos ⟨a.isLt, by omega, d.isLt⟩]

/-- The block shifted one plane up along z, a zero plane in front. -/
theorem cat_zm :
    concatenate S48x48x48 2 [⟨S48x48x1, k0_pay7 (F := Ideal)⟩, ⟨S48x48x47, extractStridedSlice S48x48x47 ![0, 0, 0] X slices_S48x48x48_o0_0_0_S48x48x47⟩]
        concatenates_S48x48x1_S48x48x47_S48x48x48_d2 (ix3 a b d)
      = if d.val = 0 then (0 : EReal) else bat X a.val b.val (d.val - 1) := by
  have hlt := d.isLt
  by_cases h : d.val = 0
  · rw [if_pos h]
    refine (concatenate_pair_apply_left (t := S48x48x48) (s₁ := S48x48x1) (s₂ := S48x48x47) (2 : Fin 3) _ _ _ (ix3 a b d) rfl
      (ix3 a b (0 : Fin 1)) (fun e => ?_)).trans (pay7_apply _)
    match e with
    | ⟨0, _⟩ => rfl
    | ⟨1, _⟩ => rfl
    | ⟨2, _⟩ => exact h.symm
  · rw [if_neg h]
    refine (concatenate_pair_apply_right (t := S48x48x48) (s₁ := S48x48x1) (s₂ := S48x48x47) (2 : Fin 3) _ _ _ (ix3 a b d) rfl rfl
      (ix3 a b (⟨d.val - 1, by omega⟩ : Fin 47)) (fun e he => ?_) ?_).trans ?_
    · match e with
      | ⟨0, _⟩ => rfl
      | ⟨1, _⟩ => rfl
      | ⟨2, _⟩ => exact absurd rfl he
    · show (d.val - 1) + 1 = d.val; omega
    · refine (extractStridedSlice_apply ![0, 0, 0] X _ _ (ix3 a b (⟨d.val - 1, by omega⟩ : Fin 48)) (fun e => ?_)).trans ?_
      · match e with
        | ⟨0, _⟩ => show a.val = 0 + a.val; omega
        | ⟨1, _⟩ => show b.val = 0 + b.val; omega
        | ⟨2, _⟩ => show d.val - 1 = 0 + (d.val - 1); omega
      · unfold bat; rw [dif_pos ⟨a.isLt, b.isLt, by omega⟩]

/-- The block shifted one plane down along z, a zero plane behind. -/
theorem cat_zp :
    concatenate S48x48x48 2 [⟨S48x48x47, extractStridedSlice S48x48x47 ![0, 0, 1] X slices_S48x48x48_o0_0_1_S48x48x47⟩, ⟨S48x48x1, k0_pay7 (F := Ideal)⟩]
        concatenates_S48x48x47_S48x48x1_S48x48x48_d2 (ix3 a b d)
      = if d.val = 47 then (0 : EReal) else bat X a.val b.val (d.val + 1) := by
  have hlt := d.isLt
  by_cases h : d.val = 47
  · rw [if_pos h]
    refine (concatenate_pair_apply_right (t := S48x48x48) (s₁ := S48x48x47) (s₂ := S48x48x1) (2 : Fin 3) _ _ _ (ix3 a b d) rfl rfl
      (ix3 a b (0 : Fin 1)) (fun e he => ?_) ?_).trans (pay7_apply _)
    · match e with
      | ⟨0, _⟩ => rfl
      | ⟨1, _⟩ => rfl
      | ⟨2, _⟩ => exact absurd rfl he
    · show 0 + 47 = d.val; omega
  · rw [if_neg h]
    refine (concatenate_pair_apply_left (t := S48x48x48) (s₁ := S48x48x47) (s₂ := S48x48x1) (2 : Fin 3) _ _ _ (ix3 a b d) rfl
      (ix3 a b (⟨d.val, by omega⟩ : Fin 47)) (fun e => ?_)).trans ?_
    · match e with
      | ⟨0, _⟩ => rfl
      | ⟨1, _⟩ => rfl
      | ⟨2, _⟩ => rfl
    · refine (extractStridedSlice_apply ![0, 0, 1] X _ _ (ix3 a b (⟨d.val + 1, by omega⟩ : Fin 48)) (fun e => ?_)).trans ?_
      · match e with
        | ⟨0, _⟩ => show a.val = 0 + a.val; omega
        | ⟨1, _⟩ => show b.val = 0 + b.val; omega
        | ⟨2, _⟩ => show d.val + 1 = 1 + d.val; omega
      · unfold bat; rw [dif_pos ⟨a.isLt, b.isLt, by omega⟩]

end Own

section Out0

variable (m : (ℓ : Loc nD τ sig) → Buf (Elt Ideal) ℓ)

/-- The block's own stencil at a point: the six shifted blocks, zero beyond the block, added in order, less six times
    the centre. -/
theorem out0_apply (c : Dev nD) (a b d : Fin 48) :
    rdO (out0 (F := Ideal) m c) a b d
      = ((((((if a.val = 0 then (0 : EReal) else bat (xstg m c) (a.val - 1) b.val d.val)
            + (if a.val = 47 then (0 : EReal) else bat (xstg m c) (a.val + 1) b.val d.val))
            + (if b.val = 0 then (0 : EReal) else bat (xstg m c) a.val (b.val - 1) d.val))
            + (if b.val = 47 then (0 : EReal) else bat (xstg m c) a.val (b.val + 1) d.val))
            + (if d.val = 0 then (0 : EReal) else bat (xstg m c) a.val b.val (d.val - 1)))
            + (if d.val = 47 then (0 : EReal) else bat (xstg m c) a.val b.val (d.val + 1)))
          - Cert.RefSide.SIX * rdX (xstg m c) a b d := by
  unfold rdO rdX out0 k0_pay9 k0_pay8
  rw [val_blk_eq]
  simp only [subf_apply, addf_apply, mulf_apply]
  rw [cat_xm, cat_xp, cat_ym, cat_yp, cat_zm, cat_zp]
  rfl

end Out0

end Cert.KernelIdeal.Halo.Val

end
-- ==== Proof.ValStages.lean ====
/-
  The twelve stages after the block's own stencil, read at a point: for each direction with a neighbour the landed face
  is added on the boundary plane of that side and nowhere else; for each direction without one that plane becomes zero
  and every other point is kept.
-/
import proofs.«900537_g7700000000000538_dist_halo3d_v7x_xyz2x4x4_s48_f32_1_alg».proof.Proof.ValBase

noncomputable section

namespace Cert.KernelIdeal.Halo.Val

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The landing buffers read at an index -/

section Stages

variable (m : (ℓ : Loc nD τ sig) → Buf (Elt Ideal) ℓ)

theorem hC0_apply (c : Dev nD) (j : S2x48x48.Idx) : hC m 0 c j
    = if (j 0).val = 0 then xstg m (nbr 0 c) (ix3 (47 : Fin 48) (j 1) (j 2)) else xstg m (nbr 1 c) (ix3 (0 : Fin 48) (j 1) (j 2)) := rfl
theorem hC1_apply (c : Dev nD) (j : S2x48x48.Idx) : hC m 1 c j
    = if (j 0).val = 0 then xstg m (nbr 2 c) (ix3 (j 1) (47 : Fin 48) (j 2)) else xstg m (nbr 3 c) (ix3 (j 1) (0 : Fin 48) (j 2)) := rfl
theorem hC2_apply (c : Dev nD) (j : S2x48x48.Idx) : hC m 2 c j
    = if (j 0).val = 0 then xstg m (nbr 4 c) (ix3 (j 1) (j 2) (47 : Fin 48)) else xstg m (nbr 5 c) (ix3 (j 1) (j 2) (0 : Fin 48)) := rfl

/-- The face landed from direction 0, as the load of its slot reads it. -/
theorem getH0 (c : Dev nD) (b d : Fin 48) :
    getH hxM rS0 (hC (F := Ideal) m 0 c) (ix3 (0 : Fin 1) b d) = xstg m (nbr 0 c) (ix3 (47 : Fin 48) b d) := by
  show hC m 0 c ((rS0).toLoadRect.idx (ix3 (0 : Fin 1) b d)) = _
  have e1 : ((rS0).toLoadRect.idx (ix3 (0 : Fin 1) b d)) 1 = b := Fin.ext (show 0 + 1 * b.val = b.val by omega)
  have e2 : ((rS0).toLoadRect.idx (ix3 (0 : Fin 1) b d)) 2 = d := Fin.ext (show 0 + 1 * d.val = d.val by omega)
  rw [hC0_apply, if_pos (show (((rS0).toLoadRect.idx (ix3 (0 : Fin 1) b d)) 0).val = 0 from rfl), e1, e2]

/-- The face landed from direction 1, as the load of its slot reads it. -/
theorem getH1 (c : Dev nD) (b d : Fin 48) :
    getH hxM rS1 (hC (F := Ideal) m 0 c) (ix3 (0 : Fin 1) b d) = xstg m (nbr 1 c) (ix3 (0 : Fin 48) b d) := by
  show hC m 0 c ((rS1).toLoadRect.idx (ix3 (0 : Fin 1) b d)) = _
  have e1 : ((rS1).toLoadRect.idx (ix3 (0 : Fin 1) b d)) 1 = b := Fin.ext (show 0 + 1 * b.val = b.val by omega)
  have e2 : ((rS1).toLoadRect.idx (ix3 (0 : Fin 1) b d)) 2 = d := Fin.ext (show 0 + 1 * d.val = d.val by omega)
  rw [hC0_apply, if_neg (show ¬ (((rS1).toLoadRect.idx (ix3 (0 : Fin 1) b d)) 0).val = 0 from fun h => absurd (show (1 : ℕ) = 0 from h) (by decide)), e1, e2]

/-- The face landed from direction 2, as the load of its slot reads it. -/
theorem getH2 (c : Dev nD) (a d : Fin 48) :
    getH hyM rS0 (hC (F := Ideal) m 1 c) (ix3 (0 : Fin 1) a d) = xstg m (nbr 2 c) (ix3 a (47 : Fin 48) d) := by
  show hC m 1 c ((rS0).toLoadRect.idx (ix3 (0 : Fin 1) a d)) = _
  have e1 : ((rS0).toLoadRect.idx (ix3 (0 : Fin 1) a d)) 1 = a := Fin.ext (show 0 + 1 * a.val = a.val by omega)
  have e2 : ((rS0).toLoadRect.idx (ix3 (0 : Fin 1) a d)) 2 = d := Fin.ext (show 0 + 1 * d.val = d.val by omega)
  rw [hC1_apply, if_pos (show (((rS0).toLoadRect.idx (ix3 (0 : Fin 1) a d)) 0).val = 0 from rfl), e1, e2]

/-- The face landed from direction 3, as the load of its slot reads it. -/
theorem getH3 (c : Dev nD) (a d : Fin 48) :
    getH hyM rS1 (hC (F := Ideal) m 1 c) (ix3 (0 : Fin 1) a d) = xstg m (nbr 3 c) (ix3 a (0 : Fin 48) d) := by
  show hC m 1 c ((rS1).toLoadRect.idx (ix3 (0 : Fin 1) a d)) = _
  have e1 : ((rS1).toLoadRect.idx (ix3 (0 : Fin 1) a d)) 1 = a := Fin.ext (show 0 + 1 * a.val = a.val by omega)
  have e2 : ((rS1).toLoadRect.idx (ix3 (0 : Fin 1) a d)) 2 = d := Fin.ext (show 0 + 1 * d.val = d.val by omega)
  rw [hC1_apply, if_neg (show ¬ (((rS1).toLoadRect.idx (ix3 (0 : Fin 1) a d)) 0).val = 0 from fun h => absurd (show (1 : ℕ) = 0 from h) (by decide)), e1, e2]

/-- The face landed from direction 4, as the load of its slot reads it. -/
theorem getH4 (c : Dev nD) (a b : Fin 48) :
    getH hzM rS0 (hC (F := Ideal) m 2 c) (ix3 (0 : Fin 1) a b) = xstg m (nbr 4 c) (ix3 a b (47 : Fin 48)) := by
  show hC m 2 c ((rS0).toLoadRect.idx (ix3 (0 : Fin 1) a b)) = _
  have e1 : ((rS0).toLoadRect.idx (ix3 (0 : Fin 1) a b)) 1 = a := Fin.ext (show 0 + 1 * a.val = a.val by omega)
  have e2 : ((rS0).toLoadRect.idx (ix3 (0 : Fin 1) a b)) 2 = b := Fin.ext (show 0 + 1 * b.val = b.val by omega)
  rw [hC2_apply, if_pos (show (((rS0).toLoadRect.idx (ix3 (0 : Fin 1) a b)) 0).val = 0 from rfl), e1, e2]

/-- The face landed from direction 5, as the load of its slot reads it. -/
theorem getH5 (c : Dev nD) (a b : Fin 48) :
    getH hzM rS1 (hC (F := Ideal) m 2 c) (ix3 (0 : Fin 1) a b) = xstg m (nbr 5 c) (ix3 a b (0 : Fin 48)) := by
  show hC m 2 c ((rS1).toLoadRect.idx (ix3 (0 : Fin 1) a b)) = _
  have e1 : ((rS1).toLoadRect.idx (ix3 (0 : Fin 1) a b)) 1 = a := Fin.ext (show 0 + 1 * a.val = a.val by omega)
  have e2 : ((rS1).toLoadRect.idx (ix3 (0 : Fin 1) a b)) 2 = b := Fin.ext (show 0 + 1 * b.val = b.val by omega)
  rw [hC2_apply, if_neg (show ¬ (((rS1).toLoadRect.idx (ix3 (0 : Fin 1) a b)) 0).val = 0 from fun h => absurd (show (1 : ℕ) = 0 from h) (by decide)), e1, e2]

/-! ## The six additions -/

/-- Where the device has a neighbour in direction 0, its landed face is added onto the boundary plane on that side. -/
theorem out1_apply (c : Dev nD) (a b d : Fin 48) :
    rdO (out1 (F := Ideal) m c) a b d
      = rdO (out0 (F := Ideal) m c) a b d + (if has 0 c = true ∧ a.val = 0 then rdX (xstg m (nbr 0 c)) 47 b d else 0) := by
  have hlt := a.isLt
  unfold rdO rdX out1
  by_cases hh : has 0 c = true
  · rw [if_pos hh]
    by_cases hv : a.val = 0
    · obtain rfl : a = (0 : Fin 48) := Fin.ext hv
      rw [if_pos ⟨hh, rfl⟩]
      rw [putO_hit (off := ![0, 0, 0]) (size := S1x48x48.size) _ _ _ (ix3 (0 : Fin 48) b d) (ix3 (0 : Fin 1) b d) (fun e => match e with | ⟨0, _⟩ => (show (0 : ℕ) = 0 + 0 from rfl) | ⟨1, _⟩ => (show b.val = 0 + b.val by omega) | ⟨2, _⟩ => (show d.val = 0 + d.val by omega))]
      rw [pay10_apply _ _ (ix3 (0 : Fin 1) b d), getH0,
        getO_apply rX0 _ (ix3 (0 : Fin 1) b d) (ix3 (0 : Fin 48) b d) (fun e => match e with | ⟨0, _⟩ => (show (0 : ℕ) = 0 + 1 * 0 from rfl) | ⟨1, _⟩ => (show b.val = 0 + 1 * b.val by omega) | ⟨2, _⟩ => (show d.val = 0 + 1 * d.val by omega))]
    · rw [if_neg (fun h => hv h.2), add_zero]
      exact putO_miss (off := ![0, 0, 0]) (size := S1x48x48.size) _ _ _ _ (0 : Fin 3) (Or.inr (show 0 + 1 ≤ a.val by omega))
  · rw [if_neg hh, if_neg (fun h => hh h.1), add_zero]

/-- Where the device has a neighbour in direction 1, its landed face is added onto the boundary plane on that side. -/
theorem out2_apply (c : Dev nD) (a b d : Fin 48) :
    rdO (out2 (F := Ideal) m c) a b d
      = rdO (out1 (F := Ideal) m c) a b d + (if has 1 c = true ∧ a.val = 47 then rdX (xstg m (nbr 1 c)) 0 b d else 0) := by
  have hlt := a.isLt
  unfold rdO rdX out2
  by_cases hh : has 1 c = true
  · rw [if_pos hh]
    by_cases hv : a.val = 47
    · obtain rfl : a = (47 : Fin 48) := Fin.ext hv
      rw [if_pos ⟨hh, rfl⟩]
      rw [putO_hit (off := ![47, 0, 0]) (size := S1x48x48.size) _ _ _ (ix3 (47 : Fin 48) b d) (ix3 (0 : Fin 1) b d) (fun e => match e with | ⟨0, _⟩ => (show (47 : ℕ) = 47 + 0 from rfl) | ⟨1, _⟩ => (show b.val = 0 + b.val by omega) | ⟨2, _⟩ => (show d.val = 0 + d.val by omega))]
      rw [pay11_apply _ _ (ix3 (0 : Fin 1) b d), getH1,
        getO_apply rX1 _ (ix3 (0 : Fin 1) b d) (ix3 (47 : Fin 48) b d) (fun e => match e with | ⟨0, _⟩ => (show (47 : ℕ) = 47 + 1 * 0 from rfl) | ⟨1, _⟩ => (show b.val = 0 + 1 * b.val by omega) | ⟨2, _⟩ => (show d.val = 0 + 1 * d.val by omega))]
    · rw [if_neg (fun h => hv h.2), add_zero]
      exact putO_miss (off := ![47, 0, 0]) (size := S1x48x48.size) _ _ _ _ (0 : Fin 3) (Or.inl (show a.val < 47 by omega))
  · rw [if_neg hh, if_neg (fun h => hh h.1), add_zero]

/-- Where the device has a neighbour in direction 2, its landed face is added onto the boundary plane on that side. -/
theorem out3_apply (c : Dev nD) (a b d : Fin 48) :
    rdO (out3 (F := Ideal) m c) a b d
      = rdO (out2 (F := Ideal) m c) a b d + (if has 2 c = true ∧ b.val = 0 then rdX (xstg m (nbr 2 c)) a 47 d else 0) := by
  have hlt := b.isLt
  unfold rdO rdX out3
  by_cases hh : has 2 c = true
  · rw [if_pos hh]
    by_cases hv : b.val = 0
    · obtain rfl : b = (0 : Fin 48) := Fin.ext hv
      rw [if_pos ⟨hh, rfl⟩]
      rw [putO_hit (off := ![0, 0, 0]) (size := S48x1x48.size) _ _ _ (ix3 a (0 : Fin 48) d) (ix3 a (0 : Fin 1) d) (fun e => match e with | ⟨0, _⟩ => (show a.val = 0 + a.val by omega) | ⟨1, _⟩ => (show (0 : ℕ) = 0 + 0 from rfl) | ⟨2, _⟩ => (show d.val = 0 + d.val by omega))]
      rw [pay12_apply _ _ a (0 : Fin 1) d, getH2,
        getO_apply rY0 _ (ix3 a (0 : Fin 1) d) (ix3 a (0 : Fin 48) d) (fun e => match e with | ⟨0, _⟩ => (show a.val = 0 + 1 * a.val by omega) | ⟨1, _⟩ => (show (0 : ℕ) = 0 + 1 * 0 from rfl) | ⟨2, _⟩ => (show d.val = 0 + 1 * d.val by omega))]
    · rw [if_neg (fun h => hv h.2), add_zero]
      exact putO_miss (off := ![0, 0, 0]) (size := S48x1x48.size) _ _ _ _ (1 : Fin 3) (Or.inr (show 0 + 1 ≤ b.val by omega))
  · rw [if_neg hh, if_neg (fun h => hh h.1), add_zero]

/-- Where the device has a neighbour in direction 3, its landed face is added onto the boundary plane on that side. -/
theorem out4_apply (c : Dev nD) (a b d : Fin 48) :
    rdO (out4 (F := Ideal) m c) a b d
      = rdO (out3 (F := Ideal) m c) a b d + (if has 3 c = true ∧ b.val = 47 then rdX (xstg m (nbr 3 c)) a 0 d else 0) := by
  have hlt := b.isLt
  unfold rdO rdX out4
  by_cases hh : has 3 c = true
  · rw [if_pos hh]
    by_cases hv : b.val = 47
    · obtain rfl : b = (47 : Fin 48) := Fin.ext hv
      rw [if_pos ⟨hh, rfl⟩]
      rw [putO_hit (off := ![0, 47, 0]) (size := S48x1x48.size) _ _ _ (ix3 a (47 : Fin 48) d) (ix3 a (0 : Fin 1) d) (fun e => match e with | ⟨0, _⟩ => (show a.val = 0 + a.val by omega) | ⟨1, _⟩ => (show (47 : ℕ) = 47 + 0 from rfl) | ⟨2, _⟩ => (show d.val = 0 + d.val by omega))]
      rw [pay13_apply _ _ a (0 : Fin 1) d, getH3,
        getO_apply rY1 _ (ix3 a (0 : Fin 1) d) (ix3 a (47 : Fin 48) d) (fun e => match e with | ⟨0, _⟩ => (show a.val = 0 + 1 * a.val by omega) | ⟨1, _⟩ => (show (47 : ℕ) = 47 + 1 * 0 from rfl) | ⟨2, _⟩ => (show d.val = 0 + 1 * d.val by omega))]
    · rw [if_neg (fun h => hv h.2), add_zero]
      exact putO_miss (off := ![0, 47, 0]) (size := S48x1x48.size) _ _ _ _ (1 : Fin 3) (Or.inl (show b.val < 47 by omega))
  · rw [if_neg hh, if_neg (fun h => hh h.1), add_zero]

/-- Where the device has a neighbour in direction 4, its landed face is added onto the boundary plane on that side. -/
theorem out5_apply (c : Dev nD) (a b d : Fin 48) :
    rdO (out5 (F := Ideal) m c) a b d
      = rdO (out4 (F := Ideal) m c) a b d + (if has 4 c = true ∧ d.val = 0 then rdX (xstg m (nbr 4 c)) a b 47 else 0) := by
  have hlt := d.isLt
  unfold rdO rdX out5
  by_cases hh : has 4 c = true
  · rw [if_pos hh]
    by_cases hv : d.val = 0
    · obtain rfl : d = (0 : Fin 48) := Fin.ext hv
      rw [if_pos ⟨hh, rfl⟩]
      rw [putO_hit (off := ![0, 0, 0]) (size := S48x48x1.size) _ _ _ (ix3 a b (0 : Fin 48)) (ix3 a b (0 : Fin 1)) (fun e => match e with | ⟨0, _⟩ => (show a.val = 0 + a.val by omega) | ⟨1, _⟩ => (show b.val = 0 + b.val by omega) | ⟨2, _⟩ => (show (0 : ℕ) = 0 + 0 from rfl))]
      rw [pay14_apply _ _ a b (0 : Fin 1), getH4,
        getO_apply rZ0 _ (ix3 a b (0 : Fin 1)) (ix3 a b (0 : Fin 48)) (fun e => match e with | ⟨0, _⟩ => (show a.val = 0 + 1 * a.val by omega) | ⟨1, _⟩ => (show b.val = 0 + 1 * b.val by omega) | ⟨2, _⟩ => (show (0 : ℕ) = 0 + 1 * 0 from rfl))]
    · rw [if_neg (fun h => hv h.2), add_zero]
      exact putO_miss (off := ![0, 0, 0]) (size := S48x48x1.size) _ _ _ _ (2 : Fin 3) (Or.inr (show 0 + 1 ≤ d.val by omega))
  · rw [if_neg hh, if_neg (fun h => hh h.1), add_zero]

/-- Where the device has a neighbour in direction 5, its landed face is added onto the boundary plane on that side. -/
theorem out6_apply (c : Dev nD) (a b d : Fin 48) :
    rdO (out6 (F := Ideal) m c) a b d
      = rdO (out5 (F := Ideal) m c) a b d + (if has 5 c = true ∧ d.val = 47 then rdX (xstg m (nbr 5 c)) a b 0 else 0) := by
  have hlt := d.isLt
  unfold rdO rdX out6
  by_cases hh : has 5 c = true
  · rw [if_pos hh]
    by_cases hv : d.val = 47
    · obtain rfl : d = (47 : Fin 48) := Fin.ext hv
      rw [if_pos ⟨hh, rfl⟩]
      rw [putO_hit (off := ![0, 0, 47]) (size := S48x48x1.size) _ _ _ (ix3 a b (47 : Fin 48)) (ix3 a b (0 : Fin 1)) (fun e => match e with | ⟨0, _⟩ => (show a.val = 0 + a.val by omega) | ⟨1, _⟩ => (show b.val = 0 + b.val by omega) | ⟨2, _⟩ => (show (47 : ℕ) = 47 + 0 from rfl))]
      rw [pay15_apply _ _ a b (0 : Fin 1), getH5,
        getO_apply rZ1 _ (ix3 a b (0 : Fin 1)) (ix3 a b (47 : Fin 48)) (fun e => match e with | ⟨0, _⟩ => (show a.val = 0 + 1 * a.val by omega) | ⟨1, _⟩ => (show b.val = 0 + 1 * b.val by omega) | ⟨2, _⟩ => (show (47 : ℕ) = 47 + 1 * 0 from rfl))]
    · rw [if_neg (fun h => hv h.2), add_zero]
      exact putO_miss (off := ![0, 0, 47]) (size := S48x48x1.size) _ _ _ _ (2 : Fin 3) (Or.inl (show d.val < 47 by omega))
  · rw [if_neg hh, if_neg (fun h => hh h.1), add_zero]

/-! ## The six zeroings -/

/-- Where the device has no neighbour in direction 0, the boundary plane on that side is zeroed. -/
theorem out7_apply (c : Dev nD) (a b d : Fin 48) :
    rdO (out7 (F := Ideal) m c) a b d
      = if has 0 c = false ∧ a.val = 0 then 0 else rdO (out6 (F := Ideal) m c) a b d := by
  have hlt := a.isLt
  unfold rdO out7
  by_cases hh : has 0 c = false
  · rw [if_pos hh]
    by_cases hv : a.val = 0
    · obtain rfl : a = (0 : Fin 48) := Fin.ext hv
      rw [if_pos ⟨hh, rfl⟩]
      rw [putO_hit (off := ![0, 0, 0]) (size := S1x48x48.size) _ _ _ (ix3 (0 : Fin 48) b d) (ix3 (0 : Fin 1) b d) (fun e => match e with | ⟨0, _⟩ => (show (0 : ℕ) = 0 + 0 from rfl) | ⟨1, _⟩ => (show b.val = 0 + b.val by omega) | ⟨2, _⟩ => (show d.val = 0 + d.val by omega))]
      exact pay16_apply _
    · rw [if_neg (fun h => hv h.2)]
      exact putO_miss (off := ![0, 0, 0]) (size := S1x48x48.size) _ _ _ _ (0 : Fin 3) (Or.inr (show 0 + 1 ≤ a.val by omega))
  · rw [if_neg hh, if_neg (fun h => hh h.1)]

/-- Where the device has no neighbour in direction 1, the boundary plane on that side is zeroed. -/
theorem out8_apply (c : Dev nD) (a b d : Fin 48) :
    rdO (out8 (F := Ideal) m c) a b d
      = if has 1 c = false ∧ a.val = 47 then 0 else rdO (out7 (F := Ideal) m c) a b d := by
  have hlt := a.isLt
  unfold rdO out8
  by_cases hh : has 1 c = false
  · rw [if_pos hh]
    by_cases hv : a.val = 47
    · obtain rfl : a = (47 : Fin 48) := Fin.ext hv
      rw [if_pos ⟨hh, rfl⟩]
      rw [putO_hit (off := ![47, 0, 0]) (size := S1x48x48.size) _ _ _ (ix3 (47 : Fin 48) b d) (ix3 (0 : Fin 1) b d) (fun e => match e with | ⟨0, _⟩ => (show (47 : ℕ) = 47 + 0 from rfl) | ⟨1, _⟩ => (show b.val = 0 + b.val by omega) | ⟨2, _⟩ => (show d.val = 0 + d.val by omega))]
      exact pay17_apply _
    · rw [if_neg (fun h => hv h.2)]
      exact putO_miss (off := ![47, 0, 0]) (size := S1x48x48.size) _ _ _ _ (0 : Fin 3) (Or.inl (show a.val < 47 by omega))
  · rw [if_neg hh, if_neg (fun h => hh h.1)]

/-- Where the device has no neighbour in direction 2, the boundary plane on that side is zeroed. -/
theorem out9_apply (c : Dev nD) (a b d : Fin 48) :
    rdO (out9 (F := Ideal) m c) a b d
      = if has 2 c = false ∧ b.val = 0 then 0 else rdO (out8 (F := Ideal) m c) a b d := by
  have hlt := b.isLt
  unfold rdO out9
  by_cases hh : has 2 c = false
  · rw [if_pos hh]
    by_cases hv : b.val = 0
    · obtain rfl : b = (0 : Fin 48) := Fin.ext hv
      rw [if_pos ⟨hh, rfl⟩]
      rw [putO_hit (off := ![0, 0, 0]) (size := S48x1x48.size) _ _ _ (ix3 a (0 : Fin 48) d) (ix3 a (0 : Fin 1) d) (fun e => match e with | ⟨0, _⟩ => (show a.val = 0 + a.val by omega) | ⟨1, _⟩ => (show (0 : ℕ) = 0 + 0 from rfl) | ⟨2, _⟩ => (show d.val = 0 + d.val by omega))]
      exact pay18_apply _
    · rw [if_neg (fun h => hv h.2)]
      exact putO_miss (off := ![0, 0, 0]) (size := S48x1x48.size) _ _ _ _ (1 : Fin 3) (Or.inr (show 0 + 1 ≤ b.val by omega))
  · rw [if_neg hh, if_neg (fun h => hh h.1)]

/-- Where the device has no neighbour in direction 3, the boundary plane on that side is zeroed. -/
theorem out10_apply (c : Dev nD) (a b d : Fin 48) :
    rdO (out10 (F := Ideal) m c) a b d
      = if has 3 c = false ∧ b.val = 47 then 0 else rdO (out9 (F := Ideal) m c) a b d := by
  have hlt := b.isLt
  unfold rdO out10
  by_cases hh : has 3 c = false
  · rw [if_pos hh]
    by_cases hv : b.val = 47
    · obtain rfl : b = (47 : Fin 48) := Fin.ext hv
      rw [if_pos ⟨hh, rfl⟩]
      rw [putO_hit (off := ![0, 47, 0]) (size := S48x1x48.size) _ _ _ (ix3 a (47 : Fin 48) d) (ix3 a (0 : Fin 1) d) (fun e => match e with | ⟨0, _⟩ => (show a.val = 0 + a.val by omega) | ⟨1, _⟩ => (show (47 : ℕ) = 47 + 0 from rfl) | ⟨2, _⟩ => (show d.val = 0 + d.val by omega))]
      exact pay19_apply _
    · rw [if_neg (fun h => hv h.2)]
      exact putO_miss (off := ![0, 47, 0]) (size := S48x1x48.size) _ _ _ _ (1 : Fin 3) (Or.inl (show b.val < 47 by omega))
  · rw [if_neg hh, if_neg (fun h => hh h.1)]

/-- Where the device has no neighbour in direction 4, the boundary plane on that side is zeroed. -/
theorem out11_apply (c : Dev nD) (a b d : Fin 48) :
    rdO (out11 (F := Ideal) m c) a b d
      = if has 4 c = false ∧ d.val = 0 then 0 else rdO (out10 (F := Ideal) m c) a b d := by
  have hlt := d.isLt
  unfold rdO out11
  by_cases hh : has 4 c = false
  · rw [if_pos hh]
    by_cases hv : d.val = 0
    · obtain rfl : d = (0 : Fin 48) := Fin.ext hv
      rw [if_pos ⟨hh, rfl⟩]
      rw [putO_hit (off := ![0, 0, 0]) (size := S48x48x1.size) _ _ _ (ix3 a b (0 : Fin 48)) (ix3 a b (0 : Fin 1)) (fun e => match e with | ⟨0, _⟩ => (show a.val = 0 + a.val by omega) | ⟨1, _⟩ => (show b.val = 0 + b.val by omega) | ⟨2, _⟩ => (show (0 : ℕ) = 0 + 0 from rfl))]
      exact pay20_apply _
    · rw [if_neg (fun h => hv h.2)]
      exact putO_miss (off := ![0, 0, 0]) (size := S48x48x1.size) _ _ _ _ (2 : Fin 3) (Or.inr (show 0 + 1 ≤ d.val by omega))
  · rw [if_neg hh, if_neg (fun h => hh h.1)]

/-- Where the device has no neighbour in direction 5, the boundary plane on that side is zeroed. -/
theorem outFinal_apply (c : Dev nD) (a b d : Fin 48) :
    rdO (outFinal (F := Ideal) m c) a b d
      = if has 5 c = false ∧ d.val = 47 then 0 else rdO (out11 (F := Ideal) m c) a b d := by
  have hlt := d.isLt
  unfold rdO outFinal
  by_cases hh : has 5 c = false
  · rw [if_pos hh]
    by_cases hv : d.val = 47
    · obtain rfl : d = (47 : Fin 48) := Fin.ext hv
      rw [if_pos ⟨hh, rfl⟩]
      rw [putO_hit (off := ![0, 0, 47]) (size := S48x48x1.size) _ _ _ (ix3 a b (47 : Fin 48)) (ix3 a b (0 : Fin 1)) (fun e => match e with | ⟨0, _⟩ => (show a.val = 0 + a.val by omega) | ⟨1, _⟩ => (show b.val = 0 + b.val by omega) | ⟨2, _⟩ => (show (47 : ℕ) = 47 + 0 from rfl))]
      exact pay1_apply _
    · rw [if_neg (fun h => hv h.2)]
      exact putO_miss (off := ![0, 0, 47]) (size := S48x48x1.size) _ _ _ _ (2 : Fin 3) (Or.inl (show d.val < 47 by omega))
  · rw [if_neg hh, if_neg (fun h => hh h.1)]

end Stages

end Cert.KernelIdeal.Halo.Val

end
-- ==== Proof.ValFinal.lean ====
/-
  The kernel's result block on every device is the device's block of the seven-point stencil of the whole array.

  Local index (a, b, d) of the device at mesh coordinates (gx, gy, gz) is the point (48 gx + a, 48 gy + b, 48 gz + d) of the
  whole array. On a boundary plane of the block with no neighbour behind it the point lies on the outer frame and both
  sides are zero. Elsewhere the own shifted term and the landed face of each direction together are the whole array one
  step that way (one of the two is zero), and the sum regroups by commutativity and associativity of addition.
-/
import proofs.«900537_g7700000000000538_dist_halo3d_v7x_xyz2x4x4_s48_f32_1_alg».proof.Proof.ValOwn
import proofs.«900537_g7700000000000538_dist_halo3d_v7x_xyz2x4x4_s48_f32_1_alg».proof.Proof.ValStages
import proofs.«900537_g7700000000000538_dist_halo3d_v7x_xyz2x4x4_s48_f32_1_alg».proof.Proof.Spec
import proofs.«900537_g7700000000000538_dist_halo3d_v7x_xyz2x4x4_s48_f32_1_alg».proof.Proof.RefSide
import Idealize.ShloMosaic.Lib.Layout

noncomputable section

namespace Cert.KernelIdeal.Halo.Val

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The kernel's block against the stencil of the whole array -/

section Final

variable (m : (ℓ : Loc nD τ sig) → Buf (Elt Ideal) ℓ) (U : Cert.Halo.SW.Idx → EReal)
  (hU : ∀ n : Dev nD, m ((n.tc : Thread nD τ).loc main_arg0)
    = Layout.blockN ⟨3, ![48, 48, 48]⟩ ⟨3, ![96, 192, 192]⟩ (Layout.meshBlock [2, 4, 4] ![[0], [1], [2]] n) U)

/-- The device's coordinates on the mesh. -/
def gx (c : Dev nD) : ℕ := c.val / 16
def gy (c : Dev nD) : ℕ := c.val / 4 % 4
def gz (c : Dev nD) : ℕ := c.val % 4

/-- The block a device holds along each axis is its mesh coordinate on that axis. -/
theorem meshBlock_coords : ∀ c : Dev nD,
    ((Layout.meshBlock [2, 4, 4] ![[0], [1], [2]] c) 0).val = gx c
    ∧ ((Layout.meshBlock [2, 4, 4] ![[0], [1], [2]] c) 1).val = gy c
    ∧ ((Layout.meshBlock [2, 4, 4] ![[0], [1], [2]] c) 2).val = gz c := by decide

/-- Having a neighbour, in coordinates; the coordinates' ranges. -/
theorem mesh_facts : ∀ c : Dev nD,
    (has 0 c = true ↔ 1 ≤ gx c) ∧ (has 1 c = true ↔ gx c < 1) ∧ (has 2 c = true ↔ 1 ≤ gy c) ∧ (has 3 c = true ↔ gy c < 3)
    ∧ (has 4 c = true ↔ 1 ≤ gz c) ∧ (has 5 c = true ↔ gz c < 3) ∧ gx c < 2 ∧ gy c < 4 ∧ gz c < 4 := by decide

/-- A neighbour's coordinates. -/
theorem nbr_facts : ∀ c : Dev nD,
    (has 0 c = true → gx (nbr 0 c) + 1 = gx c ∧ gy (nbr 0 c) = gy c ∧ gz (nbr 0 c) = gz c)
    ∧ (has 1 c = true → gx (nbr 1 c) = gx c + 1 ∧ gy (nbr 1 c) = gy c ∧ gz (nbr 1 c) = gz c)
    ∧ (has 2 c = true → gx (nbr 2 c) = gx c ∧ gy (nbr 2 c) + 1 = gy c ∧ gz (nbr 2 c) = gz c)
    ∧ (has 3 c = true → gx (nbr 3 c) = gx c ∧ gy (nbr 3 c) = gy c + 1 ∧ gz (nbr 3 c) = gz c)
    ∧ (has 4 c = true → gx (nbr 4 c) = gx c ∧ gy (nbr 4 c) = gy c ∧ gz (nbr 4 c) + 1 = gz c)
    ∧ (has 5 c = true → gx (nbr 5 c) = gx c ∧ gy (nbr 5 c) = gy c ∧ gz (nbr 5 c) = gz c + 1) := by decide

include hU in
/-- A device's block is the whole array at the device's offset. -/
theorem xstg_at (n : Dev nD) (i j k : Fin 48) :
    rdX (xstg m n) i j k = Cert.Halo.at3 U (48 * gx n + i.val) (48 * gy n + j.val) (48 * gz n + k.val) := by
  unfold rdX
  rw [xstg_eq, hU n]
  obtain ⟨h0, h1, h2⟩ := meshBlock_coords n
  refine (Cert.RefSide.at3_eq U _ ?_ ?_ ?_).symm
  · show ((Layout.meshBlock [2, 4, 4] ![[0], [1], [2]] n) 0).val * 48 + i.val = _
    rw [h0]; omega
  · show ((Layout.meshBlock [2, 4, 4] ![[0], [1], [2]] n) 1).val * 48 + j.val = _
    rw [h1]; omega
  · show ((Layout.meshBlock [2, 4, 4] ![[0], [1], [2]] n) 2).val * 48 + k.val = _
    rw [h2]; omega

include hU in
theorem bat_at (n : Dev nD) (i j k : ℕ) (hi : i < 48) (hj : j < 48) (hk : k < 48) :
    bat (xstg m n) i j k = Cert.Halo.at3 U (48 * gx n + i) (48 * gy n + j) (48 * gz n + k) := by
  unfold bat
  rw [dif_pos ⟨hi, hj, hk⟩]
  exact xstg_at m U hU n ⟨i, hi⟩ ⟨j, hj⟩ ⟨k, hk⟩

include hU in
/-- Direction 0: the block's own shifted term and the landed face together are the whole array one step that way. -/
theorem dir0 (c : Dev nD) (a b d : Fin 48) (hz : ¬(has 0 c = false ∧ a.val = 0)) :
    (if a.val = 0 then (0 : EReal) else bat (xstg m c) (a.val - 1) b.val d.val)
      + (if has 0 c = true ∧ a.val = 0 then rdX (xstg m (nbr 0 c)) 47 b d else 0)
    = Cert.Halo.at3 U (48 * gx c + a.val - 1) (48 * gy c + b.val) (48 * gz c + d.val) := by
  have ha := a.isLt; have hb := b.isLt; have hd := d.isLt
  by_cases h : a.val = 0
  · have hh : has 0 c = true := by
      cases e : has 0 c
      · exact absurd ⟨e, h⟩ hz
      · rfl
    obtain ⟨n0, n1, n2⟩ := (nbr_facts c).1 hh
    rw [if_pos h, if_pos ⟨hh, h⟩, zero_add, xstg_at m U hU]
    show Cert.Halo.at3 U (48 * gx (nbr 0 c) + 47) (48 * gy (nbr 0 c) + b.val) (48 * gz (nbr 0 c) + d.val) = _
    congr 1 <;> omega
  · rw [if_neg h, if_neg (fun hh => h hh.2), add_zero, bat_at m U hU c _ _ _ (by omega) hb hd]
    congr 1 <;> omega

include hU in
/-- Direction 1: the block's own shifted term and the landed face together are the whole array one step that way. -/
theorem dir1 (c : Dev nD) (a b d : Fin 48) (hz : ¬(has 1 c = false ∧ a.val = 47)) :
    (if a.val = 47 then (0 : EReal) else bat (xstg m c) (a.val + 1) b.val d.val)
      + (if has 1 c = true ∧ a.val = 47 then rdX (xstg m (nbr 1 c)) 0 b d else 0)
    = Cert.Halo.at3 U (48 * gx c + a.val + 1) (48 * gy c + b.val) (48 * gz c + d.val) := by
  have ha := a.isLt; have hb := b.isLt; have hd := d.isLt
  by_cases h : a.val = 47
  · have hh : has 1 c = true := by
      cases e : has 1 c
      · exact absurd ⟨e, h⟩ hz
      · rfl
    obtain ⟨n0, n1, n2⟩ := (nbr_facts c).2.1 hh
    rw [if_pos h, if_pos ⟨hh, h⟩, zero_add, xstg_at m U hU]
    show Cert.Halo.at3 U (48 * gx (nbr 1 c) + 0) (48 * gy (nbr 1 c) + b.val) (48 * gz (nbr 1 c) + d.val) = _
    congr 1 <;> omega
  · rw [if_neg h, if_neg (fun hh => h hh.2), add_zero, bat_at m U hU c _ _ _ (by omega) hb hd]
    congr 1 <;> omega

include hU in
/-- Direction 2: the block's own shifted term and the landed face together are the whole array one step that way. -/
theorem dir2 (c : Dev nD) (a b d : Fin 48) (hz : ¬(has 2 c = false ∧ b.val = 0)) :
    (if b.val = 0 then (0 : EReal) else bat (xstg m c) a.val (b.val - 1) d.val)
      + (if has 2 c = true ∧ b.val = 0 then rdX (xstg m (nbr 2 c)) a 47 d else 0)
    = Cert.Halo.at3 U (48 * gx c + a.val) (48 * gy c + b.val - 1) (48 * gz c + d.val) := by
  have ha := a.isLt; have hb := b.isLt; have hd := d.isLt
  by_cases h : b.val = 0
  · have hh : has 2 c = true := by
      cases e : has 2 c
      · exact absurd ⟨e, h⟩ hz
      · rfl
    obtain ⟨n0, n1, n2⟩ := (nbr_facts c).2.2.1 hh
    rw [if_pos h, if_pos ⟨hh, h⟩, zero_add, xstg_at m U hU]
    show Cert.Halo.at3 U (48 * gx (nbr 2 c) + a.val) (48 * gy (nbr 2 c) + 47) (48 * gz (nbr 2 c) + d.val) = _
    congr 1 <;> omega
  · rw [if_neg h, if_neg (fun hh => h hh.2), add_zero, bat_at m U hU c _ _ _ ha (by omega) hd]
    congr 1 <;> omega

include hU in
/-- Direction 3: the block's own shifted term and the landed face together are the whole array one step that way. -/
theorem dir3 (c : Dev nD) (a b d : Fin 48) (hz : ¬(has 3 c = false ∧ b.val = 47)) :
    (if b.val = 47 then (0 : EReal) else bat (xstg m c) a.val (b.val + 1) d.val)
      + (if has 3 c = true ∧ b.val = 47 then rdX (xstg m (nbr 3 c)) a 0 d else 0)
    = Cert.Halo.at3 U (48 * gx c + a.val) (48 * gy c + b.val + 1) (48 * gz c + d.val) := by
  have ha := a.isLt; have hb := b.isLt; have hd := d.isLt
  by_cases h : b.val = 47
  · have hh : has 3 c = true := by
      cases e : has 3 c
      · exact absurd ⟨e, h⟩ hz
      · rfl
    obtain ⟨n0, n1, n2⟩ := (nbr_facts c).2.2.2.1 hh
    rw [if_pos h, if_pos ⟨hh, h⟩, zero_add, xstg_at m U hU]
    show Cert.Halo.at3 U (48 * gx (nbr 3 c) + a.val) (48 * gy (nbr 3 c) + 0) (48 * gz (nbr 3 c) + d.val) = _
    congr 1 <;> omega
  · rw [if_neg h, if_neg (fun hh => h hh.2), add_zero, bat_at m U hU c _ _ _ ha (by omega) hd]
    congr 1 <;> omega

include hU in
/-- Direction 4: the block's own shifted term and the landed face together are the whole array one step that way. -/
theorem dir4 (c : Dev nD) (a b d : Fin 48) (hz : ¬(has 4 c = false ∧ d.val = 0)) :
    (if d.val = 0 then (0 : EReal) else bat (xstg m c) a.val b.val (d.val - 1))
      + (if has 4 c = true ∧ d.val = 0 then rdX (xstg m (nbr 4 c)) a b 47 else 0)
    = Cert.Halo.at3 U (48 * gx c + a.val) (48 * gy c + b.val) (48 * gz c + d.val - 1) := by
  have ha := a.isLt; have hb := b.isLt; have hd := d.isLt
  by_cases h : d.val = 0
  · have hh : has 4 c = true := by
      cases e : has 4 c
      · exact absurd ⟨e, h⟩ hz
      · rfl
    obtain ⟨n0, n1, n2⟩ := (nbr_facts c).2.2.2.2.1 hh
    rw [if_pos h, if_pos ⟨hh, h⟩, zero_add, xstg_at m U hU]
    show Cert.Halo.at3 U (48 * gx (nbr 4 c) + a.val) (48 * gy (nbr 4 c) + b.val) (48 * gz (nbr 4 c) + 47) = _
    congr 1 <;> omega
  · rw [if_neg h, if_neg (fun hh => h hh.2), add_zero, bat_at m U hU c _ _ _ ha hb (by omega)]
    congr 1 <;> omega

include hU in
/-- Direction 5: the block's own shifted term and the landed face together are the whole array one step that way. -/
theorem dir5 (c : Dev nD) (a b d : Fin 48) (hz : ¬(has 5 c = false ∧ d.val = 47)) :
    (if d.val = 47 then (0 : EReal) else bat (xstg m c) a.val b.val (d.val + 1))
      + (if has 5 c = true ∧ d.val = 47 then rdX (xstg m (nbr 5 c)) a b 0 else 0)
    = Cert.Halo.at3 U (48 * gx c + a.val) (48 * gy c + b.val) (48 * gz c + d.val + 1) := by
  have ha := a.isLt; have hb := b.isLt; have hd := d.isLt
  by_cases h : d.val = 47
  · have hh : has 5 c = true := by
      cases e : has 5 c
      · exact absurd ⟨e, h⟩ hz
      · rfl
    obtain ⟨n0, n1, n2⟩ := (nbr_facts c).2.2.2.2.2 hh
    rw [if_pos h, if_pos ⟨hh, h⟩, zero_add, xstg_at m U hU]
    show Cert.Halo.at3 U (48 * gx (nbr 5 c) + a.val) (48 * gy (nbr 5 c) + b.val) (48 * gz (nbr 5 c) + 0) = _
    congr 1 <;> omega
  · rw [if_neg h, if_neg (fun hh => h hh.2), add_zero, bat_at m U hU c _ _ _ ha hb (by omega)]
    congr 1 <;> omega

/-- Six nested zeroings are one zeroing on the disjunction of their conditions. -/
theorem ite6 (p0 p1 p2 p3 p4 p5 : Prop) [Decidable p0] [Decidable p1] [Decidable p2] [Decidable p3] [Decidable p4] [Decidable p5]
    (z v : EReal) :
    (if p5 then z else if p4 then z else if p3 then z else if p2 then z else if p1 then z else if p0 then z else v)
      = if p0 ∨ p1 ∨ p2 ∨ p3 ∨ p4 ∨ p5 then z else v := by
  by_cases h0 : p0 <;> by_cases h1 : p1 <;> by_cases h2 : p2 <;> by_cases h3 : p3 <;> by_cases h4 : p4 <;> by_cases h5 : p5 <;>
    simp [h0, h1, h2, h3, h4, h5]

/-- The six halo terms added after the subtraction regroup beside the six own terms. -/
theorem regroup (xm xp ym yp zm zp e0 e1 e2 e3 e4 e5 s : EReal) :
    (((((((((((xm + xp) + ym) + yp) + zm) + zp) - s) + e0) + e1) + e2) + e3) + e4) + e5
      = ((((((xm + e0) + (xp + e1)) + (ym + e2)) + (yp + e3)) + (zm + e4)) + (zp + e5)) - s := by
  simp only [sub_eq_add_neg]
  ac_rfl

/-- A point of the grid lies strictly inside the outer frame exactly when it lies on no boundary plane of its block that
    has no neighbour behind it. -/
theorem interior_iff (c : Dev nD) (a b d : Fin 48) :
    Cert.Halo.interior (48 * gx c + a.val) (48 * gy c + b.val) (48 * gz c + d.val) ↔ ¬((has 0 c = false ∧ a.val = 0) ∨ (has 1 c = false ∧ a.val = 47) ∨ (has 2 c = false ∧ b.val = 0) ∨ (has 3 c = false ∧ b.val = 47) ∨ (has 4 c = false ∧ d.val = 0) ∨ (has 5 c = false ∧ d.val = 47)) := by
  have ha := a.isLt; have hb := b.isLt; have hd := d.isLt
  obtain ⟨h0, h1, h2, h3, h4, h5, bx, by', bz⟩ := mesh_facts c
  have f0 : has 0 c = false ↔ ¬(1 ≤ gx c) := by rw [Bool.eq_false_iff, Ne, h0]
  have f1 : has 1 c = false ↔ ¬(gx c < 1) := by rw [Bool.eq_false_iff, Ne, h1]
  have f2 : has 2 c = false ↔ ¬(1 ≤ gy c) := by rw [Bool.eq_false_iff, Ne, h2]
  have f3 : has 3 c = false ↔ ¬(gy c < 3) := by rw [Bool.eq_false_iff, Ne, h3]
  have f4 : has 4 c = false ↔ ¬(1 ≤ gz c) := by rw [Bool.eq_false_iff, Ne, h4]
  have f5 : has 5 c = false ↔ ¬(gz c < 3) := by rw [Bool.eq_false_iff, Ne, h5]
  rw [f0, f1, f2, f3, f4, f5]
  unfold Cert.Halo.interior
  omega

include hU in
/-- The kernel's result at a point of a device's block is the stencil of the whole array at the point's place in it. -/
theorem outFinal_point (c : Dev nD) (a b d : Fin 48) :
    rdO (outFinal (F := Ideal) m c) a b d
      = Cert.Halo.lap Cert.RefSide.SIX U (48 * gx c + a.val) (48 * gy c + b.val) (48 * gz c + d.val) := by
  rw [outFinal_apply, out11_apply, out10_apply, out9_apply, out8_apply, out7_apply, ite6]
  unfold Cert.Halo.lap
  by_cases hZ : (has 0 c = false ∧ a.val = 0) ∨ (has 1 c = false ∧ a.val = 47) ∨ (has 2 c = false ∧ b.val = 0) ∨ (has 3 c = false ∧ b.val = 47) ∨ (has 4 c = false ∧ d.val = 0) ∨ (has 5 c = false ∧ d.val = 47)
  · rw [if_pos hZ, if_neg (fun hi => (interior_iff c a b d).1 hi hZ)]
  · rw [if_neg hZ, if_pos ((interior_iff c a b d).2 hZ)]
    rw [out6_apply, out5_apply, out4_apply, out3_apply, out2_apply, out1_apply, out0_apply, regroup]
    rw [dir0 m U hU c a b d (fun h => hZ (Or.inl h)),
      dir1 m U hU c a b d (fun h => hZ (Or.inr (Or.inl h))),
      dir2 m U hU c a b d (fun h => hZ (Or.inr (Or.inr (Or.inl h)))),
      dir3 m U hU c a b d (fun h => hZ (Or.inr (Or.inr (Or.inr (Or.inl h))))),
      dir4 m U hU c a b d (fun h => hZ (Or.inr (Or.inr (Or.inr (Or.inr (Or.inl h)))))),
      dir5 m U hU c a b d (fun h => hZ (Or.inr (Or.inr (Or.inr (Or.inr (Or.inr (h))))))),
      xstg_at m U hU c a b d]

include hU in
/-- Each device's result block is its block of the stencil of the whole array. -/
theorem outFinal_eq (c : Dev nD) :
    outFinal (F := Ideal) m c
      = Layout.blockN ⟨3, ![48, 48, 48]⟩ ⟨3, ![96, 192, 192]⟩ (Layout.meshBlock [2, 4, 4] ![[0], [1], [2]] c)
          (Cert.Halo.lapW Cert.RefSide.SIX U) := by
  funext i
  obtain ⟨a, b, d, rfl⟩ : ∃ a b d : Fin 48, i = ix3 a b d := ⟨i 0, i 1, i 2, eq_ix3 i⟩
  obtain ⟨h0, h1, h2⟩ := meshBlock_coords c
  refine (outFinal_point m U hU c a b d).trans ?_
  show _ = Cert.Halo.lap Cert.RefSide.SIX U
    (((Layout.meshBlock [2, 4, 4] ![[0], [1], [2]] c) 0).val * 48 + a.val)
    (((Layout.meshBlock [2, 4, 4] ![[0], [1], [2]] c) 1).val * 48 + b.val)
    (((Layout.meshBlock [2, 4, 4] ![[0], [1], [2]] c) 2).val * 48 + d.val)
  rw [h0, h1, h2]
  congr 1 <;> omega

end Final

end Cert.KernelIdeal.Halo.Val

namespace Cert.KernelIdeal.Halo

open Cert.KernelIdeal Cert.KernelIdeal.Gen
open Idealize.ShloMosaic Idealize.ShloMosaic.TcCoe Idealize.ShloMosaic.ValueIdx

/-- Each device's result block is its block of the seven-point stencil of the whole array. -/
theorem outFinal_eq (m : (ℓ : Loc nD τ sig) → Buf (Elt Ideal) ℓ) (U : Cert.Halo.SW.Idx → EReal)
    (hU : ∀ n : Dev nD, m ((n.tc : Thread nD τ).loc main_arg0)
      = Layout.blockN ⟨3, ![48, 48, 48]⟩ ⟨3, ![96, 192, 192]⟩ (Layout.meshBlock [2, 4, 4] ![[0], [1], [2]] n) U)
    (c : Dev nD) :
    outFinal (F := Ideal) m c
      = Layout.blockN ⟨3, ![48, 48, 48]⟩ ⟨3, ![96, 192, 192]⟩ (Layout.meshBlock [2, 4, 4] ![[0], [1], [2]] c)
          (Cert.Halo.lapW Cert.RefSide.SIX U) :=
  Val.outFinal_eq m U hU c

end Cert.KernelIdeal.Halo

end
-- ==== Proof.lean ====
/-
  A seven-point stencil on a 96 × 192 × 192 grid, computed block by block on a 2 × 4 × 4 mesh with a halo exchange, against the
  same stencil computed on one device over the whole grid.

  Each device holds a 48 × 48 × 48 block. It tells each neighbour it has (up to six, none beyond the grid's faces) that it has
  entered, waits until every neighbour has done the same, sends each neighbour the boundary plane of its block on that side,
  computes its block's stencil with zeros beyond the block, adds the planes it receives onto its boundary planes, and writes
  zeros on the planes that lie on the grid's outer frame. Every execution ends, no device's input changes, and device `c`'s
  result is block `c` of the whole-grid stencil: at an interior point the block's own six-neighbour sum, with the missing
  neighbour replaced by zero and the received plane added afterwards, is the whole grid's sum, because addition of extended
  reals is commutative and associative and subtraction is adding the negative; on the outer frame both are zero. The word-level
  program and its idealization are the same text, so the two frames share one proof read at two float instances, and the
  idealization rewrote nothing.
-/
import proofs.«900537_g7700000000000538_dist_halo3d_v7x_xyz2x4x4_s48_f32_1_alg».proof.Defs
import proofs.«900537_g7700000000000538_dist_halo3d_v7x_xyz2x4x4_s48_f32_1_alg».proof.Proof.Gen.Kernel
import proofs.«900537_g7700000000000538_dist_halo3d_v7x_xyz2x4x4_s48_f32_1_alg».proof.Proof.Gen.Kernel.Skeleton
import proofs.«900537_g7700000000000538_dist_halo3d_v7x_xyz2x4x4_s48_f32_1_alg».proof.Proof.Gen.Kernel.Launch
import proofs.«900537_g7700000000000538_dist_halo3d_v7x_xyz2x4x4_s48_f32_1_alg».proof.Proof.Gen.Kernel.Points
import proofs.«900537_g7700000000000538_dist_halo3d_v7x_xyz2x4x4_s48_f32_1_alg».proof.Proof.Gen.Kernel.Frame
import proofs.«900537_g7700000000000538_dist_halo3d_v7x_xyz2x4x4_s48_f32_1_alg».proof.Proof.Gen.KernelIdeal
import proofs.«900537_g7700000000000538_dist_halo3d_v7x_xyz2x4x4_s48_f32_1_alg».proof.Proof.Gen.KernelIdeal.Skeleton
import proofs.«900537_g7700000000000538_dist_halo3d_v7x_xyz2x4x4_s48_f32_1_alg».proof.Proof.Gen.KernelIdeal.Launch
import proofs.«900537_g7700000000000538_dist_halo3d_v7x_xyz2x4x4_s48_f32_1_alg».proof.Proof.Gen.KernelIdeal.Points
import proofs.«900537_g7700000000000538_dist_halo3d_v7x_xyz2x4x4_s48_f32_1_alg».proof.Proof.Gen.KernelIdeal.Frame
import proofs.«900537_g7700000000000538_dist_halo3d_v7x_xyz2x4x4_s48_f32_1_alg».proof.Proof.Gen.ReferenceIdeal
import proofs.«900537_g7700000000000538_dist_halo3d_v7x_xyz2x4x4_s48_f32_1_alg».proof.Proof.Gen.Pre_finite_inputs_Kernel
import proofs.«900537_g7700000000000538_dist_halo3d_v7x_xyz2x4x4_s48_f32_1_alg».proof.Proof.Gen.Pre_finite_inputs_ReferenceIdeal
import proofs.«900537_g7700000000000538_dist_halo3d_v7x_xyz2x4x4_s48_f32_1_alg».proof.Proof.Body
import proofs.«900537_g7700000000000538_dist_halo3d_v7x_xyz2x4x4_s48_f32_1_alg».proof.Proof.Launch
import proofs.«900537_g7700000000000538_dist_halo3d_v7x_xyz2x4x4_s48_f32_1_alg».proof.Proof.Bits.Body
import proofs.«900537_g7700000000000538_dist_halo3d_v7x_xyz2x4x4_s48_f32_1_alg».proof.Proof.Bits.Launch
import proofs.«900537_g7700000000000538_dist_halo3d_v7x_xyz2x4x4_s48_f32_1_alg».proof.Proof.RefSide
import proofs.«900537_g7700000000000538_dist_halo3d_v7x_xyz2x4x4_s48_f32_1_alg».proof.Proof.ValFinal
import Idealize.ShloMosaic.Adequacy
import Idealize.ShloMosaic.Init

noncomputable section

namespace Cert.Proof

open Idealize.ShloMosaic Idealize.SL.Sem

/-- The word-level kernel runs to the end on every device and leaves every input block as it was. -/
theorem frame_k : Cert.frame_Kernel := fun m ρ _ =>
  (θ_run (Cert.Kernel.defs (F := Bits)) _ _).mono (fun _ h c => (h c).2)
    (Cert.Kernel.Halo.run_main (F := Bits) m ρ (Cert.Kernel.Halo.body_obligation m))

/-- So does its idealization. -/
theorem frame_ki : Cert.frame_KernelIdeal := fun m ρ _ =>
  (θ_run (Cert.KernelIdeal.defs (F := Ideal)) _ _).mono (fun _ h c => (h c).2)
    (Cert.KernelIdeal.Halo.run_main (F := Ideal) m ρ (Cert.KernelIdeal.Halo.body_obligation m))

/-- The idealized kernel's result on device `c` is block `c` of the whole-grid stencil of the array whose blocks the devices hold. -/
theorem algebraic : Cert.algebraic_KernelIdeal_ReferenceIdeal := fun m g m' g' _ hagree =>
  ⟨Cert.Halo.lapW Cert.RefSide.SIX (m' (((0 : Dev Cert.ReferenceIdeal.nD).tc : Thread _ _).loc Cert.ReferenceIdeal.main_arg0)),
    (θ_run (Cert.KernelIdeal.defs (F := Ideal)) _ _).mono
      (fun _ h c => ⟨(h c).1.trans (Cert.KernelIdeal.Halo.outFinal_eq m _ hagree c), (h c).2⟩)
      (Cert.KernelIdeal.Halo.run_main (F := Ideal) m g (Cert.KernelIdeal.Halo.body_obligation m)),
    Cert.RefSide.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.RefSide.frame_ri, trivial, algebraic⟩

end Cert.Proof

end
